-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S2x2048x4096 .f32) (main_arg1 : FVec F S11008x4096 .f32) (main_arg2 : FVec F S11008x4096 .f32) (main_arg3 : FVec F S4096x11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S4096x11008 : Shape := ⟨2, ![4096, 11008]⟩
abbrev S4096x4096 : Shape := ⟨2, ![4096, 4096]⟩
abbrev S256x4096 : Shape := ⟨2, ![256, 4096]⟩
abbrev S128x4096 : Shape := ⟨2, ![128, 4096]⟩
abbrev S256x128 : Shape := ⟨2, ![256, 128]⟩
abbrev S256x32x128 : Shape := ⟨3, ![256, 32, 128]⟩
abbrev S256x32 : Shape := ⟨2, ![256, 32]⟩
abbrev S256x32x1 : Shape := ⟨3, ![256, 32, 1]⟩
abbrev S128x32x128 : Shape := ⟨3, ![128, 32, 128]⟩
abbrev S128x32 : Shape := ⟨2, ![128, 32]⟩
abbrev S128x32x1 : Shape := ⟨3, ![128, 32, 1]⟩
abbrev S256x1x128 : Shape := ⟨3, ![256, 1, 128]⟩
abbrev S256x1 : Shape := ⟨2, ![256, 1]⟩
abbrev S256x1x1 : Shape := ⟨3, ![256, 1, 1]⟩
abbrev S256x256 : Shape := ⟨2, ![256, 256]⟩
abbrev S4096x256 : Shape := ⟨2, ![4096, 256]⟩
abbrev S4096x2x128 : Shape := ⟨3, ![4096, 2, 128]⟩
abbrev S4096x2 : Shape := ⟨2, ![4096, 2]⟩
abbrev S4096x2x1 : Shape := ⟨3, ![4096, 2, 1]⟩

abbrev nBuf : Space → Nat
  | .hbm => 8
  | .vmem => 15
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4096x4096, .f32⟩
  | .hbm, ⟨5, _⟩ => ⟨S4096x11008, .bf16⟩
  | .hbm, ⟨6, _⟩ => ⟨S4096x4096, .f32⟩
  | .hbm, ⟨7, _⟩ => ⟨S2x2048x4096, .f32⟩
  | .local _ .vmem, ⟨0, _⟩ => ⟨S256x4096, .f32⟩
  | .local _ .vmem, ⟨1, _⟩ => ⟨S256x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S256x128, .bf16⟩
  | .local _ .vmem, ⟨7, _⟩ => ⟨S256x128, .bf16⟩
  | .local _ .vmem, ⟨8, _⟩ => ⟨S256x256, .bf16⟩
  | .local _ .vmem, ⟨9, _⟩ => ⟨S256x256, .bf16⟩
  | .local _ .vmem, ⟨10, _⟩ => ⟨S4096x256, .f32⟩
  | .local _ .vmem, ⟨11, _⟩ => ⟨S4096x256, .f32⟩
  | .local _ .vmem, ⟨12, _⟩ => ⟨S256x4096, .f32⟩
  | .local _ .vmem, ⟨13, _⟩ => ⟨S256x4096, .f32⟩
  | .local _ .vmem, ⟨14, _⟩ => ⟨S256x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![16, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 43], ![false, false]⟩

def k1_cond2 (i : grid1.Coords) : BitVec 1 :=
  let arg1 : BitVec 32 := BitVec.ofNat 32 (i 1).val
  let c42_i32 : BitVec 32 := 42#32
  let v31 : BitVec 1 := Scalar.cmpi .eq arg1 c42_i32
  let v32 : BitVec 32 := Scalar.extui v31
  let c0_i32_13 : BitVec 32 := 0#32
  let v33 : BitVec 1 := Scalar.cmpi .ne v32 c0_i32_13
  v33

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S2x2048x4096_S4096x4096 : S2x2048x4096.ShapeCasts S4096x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S128x4096_S128x4096_0_0 : ∀ a, (![0, 0] : Fin 2 → Nat) a + S128x4096.size a ≤ S128x4096.size a
  h_S128x4096 : 0 < S128x4096.numel
  shapeCasts_S256x4096_S256x32x128 : S256x4096.ShapeCasts S256x32x128
  reduces_S256x32x128_S256x32 : S256x32x128.Reduces [2] S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  shapeCasts_S128x4096_S128x32x128 : S128x4096.ShapeCasts S128x32x128
  reduces_S128x32x128_S128x32 : S128x32x128.Reduces [2] S128x32
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  bitsLt_bf16_f32 : FTy.bits .bf16 < FTy.bits .f32
  shapeCasts_S256x128_S256x1x128 : S256x128.ShapeCasts S256x1x128
  reduces_S256x1x128_S256x1 : S256x1x128.Reduces [2] S256x1
  shapeCasts_S256x1_S256x1x1 : S256x1.ShapeCasts S256x1x1
  broadcasts_S256x1x1_S256x1x128 : S256x1x1.Broadcasts S256x1x128
  shapeCasts_S256x1x128_S256x128 : S256x1x128.ShapeCasts S256x128
  inb_S256x128_S256x128_0_0 : ∀ a, (![0, 0] : Fin 2 → Nat) a + S256x128.size a ≤ S256x128.size a
  h_S256x128 : 0 < S256x128.numel
  packedbf16_S256x128_S256x128_0_0 : (Rect.unit (s := S256x128) ![0, 0] S256x128.size inb_S256x128_S256x128_0_0).PackedRows (EltTy.packing .bf16)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  shapeCasts_S4096x256_S4096x2x128 : S4096x256.ShapeCasts S4096x2x128
  reduces_S4096x2x128_S4096x2 : S4096x2x128.Reduces [2] S4096x2
  shapeCasts_S4096x2_S4096x2x1 : S4096x2.ShapeCasts S4096x2x1
  broadcasts_S4096x2x1_S4096x2x128 : S4096x2x1.Broadcasts S4096x2x128
  shapeCasts_S4096x2x128_S4096x256 : S4096x2x128.ShapeCasts S4096x256
  shapeCasts_S4096x4096_S2x2048x4096 : S4096x4096.ShapeCasts S2x2048x4096
  dot_S256x4096_S128x4096_S256x128_1_1_0_0_n_n_wf : DotDims.WF S256x4096 S128x4096 S256x128 [1] [1] [0] [0] [] []
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .f32 = 32 ∨ (Rect.block (s := S11008x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S11008x4096.size a
  hwx0_2 : ∀ i : grid0.Coords, EltTy.bits .f32 = 32 ∨ (Rect.block (s := S11008x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S4096x11008.size a
  hwx0_3 : ∀ i : grid0.Coords, EltTy.bits .bf16 = 32 ∨ (Rect.block (s := S4096x11008) S256x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x11008.size a
  hwx1_0 : ∀ i : grid1.Coords, EltTy.bits .bf16 = 32 ∨ (Rect.block (s := S4096x11008) S256x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x11008.size a
  hwx1_1 : ∀ i : grid1.Coords, EltTy.bits .f32 = 32 ∨ (Rect.block (s := S4096x11008) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .f32 = 32 ∨ (Rect.block (s := S4096x4096) S256x4096.size (cc1_transform_2 i) (hinb1_2 i)).WholeWords (EltTy.packing .f32)

variable [Facts₀]

def dot_S256x4096_S128x4096_S256x128_1_1_0_0_n_n : DotDims S256x4096 S128x4096 S256x128 where
  lhsContracting := [1]
  rhsContracting := [1]
  lhsNonContracting := [0]
  rhsNonContracting := [0]
  lhsBatch := []
  rhsBatch := []
  wf := dot_S256x4096_S128x4096_S256x128_1_1_0_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S4096x11008 : Shape := ⟨2, ![4096, 11008]⟩
abbrev S2x2048x32x128 : Shape := ⟨4, ![2, 2048, 32, 128]⟩
abbrev S_ : Shape := ⟨0, ![]⟩
abbrev S2x2048x32 : Shape := ⟨3, ![2, 2048, 32]⟩
abbrev S2x2048x32x1 : Shape := ⟨4, ![2, 2048, 32, 1]⟩
abbrev S11008x32x128 : Shape := ⟨3, ![11008, 32, 128]⟩
abbrev S11008x32 : Shape := ⟨2, ![11008, 32]⟩
abbrev S11008x32x1 : Shape := ⟨3, ![11008, 32, 1]⟩
abbrev S2x2048x11008 : Shape := ⟨3, ![2, 2048, 11008]⟩
abbrev S2x2048x86x128 : Shape := ⟨4, ![2, 2048, 86, 128]⟩
abbrev S2x2048x86 : Shape := ⟨3, ![2, 2048, 86]⟩
abbrev S2x2048x86x1 : Shape := ⟨4, ![2, 2048, 86, 1]⟩
abbrev S4096x86x128 : Shape := ⟨3, ![4096, 86, 128]⟩
abbrev S4096x86 : Shape := ⟨2, ![4096, 86]⟩
abbrev S4096x86x1 : Shape := ⟨3, ![4096, 86, 1]⟩

abbrev nBuf : Space → Nat
  | .hbm => 142
  | .vmem => 0
  | .smem => 0
  | _ => 0

abbrev hbmTy0_0 (i : Nat) : BufTy := match i % 128 with
  | 0 => ⟨S2x2048x4096, .f32⟩
  | 1 => ⟨S11008x4096, .f32⟩
  | 2 => ⟨S11008x4096, .f32⟩
  | 3 => ⟨S4096x11008, .f32⟩
  | 4 => ⟨S2x2048x32x128, .f32⟩
  | 5 => ⟨S2x2048x32x128, .f32⟩
  | 6 => ⟨S_, .f32⟩
  | 7 => ⟨S2x2048x32, .f32⟩
  | 8 => ⟨S2x2048x32x1, .f32⟩
  | 9 => ⟨S_, .f32⟩
  | 10 => ⟨S2x2048x32x1, .f32⟩
  | 11 => ⟨S2x2048x32x1, .f32⟩
  | 12 => ⟨S_, .f32⟩
  | 13 => ⟨S2x2048x32x1, .f32⟩
  | 14 => ⟨S2x2048x32x1, .f32⟩
  | 15 => ⟨S2x2048x32x128, .f32⟩
  | 16 => ⟨S2x2048x32x128, .f32⟩
  | 17 => ⟨S2x2048x32x128, .f32⟩
  | 18 => ⟨S_, .f32⟩
  | 19 => ⟨S_, .f32⟩
  | 20 => ⟨S_, .f32⟩
  | 21 => ⟨S2x2048x32x128, .f32⟩
  | 22 => ⟨S2x2048x32x128, .f32⟩
  | 23 => ⟨S_, .f32⟩
  | 24 => ⟨S2x2048x32x128, .f32⟩
  | 25 => ⟨S2x2048x32x128, .f32⟩
  | 26 => ⟨S2x2048x32x128, .f32⟩
  | 27 => ⟨S2x2048x32x128, .f32⟩
  | 28 => ⟨S2x2048x4096, .f32⟩
  | 29 => ⟨S11008x32x128, .f32⟩
  | 30 => ⟨S11008x32x128, .f32⟩
  | 31 => ⟨S_, .f32⟩
  | 32 => ⟨S11008x32, .f32⟩
  | 33 => ⟨S11008x32x1, .f32⟩
  | 34 => ⟨S_, .f32⟩
  | 35 => ⟨S11008x32x1, .f32⟩
  | 36 => ⟨S11008x32x1, .f32⟩
  | 37 => ⟨S_, .f32⟩
  | 38 => ⟨S11008x32x1, .f32⟩
  | 39 => ⟨S11008x32x1, .f32⟩
  | 40 => ⟨S11008x32x128, .f32⟩
  | 41 => ⟨S11008x32x128, .f32⟩
  | 42 => ⟨S11008x32x128, .f32⟩
  | 43 => ⟨S_, .f32⟩
  | 44 => ⟨S_, .f32⟩
  | 45 => ⟨S_, .f32⟩
  | 46 => ⟨S11008x32x128, .f32⟩
  | 47 => ⟨S11008x32x128, .f32⟩
  | 48 => ⟨S_, .f32⟩
  | 49 => ⟨S11008x32x128, .f32⟩
  | 50 => ⟨S11008x32x128, .f32⟩
  | 51 => ⟨S11008x32x128, .f32⟩
  | 52 => ⟨S11008x32x128, .f32⟩
  | 53 => ⟨S11008x4096, .f32⟩
  | 54 => ⟨S2x2048x11008, .f32⟩
  | 55 => ⟨S11008x32x128, .f32⟩
  | 56 => ⟨S11008x32x128, .f32⟩
  | 57 => ⟨S_, .f32⟩
  | 58 => ⟨S11008x32, .f32⟩
  | 59 => ⟨S11008x32x1, .f32⟩
  | 60 => ⟨S_, .f32⟩
  | 61 => ⟨S11008x32x1, .f32⟩
  | 62 => ⟨S11008x32x1, .f32⟩
  | 63 => ⟨S_, .f32⟩
  | 64 => ⟨S11008x32x1, .f32⟩
  | 65 => ⟨S11008x32x1, .f32⟩
  | 66 => ⟨S11008x32x128, .f32⟩
  | 67 => ⟨S11008x32x128, .f32⟩
  | 68 => ⟨S11008x32x128, .f32⟩
  | 69 => ⟨S_, .f32⟩
  | 70 => ⟨S_, .f32⟩
  | 71 => ⟨S_, .f32⟩
  | 72 => ⟨S11008x32x128, .f32⟩
  | 73 => ⟨S11008x32x128, .f32⟩
  | 74 => ⟨S_, .f32⟩
  | 75 => ⟨S11008x32x128, .f32⟩
  | 76 => ⟨S11008x32x128, .f32⟩
  | 77 => ⟨S11008x32x128, .f32⟩
  | 78 => ⟨S11008x32x128, .f32⟩
  | 79 => ⟨S11008x4096, .f32⟩
  | 80 => ⟨S2x2048x11008, .f32⟩
  | 81 => ⟨S2x2048x11008, .f32⟩
  | 82 => ⟨S2x2048x11008, .f32⟩
  | 83 => ⟨S_, .f32⟩
  | 84 => ⟨S2x2048x11008, .f32⟩
  | 85 => ⟨S2x2048x11008, .f32⟩
  | 86 => ⟨S_, .f32⟩
  | 87 => ⟨S2x2048x11008, .f32⟩
  | 88 => ⟨S2x2048x11008, .f32⟩
  | 89 => ⟨S2x2048x11008, .f32⟩
  | 90 => ⟨S2x2048x11008, .f32⟩
  | 91 => ⟨S2x2048x86x128, .f32⟩
  | 92 => ⟨S2x2048x86x128, .f32⟩
  | 93 => ⟨S_, .f32⟩
  | 94 => ⟨S2x2048x86, .f32⟩
  | 95 => ⟨S2x2048x86x1, .f32⟩
  | 96 => ⟨S_, .f32⟩
  | 97 => ⟨S2x2048x86x1, .f32⟩
  | 98 => ⟨S2x2048x86x1, .f32⟩
  | 99 => ⟨S_, .f32⟩
  | 100 => ⟨S2x2048x86x1, .f32⟩
  | 101 => ⟨S2x2048x86x1, .f32⟩
  | 102 => ⟨S2x2048x86x128, .f32⟩
  | 103 => ⟨S2x2048x86x128, .f32⟩
  | 104 => ⟨S2x2048x86x128, .f32⟩
  | 105 => ⟨S_, .f32⟩
  | 106 => ⟨S_, .f32⟩
  | 107 => ⟨S_, .f32⟩
  | 108 => ⟨S2x2048x86x128, .f32⟩
  | 109 => ⟨S2x2048x86x128, .f32⟩
  | 110 => ⟨S_, .f32⟩
  | 111 => ⟨S2x2048x86x128, .f32⟩
  | 112 => ⟨S2x2048x86x128, .f32⟩
  | 113 => ⟨S2x2048x86x128, .f32⟩
  | 114 => ⟨S2x2048x86x128, .f32⟩
  | 115 => ⟨S2x2048x11008, .f32⟩
  | 116 => ⟨S4096x86x128, .f32⟩
  | 117 => ⟨S4096x86x128, .f32⟩
  | 118 => ⟨S_, .f32⟩
  | 119 => ⟨S4096x86, .f32⟩
  | 120 => ⟨S4096x86x1, .f32⟩
  | 121 => ⟨S_, .f32⟩
  | 122 => ⟨S4096x86x1, .f32⟩
  | 123 => ⟨S4096x86x1, .f32⟩
  | 124 => ⟨S_, .f32⟩
  | 125 => ⟨S4096x86x1, .f32⟩
  | 126 => ⟨S4096x86x1, .f32⟩
  | 127 => ⟨S4096x86x128, .f32⟩
  | _ => ⟨S2x2048x4096, .f32⟩

abbrev hbmTy0_1 (i : Nat) : BufTy := match i % 128 with
  | 0 => ⟨S4096x86x128, .f32⟩
  | 1 => ⟨S4096x86x128, .f32⟩
  | 2 => ⟨S_, .f32⟩
  | 3 => ⟨S_, .f32⟩
  | 4 => ⟨S_, .f32⟩
  | 5 => ⟨S4096x86x128, .f32⟩
  | 6 => ⟨S4096x86x128, .f32⟩
  | 7 => ⟨S_, .f32⟩
  | 8 => ⟨S4096x86x128, .f32⟩
  | 9 => ⟨S4096x86x128, .f32⟩
  | 10 => ⟨S4096x86x128, .f32⟩
  | 11 => ⟨S4096x86x128, .f32⟩
  | 12 => ⟨S4096x11008, .f32⟩
  | 13 => ⟨S2x2048x4096, .f32⟩
  | _ => ⟨S2x2048x4096, .f32⟩

abbrev hbmTy (i : Nat) : BufTy := match i / 128 with
  | 0 => hbmTy0_0 i
  | 1 => hbmTy0_1 i
  | _ => ⟨S2x2048x4096, .f32⟩

abbrev bufTy : (tb : Table) → Fin (tcTables nBuf tb) → BufTy
  | .hbm, ⟨i, _⟩ => hbmTy i
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_cst_8 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_v36 : Ref sig .tc := ⟨.hbm, 62, rfl⟩
abbrev main_cst_11 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_12 : Ref sig .tc := ⟨.hbm, 69, rfl⟩
abbrev main_cst_13 : Ref sig .tc := ⟨.hbm, 70, rfl⟩
abbrev main_call5_v0 : Ref sig .tc := ⟨.hbm, 71, rfl⟩
abbrev main_call5_v1 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call6_v0 : Ref sig .tc := ⟨.hbm, 81, rfl⟩
abbrev main_call6_v1 : Ref sig .tc := ⟨.hbm, 82, rfl⟩
abbrev main_call6_cst : Ref sig .tc := ⟨.hbm, 83, rfl⟩
abbrev main_call6_v2 : Ref sig .tc := ⟨.hbm, 84, rfl⟩
abbrev main_call6_v3 : Ref sig .tc := ⟨.hbm, 85, rfl⟩
abbrev main_call6_cst_0 : Ref sig .tc := ⟨.hbm, 86, rfl⟩
abbrev main_call6_v4 : Ref sig .tc := ⟨.hbm, 87, rfl⟩
abbrev main_call6_v5 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_14 : Ref sig .tc := ⟨.hbm, 93, rfl⟩
abbrev main_v51 : Ref sig .tc := ⟨.hbm, 94, rfl⟩
abbrev main_v52 : Ref sig .tc := ⟨.hbm, 95, rfl⟩
abbrev main_cst_15 : Ref sig .tc := ⟨.hbm, 96, rfl⟩
abbrev main_v53 : Ref sig .tc := ⟨.hbm, 97, rfl⟩
abbrev main_v54 : Ref sig .tc := ⟨.hbm, 98, rfl⟩
abbrev main_cst_16 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_17 : Ref sig .tc := ⟨.hbm, 105, rfl⟩
abbrev main_cst_18 : Ref sig .tc := ⟨.hbm, 106, rfl⟩
abbrev main_call8_v0 : Ref sig .tc := ⟨.hbm, 107, rfl⟩
abbrev main_call8_v1 : Ref sig .tc := ⟨.hbm, 108, rfl⟩
abbrev main_call8_v2 : Ref sig .tc := ⟨.hbm, 109, rfl⟩
abbrev main_call8_v3 : Ref sig .tc := ⟨.hbm, 110, rfl⟩
abbrev main_call8_v4 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_19 : Ref sig .tc := ⟨.hbm, 118, rfl⟩
abbrev main_v66 : Ref sig .tc := ⟨.hbm, 119, rfl⟩
abbrev main_v67 : Ref sig .tc := ⟨.hbm, 120, rfl⟩
abbrev main_cst_20 : Ref sig .tc := ⟨.hbm, 121, rfl⟩
abbrev main_v68 : Ref sig .tc := ⟨.hbm, 122, rfl⟩
abbrev main_v69 : Ref sig .tc := ⟨.hbm, 123, rfl⟩
abbrev main_cst_21 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_22 : Ref sig .tc := ⟨.hbm, 130, rfl⟩
abbrev main_cst_23 : Ref sig .tc := ⟨.hbm, 131, rfl⟩
abbrev main_call10_v0 : Ref sig .tc := ⟨.hbm, 132, rfl⟩
abbrev main_call10_v1 : Ref sig .tc := ⟨.hbm, 133, rfl⟩
abbrev main_call10_v2 : Ref sig .tc := ⟨.hbm, 134, rfl⟩
abbrev main_call10_v3 : Ref sig .tc := ⟨.hbm, 135, rfl⟩
abbrev main_call10_v4 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩

abbrev nD : Nat := 1
abbrev τ : Topo := Topo.v7x

variable {F : FTy → Type} [FloatOps F]

class Facts₀ : Prop where
  shapeCasts_S2x2048x4096_S2x2048x32x128 : S2x2048x4096.ShapeCasts S2x2048x32x128
  reducesTo_S2x2048x32x128_S2x2048x32_d3 : S2x2048x32x128.ReducesTo [3] S2x2048x32
  h_S_ : 0 < S_.numel
  bcast_S2x2048x32_S2x2048x32x1_0_1_2 : S2x2048x32.BroadcastsInDim S2x2048x32x1 (![0, 1, 2] : Fin 3 → Fin S2x2048x32x1.rank)
  bcast_S_S2x2048x32x1 : S_.BroadcastsInDim S2x2048x32x1 (![] : Fin 0 → Fin S2x2048x32x1.rank)
  bcast_S2x2048x32x1_S2x2048x32x128_0_1_2_3 : S2x2048x32x1.BroadcastsInDim S2x2048x32x128 (![0, 1, 2, 3] : Fin 4 → Fin S2x2048x32x128.rank)
  bcast_S_S2x2048x32x128 : S_.BroadcastsInDim S2x2048x32x128 (![] : Fin 0 → Fin S2x2048x32x128.rank)
  shapeCasts_S2x2048x32x128_S2x2048x4096 : S2x2048x32x128.ShapeCasts S2x2048x4096
  shapeCasts_S11008x4096_S11008x32x128 : S11008x4096.ShapeCasts S11008x32x128
  reducesTo_S11008x32x128_S11008x32_d2 : S11008x32x128.ReducesTo [2] S11008x32
  bcast_S11008x32_S11008x32x1_0_1 : S11008x32.BroadcastsInDim S11008x32x1 (![0, 1] : Fin 2 → Fin S11008x32x1.rank)
  bcast_S_S11008x32x1 : S_.BroadcastsInDim S11008x32x1 (![] : Fin 0 → Fin S11008x32x1.rank)
  bcast_S11008x32x1_S11008x32x128_0_1_2 : S11008x32x1.BroadcastsInDim S11008x32x128 (![0, 1, 2] : Fin 3 → Fin S11008x32x128.rank)
  bcast_S_S11008x32x128 : S_.BroadcastsInDim S11008x32x128 (![] : Fin 0 → Fin S11008x32x128.rank)
  shapeCasts_S11008x32x128_S11008x4096 : S11008x32x128.ShapeCasts S11008x4096
  bcast_S_S2x2048x11008 : S_.BroadcastsInDim S2x2048x11008 (![] : Fin 0 → Fin S2x2048x11008.rank)
  shapeCasts_S2x2048x11008_S2x2048x86x128 : S2x2048x11008.ShapeCasts S2x2048x86x128
  reducesTo_S2x2048x86x128_S2x2048x86_d3 : S2x2048x86x128.ReducesTo [3] S2x2048x86
  bcast_S2x2048x86_S2x2048x86x1_0_1_2 : S2x2048x86.BroadcastsInDim S2x2048x86x1 (![0, 1, 2] : Fin 3 → Fin S2x2048x86x1.rank)
  bcast_S_S2x2048x86x1 : S_.BroadcastsInDim S2x2048x86x1 (![] : Fin 0 → Fin S2x2048x86x1.rank)
  bcast_S2x2048x86x1_S2x2048x86x128_0_1_2_3 : S2x2048x86x1.BroadcastsInDim S2x2048x86x128 (![0, 1, 2, 3] : Fin 4 → Fin S2x2048x86x128.rank)
  bcast_S_S2x2048x86x128 : S_.BroadcastsInDim S2x2048x86x128 (![] : Fin 0 → Fin S2x2048x86x128.rank)
  shapeCasts_S2x2048x86x128_S2x2048x11008 : S2x2048x86x128.ShapeCasts S2x2048x11008
  shapeCasts_S4096x11008_S4096x86x128 : S4096x11008.ShapeCasts S4096x86x128
  reducesTo_S4096x86x128_S4096x86_d2 : S4096x86x128.ReducesTo [2] S4096x86
  bcast_S4096x86_S4096x86x1_0_1 : S4096x86.BroadcastsInDim S4096x86x1 (![0, 1] : Fin 2 → Fin S4096x86x1.rank)
  bcast_S_S4096x86x1 : S_.BroadcastsInDim S4096x86x1 (![] : Fin 0 → Fin S4096x86x1.rank)
  bcast_S4096x86x1_S4096x86x128_0_1_2 : S4096x86x1.BroadcastsInDim S4096x86x128 (![0, 1, 2] : Fin 3 → Fin S4096x86x128.rank)
  bcast_S_S4096x86x128 : S_.BroadcastsInDim S4096x86x128 (![] : Fin 0 → Fin S4096x86x128.rank)
  shapeCasts_S4096x86x128_S4096x11008 : S4096x86x128.ShapeCasts S4096x11008
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.K.Def0.lean ====
/- Region 0 (the gate/up projection with its three fake-quantizations and the requantized SiLU·up product):
    the blocks a grid point reads, the block it leaves, and the pipeline's proof data, at any entry contents `V` of the
    core's arrays. -/
import proofs.«143195_j55250459295887_1_alg».proof.Proof.Gen.Kernel.Launch
import proofs.«143195_j55250459295887_1_alg».proof.Proof.Gen.Kernel.Skeleton
import proofs.«143195_j55250459295887_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output block's buffer, from the three input blocks: the requantized hidden block. -/
def out0_3 (x0 : Vec F S256x4096 .f32) (x1 : Vec F S128x4096 .f32) (x2 : Vec F S128x4096 .f32) : Vec F S256x128 .bf16 :=
  k0_pay5 (k0_pay1 x0) (k0_pay2 x1) (k0_pay3 x2) (k0_pay4 x2)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

end Cert.Kernel.Fr

end
-- ==== Proof.K.Reg0.lean ====
/- Region 0 (the gate/up projection with its three fake-quantizations and the requantized SiLU·up product):
    what one grid point does to its four staging buffers, stated at any entry contents `V` of the core's arrays.
    The body loads the x-block and the two weight blocks whole, and stores one whole 256×128 block. -/
import proofs.«143195_j55250459295887_1_alg».proof.Proof.K.Def0
import proofs.«143195_j55250459295887_1_alg».proof.Proof.Gen.Kernel.Launch
import proofs.«143195_j55250459295887_1_alg».proof.Proof.Gen.Kernel.Skeleton
import proofs.«143195_j55250459295887_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks are in place when the body runs -/

/-- The x-block (window 0) sits in its current staging buffer at every point. It is refetched only when the row
    block changes, but between two fetches its block index stands still and the body leaves the buffer as it was. -/
theorem xblock_in_place {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

/-- The gate-weight block (window 1) likewise. -/
theorem gateblock_in_place {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

/-- The up-weight block (window 2) likewise. -/
theorem upblock_in_place {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  rw [dat.before_in_eq_fetched 2 rfl (fun _ => rfl) (fun _ _ _ => rfl) hkeep t d]
  unfold Dat.fetched Dat.blockOf iblk0; rw [hA]; try rfl

/-! ## The body's one store -/

/-- The offsets of every access of this body: both zero. -/
theorem zero_offsets : (![0, 0] : Fin 2 → ℕ) = fun _ => 0 := funext fun a => by fin_cases a <;> rfl

/-- The rectangle of the store: the whole 256×128 block. -/
abbrev hiddenRect : Rect S256x128 := Rect.unit (s := S256x128) ![0, 0] S256x128.size inb_S256x128_S256x128_0_0

/-- A buffer of the output block's shape, after one store of \`w\` through the whole-block rectangle over any prior
    contents, reads back as \`w\`: the one piece covers every index, and under it the canon is its payload. -/
theorem read_hidden_store {sp : Space} (v : View sig .tc sp S256x128 .bf16) (f : v.ty.Contents (Elt F))
    (w : Vec F S256x128 .bf16) : v.read (Elt F) (v.writes (Elt F) f [⟨hiddenRect, w⟩]) = w := by
  have hcov : ∀ y : S256x128.Idx, ∃ p ∈ ([⟨hiddenRect, w⟩] : List (View.Piece (Elt F) S256x128 .bf16)), y ∈ p.1.set :=
    fun y => ⟨⟨hiddenRect, w⟩, List.mem_singleton_self _,
      View.mem_set_unit_zero (S := S256x128) zero_offsets inb_S256x128_S256x128_0_0 y⟩
  rw [View.read_writes_eq_canon v f _ hcov]
  exact View.canon_unit_zero (S := S256x128) zero_offsets inb_S256x128_S256x128_0_0 w

/-! ## The body's triple -/

set_option maxHeartbeats 1000000 in
/-- The kernel on whole staging memrefs: with the three inputs at contents \`x0\`, \`x1\`, \`x2\` and the output at any
    contents, it runs to a continuation that holds the inputs as they were and the output at \`out0_3 x0 x1 x2\`.
    The three loads read the whole buffers, the load of the output's buffer is of a value nothing uses, and the
    one store covers the output's buffer. -/
theorem sound_kernel0 (c : Dev nD) (E : Set ℕ) (i : grid0.Coords)
    (arg2 : Memref sig .tc .vmem S256x4096 .f32) (harg2 : arg2.IsWhole)
    (arg3 : Memref sig .tc .vmem S128x4096 .f32) (harg3 : arg3.IsWhole)
    (arg4 : Memref sig .tc .vmem S128x4096 .f32) (harg4 : arg4.IsWhole)
    (arg5 : Memref sig .tc .vmem S256x128 .bf16) (harg5 : arg5.IsWhole)
    (x0 : Vec F S256x4096 .f32) (x1 : Vec F S128x4096 .f32) (x2 : Vec F S128x4096 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out0_3 x0 x1 x2)) -∗ K ⟨⟩))
      ⊢ wp frame (wpE (defs₀ (F := F)) Variants.none c none) E
          (cc0_gate_up_kernel i arg2 harg2 arg3 harg3 arg4 harg4 arg5 harg5) K := by
  simp only [cc0_gate_up_kernel_eq_skeleton]; unfold cc0_gate_up_kernel_skel
  simp only [k0_part2_eq_skeleton, k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_hidden_store]
  sl_unfold_run_names
  unfold out0_3
  simp only [View.readAt_eq_ld, View.ld_unit_zero (S := S256x4096) zero_offsets,
    View.ld_unit_zero (S := S128x4096) zero_offsets]

/-! ## The body at a grid point -/

/-- What each window's body leaves, read off the proof data. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- Each input's current staging buffer holds its block when the body is called. -/
theorem before0_0 (c : Dev nD) (t : Fin cfg0.N) (d) : (dat0 V c).before 0 t d = iblk0 V c 0 t :=
  xblock_in_place V (dat0 V c) (A_eq0 V c 0) (after0_0 V c) t d
theorem before0_1 (c : Dev nD) (t : Fin cfg0.N) (d) : (dat0 V c).before 1 t d = iblk0 V c 1 t :=
  gateblock_in_place V (dat0 V c) (A_eq0 V c 1) (after0_1 V c) t d
theorem before0_2 (c : Dev nD) (t : Fin cfg0.N) (d) : (dat0 V c).before 2 t d = iblk0 V c 2 t :=
  upblock_in_place V (dat0 V c) (A_eq0 V c 2) (after0_2 V c) t d

/-- What the body is handed at point \`t\`: the invariant, the core's debts, and the four current staging buffers, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks, so the kernel's triple applies at those
    blocks; the invariant and the core's debts are the same at the next point and pass through untouched. -/
theorem sound_body0 (c : Dev nD) (t : Fin cfg0.N) :
    handed0 V c t ⊢ wp frame (wpE (defs₀ (F := F)) Variants.none c none) Set.univ (bodyAt0 t) (fun _ => returned0 V c t) := by
  unfold handed0 returned0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Def1.lean ====
/- Region 1 (the down projection): the product of the hidden block with the fake-quantized weight block is
    added into a scratch accumulator that is reset at the first of a row-tile's 43 points and copied to the
    output block at the last; stated at any entry contents `V` of the core's arrays. -/
import proofs.«143195_j55250459295887_1_alg».proof.Proof.Gen.Kernel.Launch
import proofs.«143195_j55250459295887_1_alg».proof.Proof.Gen.Kernel.Skeleton
import proofs.«143195_j55250459295887_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at the first point of a row-tile the product is added to the zero block,
    at every later point to what the point before left. -/
def acc1 (c : Dev nD) : (n : ℕ) → n < cfg1.N → Vec F S256x4096 .f32
  | 0, hn => k1_pay2 (iblk1 V c 0 ⟨0, hn⟩) (iblk1 V c 1 ⟨0, hn⟩) (k1_pay1 (F := F))
  | n + 1, hn =>
    if (n + 1) % 43 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h : t.val % 43 = 0) :
    acc1 V c t.val t.isLt = k1_pay2 (iblk1 V c 0 t) (iblk1 V c 1 t) (k1_pay1 (F := F)) := by
  obtain ⟨n, hn⟩ := t
  cases n with
  | zero => exact rfl
  | succ n => exact (if_pos h).trans rfl

theorem acc1_later (c : Dev nD) (t : Fin cfg1.N) (h : ¬ t.val % 43 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch accumulator as a memref. -/
abbrev scM1 : Memref sig .tc .vmem S256x4096 .f32 := Memref.whole cc1_scratch0

/-- The region's invariant before position `n`: before the first point the scoped rest at anything; afterwards the
    scoped rest with the accumulator at what the point before left, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ owns (c : Thread nD τ) scM1 fullShare (acc1 V c n hn)) ∗ (∃ r, prngReg c r))

/-- The proof data of pipeline 1 on core `c`. Window 2 (the output) is idle except at a row-tile's last point,
    where the body copies the accumulator into it; its entry at the other points is never consulted. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = acc1 V c t.val t.isLt := by dsimp only [dat1]

end Cert.Kernel.Fr

end
-- ==== Proof.K.Reg1.lean ====
/- Region 1 (the down projection): the product of the hidden block with the fake-quantized weight block is
    added into a scratch accumulator that is reset at the first of a row-tile's 43 points and copied to the
    output block at the last; stated at any entry contents `V` of the core's arrays. -/
import proofs.«143195_j55250459295887_1_alg».proof.Proof.K.Def1
import proofs.«143195_j55250459295887_1_alg».proof.Proof.Gen.Kernel.Launch
import proofs.«143195_j55250459295887_1_alg».proof.Proof.Gen.Kernel.Skeleton
import proofs.«143195_j55250459295887_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions on the grid point, and where the output block is idle -/

/-- The first conditional's condition (the reduction index is zero), from the grid coordinates. -/
abbrev cond1_0 (i : grid1.Coords) : Prop :=
  (Scalar.cmpi .ne (Scalar.extui (Scalar.cmpi .eq (BitVec.ofNat 32 (i 1).val) 0#32)) 0#32) = 1#1

/-- It holds at the first of each row-tile's 43 points. -/
theorem hcond1_0 : ∀ t : Fin cfg1.N, cond1_0 (grid1.coords t) ↔ t.val % 43 = 0 :=
  (by decide +kernel : ∀ t : Fin grid1.N, cond1_0 (grid1.coords t) ↔ t.val % 43 = 0)

/-- The second conditional's condition (the reduction index is the last). -/
abbrev cond1_1 (i : grid1.Coords) : Prop := k1_cond2 i = 1#1

/-- It holds at the last of each row-tile's 43 points. -/
theorem hcond1_1 : ∀ t : Fin cfg1.N, cond1_1 (grid1.coords t) ↔ t.val % 43 = 42 :=
  (by decide +kernel : ∀ t : Fin grid1.N, cond1_1 (grid1.coords t) ↔ t.val % 43 = 42)

/-- The input windows are never idle. -/
theorem liveAt1_0 (t : Fin cfg1.N) : cfg1.idle 0 (grid1.coords t) = false := rfl
theorem liveAt1_1 (t : Fin cfg1.N) : cfg1.idle 1 (grid1.coords t) = false := rfl

/-- Off a row-tile's last point the output window is idle, -/
theorem idleAt1_2 (t : Fin cfg1.N) (h : ¬ cond1_1 (grid1.coords t)) : cfg1.idle 2 (grid1.coords t) = true := by
  show (!(k1_cond2 (grid1.coords t) == 1#1)) = true
  rw [Bool.not_eq_true', beq_eq_false_iff_ne]; exact h

/-- and not written back; -/
theorem noFlush1_2 (t : Fin cfg1.N) (h : ¬ cond1_1 (grid1.coords t)) : (cfg1.win 2).flush t = false := by
  rw [Bool.eq_false_iff]; intro hf; exact h ((hcond1_1 t).mpr ((flush1_2 t).mp hf))

/-- at the last point it is live. -/
theorem liveAt1_2 (t : Fin cfg1.N) (h : cond1_1 (grid1.coords t)) : cfg1.idle 2 (grid1.coords t) = false := by
  show (!(k1_cond2 (grid1.coords t) == 1#1)) = false
  rw [Bool.not_eq_false', beq_iff_eq]; exact h

/-! ## The invariant, unfolded -/

theorem PhiS1_zero (c : Dev nD) (n : ℕ) (h : n ≤ cfg1.N) (hz : n = 0) : PhiS1 V c n h = Pipeline.ΦA spec1 c := by
  subst hz; rfl

/-- The scoped rest and the generator register, with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ d, owns (c : Thread nD τ) scM1 fullShare d)) ∗ (∃ r, prngReg c r)) := by
  unfold Pipeline.ΦA; rw [scopedRest1_eq]; simp only [scM1, owns_whole]; try rfl

/-- After point `n`: the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ owns (c : Thread nD τ) scM1 fullShare (acc1 V c n hn)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ owns (c : Thread nD τ) scM1 fullShare (acc1 V c (n - 1) (by omega))) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]

/-- Each input's current staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## One run of the body per case, on any whole memrefs -/

/-- The zero offsets of a whole-buffer load or store, as a constant function. -/
theorem off00 : (![0, 0] : Fin 2 → Nat) = fun _ => 0 := by funext a; fin_cases a <;> rfl

/-- The last store through the whole accumulator-shaped buffer leaves its payload, whatever was stored before. -/
theorem read_writes_whole_last {κ : Kind} {sp : Space} (v : View sig κ sp S256x4096 .f32) (f : v.ty.Contents (Elt F))
    (w : Vec F S256x4096 .f32) (L : List (View.Piece (Elt F) S256x4096 .f32)) :
    v.read (Elt F) (v.writes (Elt F) f (⟨Rect.unit ![0, 0] S256x4096.size inb_S256x4096_S256x4096_0_0, w⟩ :: L)) = w := by
  rw [View.read_writes_eq_canon _ _ _ (fun y => ⟨⟨Rect.unit ![0, 0] S256x4096.size inb_S256x4096_S256x4096_0_0, w⟩, List.Mem.head _,
      View.mem_set_unit_zero off00 inb_S256x4096_S256x4096_0_0 y⟩),
    View.canon_cons_unit_zero off00]

set_option maxHeartbeats 4000000 in
/-- At the first point of a row-tile: the accumulator, whatever it held, is zeroed and the product added to it;
    the output block's buffer is not touched. -/
theorem kernelRun1_A (c : Dev nD) (i : grid1.Coords) (arg2 : Memref sig .tc .vmem S256x256 .bf16) (harg2 : arg2.IsWhole)
    (arg3 : Memref sig .tc .vmem S4096x256 .f32) (harg3 : arg3.IsWhole) (arg4 : Memref sig .tc .vmem S256x4096 .f32) (harg4 : arg4.IsWhole)
    (arg5 : Memref sig .tc .vmem S256x4096 .f32) (harg5 : arg5.IsWhole) (hc0 : cond1_0 i) (hc1 : ¬cond1_1 i)
    (x0 : Vec F S256x256 .bf16) (x1 : Vec F S4096x256 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 x0 x1 (k1_pay1 (F := F)))) -∗ K ⟨⟩))
      ⊢ wp frame (wpE (defs₀ (F := F)) Variants.none c none) E (cc1_down_kernel i arg2 harg2 arg3 harg3 arg4 harg4 arg5 harg5) K := by
  simp only [cc1_down_kernel_eq_skeleton]; unfold cc1_down_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  unfold kernelRun1_A.sl.v25 kernelRun1_A.sl.HS_1
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [read_writes_whole_last, View.readCov_unit_zero _ off00, View.readAt_eq_ld, View.readAt_eq_ld, hf0, hf1,
    View.ld_unit_zero off00, View.ld_unit_zero off00]

set_option maxHeartbeats 4000000 in
/-- At a point that is neither first nor last: the product is added to what the accumulator held. -/
theorem kernelRun1_B (c : Dev nD) (i : grid1.Coords) (arg2 : Memref sig .tc .vmem S256x256 .bf16) (harg2 : arg2.IsWhole)
    (arg3 : Memref sig .tc .vmem S4096x256 .f32) (harg3 : arg3.IsWhole) (arg4 : Memref sig .tc .vmem S256x4096 .f32) (harg4 : arg4.IsWhole)
    (arg5 : Memref sig .tc .vmem S256x4096 .f32) (harg5 : arg5.IsWhole) (hc0 : ¬cond1_0 i) (hc1 : ¬cond1_1 i)
    (x0 : Vec F S256x256 .bf16) (x1 : Vec F S4096x256 .f32) (xs : Vec F S256x4096 .f32) (E : Set ℕ) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (k1_pay2 x0 x1 xs)) -∗ K ⟨⟩))
      ⊢ wp frame (wpE (defs₀ (F := F)) Variants.none c none) E (cc1_down_kernel i arg2 harg2 arg3 harg3 arg4 harg4 arg5 harg5) K := by
  simp only [cc1_down_kernel_eq_skeleton]; unfold cc1_down_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [read_writes_whole_last, View.readAt_eq_ld, View.readAt_eq_ld, View.readAt_eq_ld, hf0, hf1, hfs,
    View.ld_unit_zero off00, View.ld_unit_zero off00, View.ld_unit_zero off00]

set_option maxHeartbeats 4000000 in
/-- At the last point of a row-tile: the product is added to what the accumulator held, and the sum is copied
    into the output block's buffer, whatever that held. -/
theorem kernelRun1_C (c : Dev nD) (i : grid1.Coords) (arg2 : Memref sig .tc .vmem S256x256 .bf16) (harg2 : arg2.IsWhole)
    (arg3 : Memref sig .tc .vmem S4096x256 .f32) (harg3 : arg3.IsWhole) (arg4 : Memref sig .tc .vmem S256x4096 .f32) (harg4 : arg4.IsWhole)
    (arg5 : Memref sig .tc .vmem S256x4096 .f32) (harg5 : arg5.IsWhole) (hc0 : ¬cond1_0 i) (hc1 : cond1_1 i)
    (x0 : Vec F S256x256 .bf16) (x1 : Vec F S4096x256 .f32) (xs : Vec F S256x4096 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1_down_kernel i arg2 harg2 arg3 harg3 arg4 harg4 arg5 harg5) K := by
  simp only [cc1_down_kernel_eq_skeleton]; unfold cc1_down_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  unfold kernelRun1_C.sl.v34 kernelRun1_C.sl.HS_1
  have hpay : k1_pay2
      (View.readAt (Elt F) arg2.view (Rect.unit ![0, 0] S256x256.size inb_S256x256_S256x256_0_0).toLoadRect (harg2.unread x0))
      (View.readAt (Elt F) arg3.view (Rect.unit ![0, 0] S4096x256.size inb_S4096x256_S4096x256_0_0).toLoadRect (harg3.unread x1))
      (View.readAt (Elt F) arg5.view (Rect.unit ![0, 0] S256x4096.size inb_S256x4096_S256x4096_0_0).toLoadRect (harg5.unread xs))
      = k1_pay2 x0 x1 xs := by
    rw [View.readAt_eq_ld, View.readAt_eq_ld, View.readAt_eq_ld, hf0, hf1, hfs,
      View.ld_unit_zero off00, View.ld_unit_zero off00, View.ld_unit_zero off00]
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    rw [read_writes_whole_last, View.readCov_unit_zero _ off00, hpay]
  iexists _; isplitr
  swap; · iexact HS
  ipureintro
  rw [read_writes_whole_last, hpay]

/-! ## The body obligation, at a generic point -/

/-- Each window's current staging memref at point `t`, as the pipeline passes it to the body, and its wholeness. -/
abbrev ms1_0 (t : Fin cfg1.N) : Memref sig .tc .vmem S256x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x4096 .f32 := win1_2.stage (cfg1.slots t 2)
abbrev hs1_2 (t : Fin cfg1.N) : (ms1_2 t).IsWhole := hstage1_2 ((cfg1.slots t 2).cast nbuf1_2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's position in its row-tile says which
    of the three cases it is in; the invariant hands the body the accumulator at what the point before left (at
    anything at the very first point) and takes it back at this point's contents; off a row-tile's last point the
    output block's buffer goes back as it came, at the last point it comes back holding the accumulator's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 688 := lt_of_lt_of_eq t.isLt (show cfg1.N = 688 from N_1)
  rw [PhiS1_castSucc V c t]
  by_cases h0 : t.val % 43 = 0
  · have h1 : ¬ t.val % 43 = 42 := by omega
    have hc0 : cond1_0 (grid1.coords t) := (hcond1_0 t).mpr h0
    have hc1 : ¬ cond1_1 (grid1.coords t) := fun h => h1 ((hcond1_1 t).mp h)
    rw [Dat.leavesExact_idle (dat1 V c) 2 t (idleAt1_2 t hc1) (noFlush1_2 t hc1)]
    rw [acc1_first V c t h0]
    by_cases hz : t.val = 0
    · rw [PhiS1_zero V c _ _ hz, PhiA1_eq]
      iintro ⟨⟨⟨R0, R1, R2, R3, R4, R5, R6, R7, HS⟩, Hg⟩, Ho, ⟨%d0, H0⟩, ⟨%d1, H1⟩, H2⟩
      iapply (kernelRun1_A c (grid1.coords t) _ _ _ _ (ms1_2 t) (hs1_2 t) _ _ hc0 hc1 (iblk1 V c 0 t) (iblk1 V c 1 t) Set.univ _)
      isplitl [H0]; · iexact H0
      isplitl [H1]; · iexact H1
      isplitl [HS]; · iexact HS
      iintro ⟨H0, H1, HS⟩
      isplitl [R0 R1 R2 R3 R4 R5 R6 R7 HS Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexact H2
    · rw [PhiS1_pos V c _ _ hz]
      iintro ⟨⟨⟨R0, R1, R2, R3, R4, R5, R6, R7, HS⟩, Hg⟩, Ho, ⟨%d0, H0⟩, ⟨%d1, H1⟩, H2⟩
      iapply (kernelRun1_A c (grid1.coords t) _ _ _ _ (ms1_2 t) (hs1_2 t) _ _ hc0 hc1 (iblk1 V c 0 t) (iblk1 V c 1 t) Set.univ _)
      isplitl [H0]; · iexact H0
      isplitl [H1]; · iexact H1
      isplitl [HS]; · iexists _; iexact HS
      iintro ⟨H0, H1, HS⟩
      isplitl [R0 R1 R2 R3 R4 R5 R6 R7 HS Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexact H2
  · have hz : t.val ≠ 0 := fun hz => h0 (by rw [hz])
    have hc0 : ¬ cond1_0 (grid1.coords t) := fun h => h0 ((hcond1_0 t).mp h)
    rw [acc1_later V c t h0, PhiS1_pos V c _ _ hz]
    by_cases h1 : t.val % 43 = 42
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, acc1_later V c t h0]
      iintro ⟨⟨⟨R0, R1, R2, R3, R4, R5, R6, R7, HS⟩, Hg⟩, Ho, ⟨%d0, H0⟩, ⟨%d1, H1⟩, ⟨%d2, H2⟩⟩
      iapply (kernelRun1_C c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [R0 R1 R2 R3 R4 R5 R6 R7 HS Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexact H2
    · have hc1 : ¬ cond1_1 (grid1.coords t) := fun h => h1 ((hcond1_1 t).mp h)
      rw [Dat.leavesExact_idle (dat1 V c) 2 t (idleAt1_2 t hc1) (noFlush1_2 t hc1)]
      iintro ⟨⟨⟨R0, R1, R2, R3, R4, R5, R6, R7, HS⟩, Hg⟩, Ho, ⟨%d0, H0⟩, ⟨%d1, H1⟩, H2⟩
      iapply (kernelRun1_B c (grid1.coords t) _ _ _ _ (ms1_2 t) (hs1_2 t) _ _ hc0 hc1 (iblk1 V c 0 t) (iblk1 V c 1 t) _ Set.univ _)
      isplitl [H0]; · iexact H0
      isplitl [H1]; · iexact H1
      isplitl [HS]; · iexact HS
      iintro ⟨H0, H1, HS⟩
      isplitl [R0 R1 R2 R3 R4 R5 R6 R7 HS Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the scoped rest and the generator register back, the accumulator's contents forgotten. -/
theorem hout1 (c : Dev nD) : (dat1 V c).Φ (Fin.last cfg1.N) ⊢ (Pipeline.ΦA spec1 c : sProp 𝕄) := by
  have hN : cfg1.N = 688 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨H0, H1, H2, H3, H4, H5, H6, H7, HS⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact HS
  iexact Hg

end Cert.Kernel.Fr

end
-- ==== Proof.K.Run.lean ====
/- The whole run of the program: a reshape of the activations, region 0, region 1, a reshape of the result.
   The core's unscoped buffers are followed from the launch through the four items: after the first reshape, after
   region 0 (its output array at what its write-backs leave, every other buffer as entered), after region 1 (likewise),
   after the last reshape. Every weakly fair execution terminates, the four argument arrays end as launched (no item
   writes one), and the result's buffer ends at the last boundary's contents, which the value modules read. -/
import proofs.«143195_j55250459295887_1_alg».proof.Proof.K.Reg0
import proofs.«143195_j55250459295887_1_alg».proof.Proof.K.Reg1
import proofs.«143195_j55250459295887_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first reshape (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit, region 1's entry). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape: the end. -/
abbrev W4 : Dev nD → Valuation τ sig (Elt F) := fun c => StableHlo.after hostOps2 (W3 m ρ c)

/-! ## The arguments end as launched

No reshape writes an argument (each writes its own result), and a region changes only its output array: region 0
reads two arguments through input windows and bypasses the others, region 1 reads one and bypasses the others. -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of m ρ c main_arg3 (by decide)
    _ = W2 m ρ c (Proc.devRef .tc main_arg3) := (W3_arr m ρ c 1).trans (((dat1 (V2 m ρ) c).arrAt_in 1 rfl _).trans (A_eq1 (V2 m ρ) c 1))
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A reshape as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its invariant starts
    as the scoped rest and the generator register and gives them back at the end, the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

/-- @main is the run of the segments. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting; the result's
    buffer ends at the last boundary's contents and the four argument arrays end as launched. -/
theorem run_main : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame: every execution terminates and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Fr

end
-- ==== Proof.KI.Def0.lean ====
/- Region 0 (the gate/up projection with its three fake-quantizations and the requantized SiLU·up product):
    the blocks a grid point reads, the block it leaves, and the pipeline's proof data, at any entry contents `V` of the
    core's arrays. -/
import proofs.«143195_j55250459295887_1_alg».proof.Proof.Gen.KernelIdeal.Launch
import proofs.«143195_j55250459295887_1_alg».proof.Proof.Gen.KernelIdeal.Skeleton
import proofs.«143195_j55250459295887_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output block's buffer, from the three input blocks: the requantized hidden block. -/
def out0_3 (x0 : Vec F S256x4096 .f32) (x1 : Vec F S128x4096 .f32) (x2 : Vec F S128x4096 .f32) : Vec F S256x128 .bf16 :=
  k0_pay5 (k0_pay1 x0) (k0_pay2 x1) (k0_pay3 x2) (k0_pay4 x2)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

end Cert.KernelIdeal.Fr

end
-- ==== Proof.KI.Reg0.lean ====
/- Region 0 (the gate/up projection with its three fake-quantizations and the requantized SiLU·up product):
    what one grid point does to its four staging buffers, stated at any entry contents `V` of the core's arrays.
    The body loads the x-block and the two weight blocks whole, and stores one whole 256×128 block. -/
import proofs.«143195_j55250459295887_1_alg».proof.Proof.KI.Def0
import proofs.«143195_j55250459295887_1_alg».proof.Proof.Gen.KernelIdeal.Launch
import proofs.«143195_j55250459295887_1_alg».proof.Proof.Gen.KernelIdeal.Skeleton
import proofs.«143195_j55250459295887_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks are in place when the body runs -/

/-- The x-block (window 0) sits in its current staging buffer at every point. It is refetched only when the row
    block changes, but between two fetches its block index stands still and the body leaves the buffer as it was. -/
theorem xblock_in_place {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  rw [dat.before_in_eq_fetched 0 rfl (fun _ => rfl) (fun _ _ _ => rfl) hkeep t d]
  unfold Dat.fetched Dat.blockOf iblk0; rw [hA]; try rfl

/-- The gate-weight block (window 1) likewise. -/
theorem gateblock_in_place {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  rw [dat.before_in_eq_fetched 1 rfl (fun _ => rfl) (fun _ _ _ => rfl) hkeep t d]
  unfold Dat.fetched Dat.blockOf iblk0; rw [hA]; try rfl

/-- The up-weight block (window 2) likewise. -/
theorem upblock_in_place {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  have hkeep : ∀ t, (cfg0.win 2).cut (cfg0.grid.coords t) (dat.after 2 t) = dat.blockOf 2 t := fun t => by
    rw [hafter]; unfold Dat.blockOf iblk0; rw [hA]; try rfl
  rw [dat.before_in_eq_fetched 2 rfl (fun _ => rfl) (fun _ _ _ => rfl) hkeep t d]
  unfold Dat.fetched Dat.blockOf iblk0; rw [hA]; try rfl

/-! ## The body's one store -/

/-- The offsets of every access of this body: both zero. -/
theorem zero_offsets : (![0, 0] : Fin 2 → ℕ) = fun _ => 0 := funext fun a => by fin_cases a <;> rfl

/-- The rectangle of the store: the whole 256×128 block. -/
abbrev hiddenRect : Rect S256x128 := Rect.unit (s := S256x128) ![0, 0] S256x128.size inb_S256x128_S256x128_0_0

/-- A buffer of the output block's shape, after one store of \`w\` through the whole-block rectangle over any prior
    contents, reads back as \`w\`: the one piece covers every index, and under it the canon is its payload. -/
theorem read_hidden_store {sp : Space} (v : View sig .tc sp S256x128 .bf16) (f : v.ty.Contents (Elt F))
    (w : Vec F S256x128 .bf16) : v.read (Elt F) (v.writes (Elt F) f [⟨hiddenRect, w⟩]) = w := by
  have hcov : ∀ y : S256x128.Idx, ∃ p ∈ ([⟨hiddenRect, w⟩] : List (View.Piece (Elt F) S256x128 .bf16)), y ∈ p.1.set :=
    fun y => ⟨⟨hiddenRect, w⟩, List.mem_singleton_self _,
      View.mem_set_unit_zero (S := S256x128) zero_offsets inb_S256x128_S256x128_0_0 y⟩
  rw [View.read_writes_eq_canon v f _ hcov]
  exact View.canon_unit_zero (S := S256x128) zero_offsets inb_S256x128_S256x128_0_0 w

/-! ## The body's triple -/

set_option maxHeartbeats 1000000 in
/-- The kernel on whole staging memrefs: with the three inputs at contents \`x0\`, \`x1\`, \`x2\` and the output at any
    contents, it runs to a continuation that holds the inputs as they were and the output at \`out0_3 x0 x1 x2\`.
    The three loads read the whole buffers, the load of the output's buffer is of a value nothing uses, and the
    one store covers the output's buffer. -/
theorem sound_kernel0 (c : Dev nD) (E : Set ℕ) (i : grid0.Coords)
    (arg2 : Memref sig .tc .vmem S256x4096 .f32) (harg2 : arg2.IsWhole)
    (arg3 : Memref sig .tc .vmem S128x4096 .f32) (harg3 : arg3.IsWhole)
    (arg4 : Memref sig .tc .vmem S128x4096 .f32) (harg4 : arg4.IsWhole)
    (arg5 : Memref sig .tc .vmem S256x128 .bf16) (harg5 : arg5.IsWhole)
    (x0 : Vec F S256x4096 .f32) (x1 : Vec F S128x4096 .f32) (x2 : Vec F S128x4096 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out0_3 x0 x1 x2)) -∗ K ⟨⟩))
      ⊢ wp frame (wpE (defs₀ (F := F)) Variants.none c none) E
          (cc0_gate_up_kernel i arg2 harg2 arg3 harg3 arg4 harg4 arg5 harg5) K := by
  simp only [cc0_gate_up_kernel_eq_skeleton]; unfold cc0_gate_up_kernel_skel
  simp only [k0_part2_eq_skeleton, k0_part1_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_hidden_store]
  sl_unfold_run_names
  unfold out0_3
  simp only [View.readAt_eq_ld, View.ld_unit_zero (S := S256x4096) zero_offsets,
    View.ld_unit_zero (S := S128x4096) zero_offsets]

/-! ## The body at a grid point -/

/-- What each window's body leaves, read off the proof data. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- Each input's current staging buffer holds its block when the body is called. -/
theorem before0_0 (c : Dev nD) (t : Fin cfg0.N) (d) : (dat0 V c).before 0 t d = iblk0 V c 0 t :=
  xblock_in_place V (dat0 V c) (A_eq0 V c 0) (after0_0 V c) t d
theorem before0_1 (c : Dev nD) (t : Fin cfg0.N) (d) : (dat0 V c).before 1 t d = iblk0 V c 1 t :=
  gateblock_in_place V (dat0 V c) (A_eq0 V c 1) (after0_1 V c) t d
theorem before0_2 (c : Dev nD) (t : Fin cfg0.N) (d) : (dat0 V c).before 2 t d = iblk0 V c 2 t :=
  upblock_in_place V (dat0 V c) (A_eq0 V c 2) (after0_2 V c) t d

/-- What the body is handed at point \`t\`: the invariant, the core's debts, and the four current staging buffers, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks, so the kernel's triple applies at those
    blocks; the invariant and the core's debts are the same at the next point and pass through untouched. -/
theorem sound_body0 (c : Dev nD) (t : Fin cfg0.N) :
    handed0 V c t ⊢ wp frame (wpE (defs₀ (F := F)) Variants.none c none) Set.univ (bodyAt0 t) (fun _ => returned0 V c t) := by
  unfold handed0 returned0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Def1.lean ====
/- Region 1 (the down projection): the product of the hidden block with the fake-quantized weight block is
    added into a scratch accumulator that is reset at the first of a row-tile's 43 points and copied to the
    output block at the last; stated at any entry contents `V` of the core's arrays. -/
import proofs.«143195_j55250459295887_1_alg».proof.Proof.Gen.KernelIdeal.Launch
import proofs.«143195_j55250459295887_1_alg».proof.Proof.Gen.KernelIdeal.Skeleton
import proofs.«143195_j55250459295887_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at the first point of a row-tile the product is added to the zero block,
    at every later point to what the point before left. -/
def acc1 (c : Dev nD) : (n : ℕ) → n < cfg1.N → Vec F S256x4096 .f32
  | 0, hn => k1_pay2 (iblk1 V c 0 ⟨0, hn⟩) (iblk1 V c 1 ⟨0, hn⟩) (k1_pay1 (F := F))
  | n + 1, hn =>
    if (n + 1) % 43 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h : t.val % 43 = 0) :
    acc1 V c t.val t.isLt = k1_pay2 (iblk1 V c 0 t) (iblk1 V c 1 t) (k1_pay1 (F := F)) := by
  obtain ⟨n, hn⟩ := t
  cases n with
  | zero => exact rfl
  | succ n => exact (if_pos h).trans rfl

theorem acc1_later (c : Dev nD) (t : Fin cfg1.N) (h : ¬ t.val % 43 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-- The scratch accumulator as a memref. -/
abbrev scM1 : Memref sig .tc .vmem S256x4096 .f32 := Memref.whole cc1_scratch0

/-- The region's invariant before position `n`: before the first point the scoped rest at anything; afterwards the
    scoped rest with the accumulator at what the point before left, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ owns (c : Thread nD τ) scM1 fullShare (acc1 V c n hn)) ∗ (∃ r, prngReg c r))

/-- The proof data of pipeline 1 on core `c`. Window 2 (the output) is idle except at a row-tile's last point,
    where the body copies the accumulator into it; its entry at the other points is never consulted. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = acc1 V c t.val t.isLt := by dsimp only [dat1]

end Cert.KernelIdeal.Fr

end
-- ==== Proof.KI.Reg1.lean ====
/- Region 1 (the down projection): the product of the hidden block with the fake-quantized weight block is
    added into a scratch accumulator that is reset at the first of a row-tile's 43 points and copied to the
    output block at the last; stated at any entry contents `V` of the core's arrays. -/
import proofs.«143195_j55250459295887_1_alg».proof.Proof.KI.Def1
import proofs.«143195_j55250459295887_1_alg».proof.Proof.Gen.KernelIdeal.Launch
import proofs.«143195_j55250459295887_1_alg».proof.Proof.Gen.KernelIdeal.Skeleton
import proofs.«143195_j55250459295887_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions on the grid point, and where the output block is idle -/

/-- The first conditional's condition (the reduction index is zero), from the grid coordinates. -/
abbrev cond1_0 (i : grid1.Coords) : Prop :=
  (Scalar.cmpi .ne (Scalar.extui (Scalar.cmpi .eq (BitVec.ofNat 32 (i 1).val) 0#32)) 0#32) = 1#1

/-- It holds at the first of each row-tile's 43 points. -/
theorem hcond1_0 : ∀ t : Fin cfg1.N, cond1_0 (grid1.coords t) ↔ t.val % 43 = 0 :=
  (by decide +kernel : ∀ t : Fin grid1.N, cond1_0 (grid1.coords t) ↔ t.val % 43 = 0)

/-- The second conditional's condition (the reduction index is the last). -/
abbrev cond1_1 (i : grid1.Coords) : Prop := k1_cond2 i = 1#1

/-- It holds at the last of each row-tile's 43 points. -/
theorem hcond1_1 : ∀ t : Fin cfg1.N, cond1_1 (grid1.coords t) ↔ t.val % 43 = 42 :=
  (by decide +kernel : ∀ t : Fin grid1.N, cond1_1 (grid1.coords t) ↔ t.val % 43 = 42)

/-- The input windows are never idle. -/
theorem liveAt1_0 (t : Fin cfg1.N) : cfg1.idle 0 (grid1.coords t) = false := rfl
theorem liveAt1_1 (t : Fin cfg1.N) : cfg1.idle 1 (grid1.coords t) = false := rfl

/-- Off a row-tile's last point the output window is idle, -/
theorem idleAt1_2 (t : Fin cfg1.N) (h : ¬ cond1_1 (grid1.coords t)) : cfg1.idle 2 (grid1.coords t) = true := by
  show (!(k1_cond2 (grid1.coords t) == 1#1)) = true
  rw [Bool.not_eq_true', beq_eq_false_iff_ne]; exact h

/-- and not written back; -/
theorem noFlush1_2 (t : Fin cfg1.N) (h : ¬ cond1_1 (grid1.coords t)) : (cfg1.win 2).flush t = false := by
  rw [Bool.eq_false_iff]; intro hf; exact h ((hcond1_1 t).mpr ((flush1_2 t).mp hf))

/-- at the last point it is live. -/
theorem liveAt1_2 (t : Fin cfg1.N) (h : cond1_1 (grid1.coords t)) : cfg1.idle 2 (grid1.coords t) = false := by
  show (!(k1_cond2 (grid1.coords t) == 1#1)) = false
  rw [Bool.not_eq_false', beq_iff_eq]; exact h

/-! ## The invariant, unfolded -/

theorem PhiS1_zero (c : Dev nD) (n : ℕ) (h : n ≤ cfg1.N) (hz : n = 0) : PhiS1 V c n h = Pipeline.ΦA spec1 c := by
  subst hz; rfl

/-- The scoped rest and the generator register, with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ d, owns (c : Thread nD τ) scM1 fullShare d)) ∗ (∃ r, prngReg c r)) := by
  unfold Pipeline.ΦA; rw [scopedRest1_eq]; simp only [scM1, owns_whole]; try rfl

/-- After point `n`: the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ owns (c : Thread nD τ) scM1 fullShare (acc1 V c n hn)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ owns (c : Thread nD τ) scM1 fullShare (acc1 V c (n - 1) (by omega))) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]

/-- Each input's current staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## One run of the body per case, on any whole memrefs -/

/-- The zero offsets of a whole-buffer load or store, as a constant function. -/
theorem off00 : (![0, 0] : Fin 2 → Nat) = fun _ => 0 := by funext a; fin_cases a <;> rfl

/-- The last store through the whole accumulator-shaped buffer leaves its payload, whatever was stored before. -/
theorem read_writes_whole_last {κ : Kind} {sp : Space} (v : View sig κ sp S256x4096 .f32) (f : v.ty.Contents (Elt F))
    (w : Vec F S256x4096 .f32) (L : List (View.Piece (Elt F) S256x4096 .f32)) :
    v.read (Elt F) (v.writes (Elt F) f (⟨Rect.unit ![0, 0] S256x4096.size inb_S256x4096_S256x4096_0_0, w⟩ :: L)) = w := by
  rw [View.read_writes_eq_canon _ _ _ (fun y => ⟨⟨Rect.unit ![0, 0] S256x4096.size inb_S256x4096_S256x4096_0_0, w⟩, List.Mem.head _,
      View.mem_set_unit_zero off00 inb_S256x4096_S256x4096_0_0 y⟩),
    View.canon_cons_unit_zero off00]

set_option maxHeartbeats 4000000 in
/-- At the first point of a row-tile: the accumulator, whatever it held, is zeroed and the product added to it;
    the output block's buffer is not touched. -/
theorem kernelRun1_A (c : Dev nD) (i : grid1.Coords) (arg2 : Memref sig .tc .vmem S256x256 .bf16) (harg2 : arg2.IsWhole)
    (arg3 : Memref sig .tc .vmem S4096x256 .f32) (harg3 : arg3.IsWhole) (arg4 : Memref sig .tc .vmem S256x4096 .f32) (harg4 : arg4.IsWhole)
    (arg5 : Memref sig .tc .vmem S256x4096 .f32) (harg5 : arg5.IsWhole) (hc0 : cond1_0 i) (hc1 : ¬cond1_1 i)
    (x0 : Vec F S256x256 .bf16) (x1 : Vec F S4096x256 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 x0 x1 (k1_pay1 (F := F)))) -∗ K ⟨⟩))
      ⊢ wp frame (wpE (defs₀ (F := F)) Variants.none c none) E (cc1_down_kernel i arg2 harg2 arg3 harg3 arg4 harg4 arg5 harg5) K := by
  simp only [cc1_down_kernel_eq_skeleton]; unfold cc1_down_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  unfold kernelRun1_A.sl.v25 kernelRun1_A.sl.HS_1
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [read_writes_whole_last, View.readCov_unit_zero _ off00, View.readAt_eq_ld, View.readAt_eq_ld, hf0, hf1,
    View.ld_unit_zero off00, View.ld_unit_zero off00]

set_option maxHeartbeats 4000000 in
/-- At a point that is neither first nor last: the product is added to what the accumulator held. -/
theorem kernelRun1_B (c : Dev nD) (i : grid1.Coords) (arg2 : Memref sig .tc .vmem S256x256 .bf16) (harg2 : arg2.IsWhole)
    (arg3 : Memref sig .tc .vmem S4096x256 .f32) (harg3 : arg3.IsWhole) (arg4 : Memref sig .tc .vmem S256x4096 .f32) (harg4 : arg4.IsWhole)
    (arg5 : Memref sig .tc .vmem S256x4096 .f32) (harg5 : arg5.IsWhole) (hc0 : ¬cond1_0 i) (hc1 : ¬cond1_1 i)
    (x0 : Vec F S256x256 .bf16) (x1 : Vec F S4096x256 .f32) (xs : Vec F S256x4096 .f32) (E : Set ℕ) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1
            ∗ owns (c : Thread nD τ) arg5 fullShare (k1_pay2 x0 x1 xs)) -∗ K ⟨⟩))
      ⊢ wp frame (wpE (defs₀ (F := F)) Variants.none c none) E (cc1_down_kernel i arg2 harg2 arg3 harg3 arg4 harg4 arg5 harg5) K := by
  simp only [cc1_down_kernel_eq_skeleton]; unfold cc1_down_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [read_writes_whole_last, View.readAt_eq_ld, View.readAt_eq_ld, View.readAt_eq_ld, hf0, hf1, hfs,
    View.ld_unit_zero off00, View.ld_unit_zero off00, View.ld_unit_zero off00]

set_option maxHeartbeats 4000000 in
/-- At the last point of a row-tile: the product is added to what the accumulator held, and the sum is copied
    into the output block's buffer, whatever that held. -/
theorem kernelRun1_C (c : Dev nD) (i : grid1.Coords) (arg2 : Memref sig .tc .vmem S256x256 .bf16) (harg2 : arg2.IsWhole)
    (arg3 : Memref sig .tc .vmem S4096x256 .f32) (harg3 : arg3.IsWhole) (arg4 : Memref sig .tc .vmem S256x4096 .f32) (harg4 : arg4.IsWhole)
    (arg5 : Memref sig .tc .vmem S256x4096 .f32) (harg5 : arg5.IsWhole) (hc0 : ¬cond1_0 i) (hc1 : cond1_1 i)
    (x0 : Vec F S256x256 .bf16) (x1 : Vec F S4096x256 .f32) (xs : Vec F S256x4096 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1_down_kernel i arg2 harg2 arg3 harg3 arg4 harg4 arg5 harg5) K := by
  simp only [cc1_down_kernel_eq_skeleton]; unfold cc1_down_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  unfold kernelRun1_C.sl.v34 kernelRun1_C.sl.HS_1
  have hpay : k1_pay2
      (View.readAt (Elt F) arg2.view (Rect.unit ![0, 0] S256x256.size inb_S256x256_S256x256_0_0).toLoadRect (harg2.unread x0))
      (View.readAt (Elt F) arg3.view (Rect.unit ![0, 0] S4096x256.size inb_S4096x256_S4096x256_0_0).toLoadRect (harg3.unread x1))
      (View.readAt (Elt F) arg5.view (Rect.unit ![0, 0] S256x4096.size inb_S256x4096_S256x4096_0_0).toLoadRect (harg5.unread xs))
      = k1_pay2 x0 x1 xs := by
    rw [View.readAt_eq_ld, View.readAt_eq_ld, View.readAt_eq_ld, hf0, hf1, hfs,
      View.ld_unit_zero off00, View.ld_unit_zero off00, View.ld_unit_zero off00]
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    rw [read_writes_whole_last, View.readCov_unit_zero _ off00, hpay]
  iexists _; isplitr
  swap; · iexact HS
  ipureintro
  rw [read_writes_whole_last, hpay]

/-! ## The body obligation, at a generic point -/

/-- Each window's current staging memref at point `t`, as the pipeline passes it to the body, and its wholeness. -/
abbrev ms1_0 (t : Fin cfg1.N) : Memref sig .tc .vmem S256x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x4096 .f32 := win1_2.stage (cfg1.slots t 2)
abbrev hs1_2 (t : Fin cfg1.N) : (ms1_2 t).IsWhole := hstage1_2 ((cfg1.slots t 2).cast nbuf1_2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's position in its row-tile says which
    of the three cases it is in; the invariant hands the body the accumulator at what the point before left (at
    anything at the very first point) and takes it back at this point's contents; off a row-tile's last point the
    output block's buffer goes back as it came, at the last point it comes back holding the accumulator's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 688 := lt_of_lt_of_eq t.isLt (show cfg1.N = 688 from N_1)
  rw [PhiS1_castSucc V c t]
  by_cases h0 : t.val % 43 = 0
  · have h1 : ¬ t.val % 43 = 42 := by omega
    have hc0 : cond1_0 (grid1.coords t) := (hcond1_0 t).mpr h0
    have hc1 : ¬ cond1_1 (grid1.coords t) := fun h => h1 ((hcond1_1 t).mp h)
    rw [Dat.leavesExact_idle (dat1 V c) 2 t (idleAt1_2 t hc1) (noFlush1_2 t hc1)]
    rw [acc1_first V c t h0]
    by_cases hz : t.val = 0
    · rw [PhiS1_zero V c _ _ hz, PhiA1_eq]
      iintro ⟨⟨⟨R0, R1, R2, R3, R4, R5, R6, R7, HS⟩, Hg⟩, Ho, ⟨%d0, H0⟩, ⟨%d1, H1⟩, H2⟩
      iapply (kernelRun1_A c (grid1.coords t) _ _ _ _ (ms1_2 t) (hs1_2 t) _ _ hc0 hc1 (iblk1 V c 0 t) (iblk1 V c 1 t) Set.univ _)
      isplitl [H0]; · iexact H0
      isplitl [H1]; · iexact H1
      isplitl [HS]; · iexact HS
      iintro ⟨H0, H1, HS⟩
      isplitl [R0 R1 R2 R3 R4 R5 R6 R7 HS Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexact H2
    · rw [PhiS1_pos V c _ _ hz]
      iintro ⟨⟨⟨R0, R1, R2, R3, R4, R5, R6, R7, HS⟩, Hg⟩, Ho, ⟨%d0, H0⟩, ⟨%d1, H1⟩, H2⟩
      iapply (kernelRun1_A c (grid1.coords t) _ _ _ _ (ms1_2 t) (hs1_2 t) _ _ hc0 hc1 (iblk1 V c 0 t) (iblk1 V c 1 t) Set.univ _)
      isplitl [H0]; · iexact H0
      isplitl [H1]; · iexact H1
      isplitl [HS]; · iexists _; iexact HS
      iintro ⟨H0, H1, HS⟩
      isplitl [R0 R1 R2 R3 R4 R5 R6 R7 HS Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexact H2
  · have hz : t.val ≠ 0 := fun hz => h0 (by rw [hz])
    have hc0 : ¬ cond1_0 (grid1.coords t) := fun h => h0 ((hcond1_0 t).mp h)
    rw [acc1_later V c t h0, PhiS1_pos V c _ _ hz]
    by_cases h1 : t.val % 43 = 42
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, acc1_later V c t h0]
      iintro ⟨⟨⟨R0, R1, R2, R3, R4, R5, R6, R7, HS⟩, Hg⟩, Ho, ⟨%d0, H0⟩, ⟨%d1, H1⟩, ⟨%d2, H2⟩⟩
      iapply (kernelRun1_C c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [R0 R1 R2 R3 R4 R5 R6 R7 HS Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexact H2
    · have hc1 : ¬ cond1_1 (grid1.coords t) := fun h => h1 ((hcond1_1 t).mp h)
      rw [Dat.leavesExact_idle (dat1 V c) 2 t (idleAt1_2 t hc1) (noFlush1_2 t hc1)]
      iintro ⟨⟨⟨R0, R1, R2, R3, R4, R5, R6, R7, HS⟩, Hg⟩, Ho, ⟨%d0, H0⟩, ⟨%d1, H1⟩, H2⟩
      iapply (kernelRun1_B c (grid1.coords t) _ _ _ _ (ms1_2 t) (hs1_2 t) _ _ hc0 hc1 (iblk1 V c 0 t) (iblk1 V c 1 t) _ Set.univ _)
      isplitl [H0]; · iexact H0
      isplitl [H1]; · iexact H1
      isplitl [HS]; · iexact HS
      iintro ⟨H0, H1, HS⟩
      isplitl [R0 R1 R2 R3 R4 R5 R6 R7 HS Hg]
      · isplitr [Hg]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the scoped rest and the generator register back, the accumulator's contents forgotten. -/
theorem hout1 (c : Dev nD) : (dat1 V c).Φ (Fin.last cfg1.N) ⊢ (Pipeline.ΦA spec1 c : sProp 𝕄) := by
  have hN : cfg1.N = 688 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨H0, H1, H2, H3, H4, H5, H6, H7, HS⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact HS
  iexact Hg

end Cert.KernelIdeal.Fr

end
-- ==== Proof.KI.Run.lean ====
/- The whole run of the program: a reshape of the activations, region 0, region 1, a reshape of the result.
   The core's unscoped buffers are followed from the launch through the four items: after the first reshape, after
   region 0 (its output array at what its write-backs leave, every other buffer as entered), after region 1 (likewise),
   after the last reshape. Every weakly fair execution terminates, the four argument arrays end as launched (no item
   writes one), and the result's buffer ends at the last boundary's contents, which the value modules read. -/
import proofs.«143195_j55250459295887_1_alg».proof.Proof.KI.Reg0
import proofs.«143195_j55250459295887_1_alg».proof.Proof.KI.Reg1
import proofs.«143195_j55250459295887_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first reshape (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit, region 1's entry). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape: the end. -/
abbrev W4 : Dev nD → Valuation τ sig (Elt F) := fun c => StableHlo.after hostOps2 (W3 m ρ c)

/-! ## The arguments end as launched

No reshape writes an argument (each writes its own result), and a region changes only its output array: region 0
reads two arguments through input windows and bypasses the others, region 1 reads one and bypasses the others. -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of m ρ c main_arg3 (by decide)
    _ = W2 m ρ c (Proc.devRef .tc main_arg3) := (W3_arr m ρ c 1).trans (((dat1 (V2 m ρ) c).arrAt_in 1 rfl _).trans (A_eq1 (V2 m ρ) c 1))
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A reshape as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its invariant starts
    as the scoped rest and the generator register and gives them back at the end, the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

/-- @main is the run of the segments. -/
theorem main_run (c : Dev nD) : main (F := F) c = Pipeline.Seg.run (segs m ρ) := (main_chain c).trans (by chain_rfl)

set_option backward.isDefEq.respectTransparency.types false in
/-- Every weakly fair execution of @main from memory `m` with zero counters terminates, nothing faulting; the result's
    buffer ends at the last boundary's contents and the four argument arrays end as launched. -/
theorem run_main : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame: every execution terminates and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Fr

end
-- ==== Proof.Spec.lean ====
/- The mathematics both programs compute, stated once over the extended reals, index by index.

   A row of length n (a multiple of 128) is cut into groups of 128 consecutive entries. A group's SCALE is the larger
   of (its largest magnitude) / 127 and the constant ε; an entry x of the group is replaced by
   clamp(round-half-even(x / scale), −127, 127) · scale. With x, w_gate, w_up, w_down so treated along their last
   axis, the result is  out[r, h] = Σ_i hq[r, i] · wdq[h, i],  where hq is the same treatment of
   hidden[r, i] = (gate · logistic(gate)) · up  with  gate = Σ_h xq[r, h] · wgq[i, h]  and  up = Σ_h xq[r, h] · wuq[i, h]. -/
import Idealize.ShloMosaic.Lib.ValueIdx

noncomputable section

open scoped BigOperators

namespace Cert.Spec

open Idealize.ShloMosaic Idealize.ShloMosaic.ValueIdx

/-- −∞, the value every magnitude's maximum starts from. -/
abbrev negInf : EReal := Ideal.ofBits .f32 0xFF800000#32
/-- 127, the largest quantized magnitude. -/
abbrev c127 : EReal := Ideal.ofBits .f32 0x42FE0000#32
/-- −127. -/
abbrev cm127 : EReal := Ideal.ofBits .f32 0xC2FE0000#32
/-- ε, the float nearest 1e-8: the least scale. -/
abbrev eps : EReal := Ideal.ofBits .f32 0x322BCC77#32

/-- The largest magnitude among a group's 128 entries, from −∞. -/
def gmax (g : Fin 128 → EReal) : EReal :=
  (Finset.univ : Finset (Fin 128)).fold max negInf (fun l => max (g l) (-(g l)))

/-- A group's scale: max(largest magnitude / 127, ε). -/
def gscale (g : Fin 128 → EReal) : EReal := max (Ideal.div (gmax g) c127) eps

/-- An entry `x` under the scale `s`: rounded to the nearest integer multiple (ties to even), clamped to ±127, times `s`. -/
def qd (s x : EReal) : EReal :=
  min c127 (max cm127 (Ideal.liftRound Ideal.roundHalfEven (Ideal.div x s))) * s

/-- The group of 128 consecutive entries of `row` that holds entry `j`. -/
def grpOf {n : ℕ} (hn : n % 128 = 0) (row : Fin n → EReal) (j : Fin n) : Fin 128 → EReal :=
  fun l => row ⟨j.val / 128 * 128 + l.val, by have := j.isLt; have := l.isLt; omega⟩

/-- Entry `j` of `row` after the group-wise treatment. -/
def fq {n : ℕ} (hn : n % 128 = 0) (row : Fin n → EReal) (j : Fin n) : EReal :=
  qd (gscale (grpOf hn row j)) (row j)

theorem h4096 : 4096 % 128 = 0 := by decide
theorem h11008 : 11008 % 128 = 0 := by decide

/-- One projection: the treated activations' row `r` against the treated weight's row `n`. -/
def proj (x : Fin 4096 → Fin 4096 → EReal) (w : Fin 11008 → Fin 4096 → EReal) (r : Fin 4096) (n : Fin 11008) : EReal :=
  ∑ h : Fin 4096, fq h4096 (x r) h * fq h4096 (w n) h

/-- The hidden activation: (gate · logistic(gate)) · up. -/
def hidden (x : Fin 4096 → Fin 4096 → EReal) (wg wu : Fin 11008 → Fin 4096 → EReal) (r : Fin 4096) (n : Fin 11008) : EReal :=
  proj x wg r n * Ideal.logistic (proj x wg r n) * proj x wu r n

/-- The hidden activation after its own group-wise treatment along the 11008 axis. -/
def hq (x : Fin 4096 → Fin 4096 → EReal) (wg wu : Fin 11008 → Fin 4096 → EReal) (r : Fin 4096) (n : Fin 11008) : EReal :=
  fq h11008 (hidden x wg wu r) n

/-- The result: the treated hidden row `r` against the treated down weight's row `h`. -/
def down (x : Fin 4096 → Fin 4096 → EReal) (wg wu : Fin 11008 → Fin 4096 → EReal) (wd : Fin 4096 → Fin 11008 → EReal)
    (r h : Fin 4096) : EReal :=
  ∑ i : Fin 11008, hq x wg wu r i * fq h11008 (wd h) i

/-! ## The arrays read by coordinates -/

/-- A rank-2 array by its two coordinates. -/
def rows2 {a b : ℕ} (w : (⟨2, ![a, b]⟩ : Shape).Idx → EReal) (p : Fin a) (q : Fin b) : EReal := w (ix2 p q)

/-- The activations [2, 2048, 4096] as 4096 rows: row `r` is (r / 2048, r % 2048). -/
def rowsX (x : (⟨3, ![2, 2048, 4096]⟩ : Shape).Idx → EReal) (r : Fin 4096) (h : Fin 4096) : EReal :=
  x (ix3 (⟨r.val / 2048, by have := r.isLt; omega⟩ : Fin 2) (⟨r.val % 2048, by omega⟩ : Fin 2048) h)

/-- Row b·2048 + s of the 4096 rows. -/
def rowOf (b : Fin 2) (s : Fin 2048) : Fin 4096 := ⟨b.val * 2048 + s.val, by have := b.isLt; have := s.isLt; omega⟩

/-- The whole result at an index (b, s, h) of [2, 2048, 4096]: row b·2048 + s, column h. -/
def result (x : (⟨3, ![2, 2048, 4096]⟩ : Shape).Idx → EReal) (wg wu : (⟨2, ![11008, 4096]⟩ : Shape).Idx → EReal)
    (wd : (⟨2, ![4096, 11008]⟩ : Shape).Idx → EReal) (i : (⟨3, ![2, 2048, 4096]⟩ : Shape).Idx) : EReal :=
  down (rowsX x) (rows2 wg) (rows2 wu) (rows2 wd)
    ⟨(i 0).val * 2048 + (i 1).val, by have h0 : (i 0).val < 2 := (i 0).isLt; have h1 : (i 1).val < 2048 := (i 1).isLt; omega⟩
    ⟨(i 2).val, (i 2).isLt⟩

/-- The result at the index with coordinates (b, s, h). -/
theorem result_ix3 (x : (⟨3, ![2, 2048, 4096]⟩ : Shape).Idx → EReal) (wg wu : (⟨2, ![11008, 4096]⟩ : Shape).Idx → EReal)
    (wd : (⟨2, ![4096, 11008]⟩ : Shape).Idx → EReal) (b : Fin 2) (s : Fin 2048) (h : Fin 4096) :
    result x wg wu wd (ix3 b s h) = down (rowsX x) (rows2 wg) (rows2 wu) (rows2 wd) (rowOf b s) h := rfl

end Cert.Spec

end
-- ==== Proof.SpecBlk.lean ====
/- The specification read on blocks. A kernel works on a block of rows and, along the treated axis, on a window
   of whole groups; the treatment of such a window is the treatment of the row (a group never straddles a window
   that starts at a multiple of 128 and is a multiple of 128 long), and the projections make sense for any number
   of rows on either side. -/
import proofs.«143195_j55250459295887_1_alg».proof.Proof.Spec

noncomputable section

open scoped BigOperators

namespace Cert.Spec

open Idealize.ShloMosaic Idealize.ShloMosaic.ValueIdx

theorem h128 : 128 % 128 = 0 := by decide
theorem h256 : 256 % 128 = 0 := by decide

/-- One projection for any numbers of rows: row `r` of the treated left array against row `n` of the treated right one. -/
def projG {A B : ℕ} (x : Fin A → Fin 4096 → EReal) (w : Fin B → Fin 4096 → EReal) (r : Fin A) (n : Fin B) : EReal :=
  ∑ h : Fin 4096, fq h4096 (x r) h * fq h4096 (w n) h

/-- The hidden activation for any numbers of rows: (gate · logistic(gate)) · up. -/
def hiddenG {A B : ℕ} (x : Fin A → Fin 4096 → EReal) (wg wu : Fin B → Fin 4096 → EReal) (r : Fin A) (n : Fin B) : EReal :=
  projG x wg r n * Ideal.logistic (projG x wg r n) * projG x wu r n

theorem proj_eq_projG (x : Fin 4096 → Fin 4096 → EReal) (w : Fin 11008 → Fin 4096 → EReal) (r : Fin 4096) (n : Fin 11008) :
    proj x w r n = projG x w r n := rfl

theorem hidden_eq_hiddenG (x : Fin 4096 → Fin 4096 → EReal) (wg wu : Fin 11008 → Fin 4096 → EReal) (r : Fin 4096) (n : Fin 11008) :
    hidden x wg wu r n = hiddenG x wg wu r n := rfl

/-- The treatment of a window of `m` entries starting at offset `o` (both multiples of 128) of a row is the treatment
    of the row, entry by entry: the window's groups are the row's. -/
theorem fq_window {n m : ℕ} (hn : n % 128 = 0) (hm : m % 128 = 0) (row : Fin n → EReal) (o : ℕ) (ho : o % 128 = 0)
    (hom : o + m ≤ n) (k : Fin m) :
    fq hm (fun k' : Fin m => row ⟨o + k'.val, by have := k'.isLt; omega⟩) k
      = fq hn row ⟨o + k.val, by have := k.isLt; omega⟩ := by
  unfold fq
  have hg : grpOf hm (fun k' : Fin m => row ⟨o + k'.val, by have := k'.isLt; omega⟩) k
      = grpOf hn row ⟨o + k.val, by have := k.isLt; omega⟩ := by
    funext l
    unfold grpOf
    refine congrArg row (Fin.ext ?_)
    have := k.isLt; have := l.isLt
    show o + (k.val / 128 * 128 + l.val) = (o + k.val) / 128 * 128 + l.val
    omega
  rw [hg]

end Cert.Spec

end
-- ==== Proof.LibDotNT.lean ====
/-
  A matrix product against a transposed right operand, at the ideal instance, read at an entry.

  For two rank-2 operands of shapes [M, K] and [N, K] whose dimension numbers contract the second axis of each, the
  product into a zero accumulator is, at row `p` and column `j`, the plain sum over `a : Fin K` of
  `l (p, a) * r (j, a)` on the extended reals. The dimension numbers enter only through four coordinate facts (which
  coordinate of each operand is the output's and which is the contracted one); a caller proves those four for its own
  record and gets the sum.
-/
import Idealize.ShloMosaic.Lib.ValueIdx
import Idealize.ShloMosaic.PureOps.Ideal.Laws

noncomputable section

namespace Cert.Lib.DotNT

open Idealize.ShloMosaic Idealize.ShloMosaic.ValueIdx

/-- The contraction sum re-indexed from the record's one-axis contraction index to `Fin K`: the left operand is read
    along its row `p`, the right along its row `j`. -/
theorem contraction_ix2 {M K N : Nat} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : (⟨2, ![M, K]⟩ : Shape).Idx → EReal) (r : (⟨2, ![N, K]⟩ : Shape).Idx → EReal) (p : Fin M) (j : Fin N) :
    ∑ k : D.contr.Idx, l (D.lhsIdx (ix2 p j) k) * r (D.rhsIdx (ix2 p j) k) = ∑ a : Fin K, l (ix2 p a) * r (ix2 j a) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 j a := funext fun d => Fin.ext (by
    match d with
    | ⟨0, _⟩ => exact hr0 _ _
    | ⟨1, _⟩ => exact (hr1 _ _).trans hk)
  rw [el, er]

/-- A kernel's matrix product into the zero accumulator, at the ideal instance, read at `(p, j)`. -/
theorem matmul_zero_ix2 {M K N : Nat} {φ₁ φ₂ : FTy} (D : DotDims ⟨2, ![M, K]⟩ ⟨2, ![N, K]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : FVec Ideal ⟨2, ![M, K]⟩ φ₁) (r : FVec Ideal ⟨2, ![N, K]⟩ φ₂) (p : Fin M) (j : Fin N) :
    matmul D prec l r (constant (F := Ideal) ⟨2, ![M, N]⟩ .f32 0x00000000#32) (ix2 p j)
      = ∑ a : Fin K, l (ix2 p a) * r (ix2 j a) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.DotNT

end
-- ==== Proof.KI.Val0Pay.lean ====
/- What one grid point of region 0 stores, over the extended reals, entry by entry: from the x-block (256 rows), the
   gate-weight block and the up-weight block (128 rows each), entry (p, q) of the stored 256 × 128 block is the
   group-wise treatment, along its own 128 columns, of the block's hidden activation
   (gate · logistic(gate)) · up, gate and up being the sums over the 4096 columns of the treated blocks' products. -/
import proofs.«143195_j55250459295887_1_alg».proof.Proof.SpecBlk
import proofs.«143195_j55250459295887_1_alg».proof.Proof.LibDotNT
import proofs.«143195_j55250459295887_1_alg».proof.Proof.KI.Def0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat)

/-! ## Reading the layout operations of the treatment at an index -/

section Layout
variable {α : Type}

/-- A block [R, C] of G groups of 128 columns (C = G·128) cut into [R, G, 128]: entry (p, g, l) is entry
    (p, g·128 + l) of the block. -/
theorem cut_groups_apply {R G C : ℕ} (hC : C = G * 128) (x : (⟨2, ![R, C]⟩ : Shape).Idx → α)
    (h : (⟨2, ![R, C]⟩ : Shape).ShapeCasts ⟨3, ![R, G, 128]⟩) (p : Fin R) (g : Fin G) (l : Fin 128) :
    shapeCast ⟨3, ![R, G, 128]⟩ x h (ix3 p g l)
      = x (ix2 p ⟨g.val * 128 + l.val, by have := g.isLt; have := l.isLt; omega⟩) :=
  shapeCast_apply x h _ _ (by
    rw [Shape.rowMajor_val_two, Shape.rowMajor_val_three]
    show p.val * C + (g.val * 128 + l.val) = (p.val * G + g.val) * 128 + l.val
    rw [hC, Nat.add_mul, Nat.mul_assoc, Nat.add_assoc])

/-- The groups put back side by side, [R, G, 128] to [R, C]: entry (p, j) is entry (p, j / 128, j % 128). -/
theorem join_groups_apply {R G C : ℕ} (hC : C = G * 128) (y : (⟨3, ![R, G, 128]⟩ : Shape).Idx → α)
    (h : (⟨3, ![R, G, 128]⟩ : Shape).ShapeCasts ⟨2, ![R, C]⟩) (p : Fin R) (j : Fin C) :
    shapeCast ⟨2, ![R, C]⟩ y h (ix2 p j)
      = y (ix3 p ⟨j.val / 128, by have := j.isLt; omega⟩ ⟨j.val % 128, Nat.mod_lt _ (by decide)⟩) :=
  shapeCast_apply y h _ _ (by
    rw [Shape.rowMajor_val_three, Shape.rowMajor_val_two]
    have e : ∀ n : ℕ, (p.val * G + n / 128) * 128 + n % 128 = p.val * C + n := fun n => by
      rw [hC, Nat.add_mul, Nat.mul_assoc, Nat.add_assoc, Nat.div_add_mod']
    exact e j.val)

/-- A trailing unit axis added, [R, G] to [R, G, 1]: entry (p, g, 0) is entry (p, g). -/
theorem unit_lane_apply {R G : ℕ} (y : (⟨2, ![R, G]⟩ : Shape).Idx → α)
    (h : (⟨2, ![R, G]⟩ : Shape).ShapeCasts ⟨3, ![R, G, 1]⟩) (p : Fin R) (g : Fin G) (u : Fin 1) :
    shapeCast ⟨3, ![R, G, 1]⟩ y h (ix3 p g u) = y (ix2 p g) :=
  shapeCast_apply y h _ _ (by
    have hu : u.val = 0 := by have := u.isLt; omega
    rw [Shape.rowMajor_val_two, Shape.rowMajor_val_three]
    show p.val * G + g.val = (p.val * G + g.val) * 1 + u.val
    rw [hu, Nat.mul_one, Nat.add_zero])

/-- One value per group spread over the group's 128 lanes, [R, G, 1] to [R, G, 128]: entry (p, g, l) is the group's. -/
theorem spread_lanes_apply {R G : ℕ} (y : (⟨3, ![R, G, 1]⟩ : Shape).Idx → α)
    (h : (⟨3, ![R, G, 1]⟩ : Shape).Broadcasts ⟨3, ![R, G, 128]⟩) (p : Fin R) (g : Fin G) (l : Fin 128) :
    broadcastTo ⟨3, ![R, G, 128]⟩ y h (ix3 p g l) = y (ix3 p g (0 : Fin 1)) := by
  refine broadcastTo_apply y h (ix3 p g l) (ix3 p g (0 : Fin 1)) fun ax => ?_
  match ax with
  | ⟨0, _⟩ =>
    show p.val = if R = 1 then 0 else p.val
    split
    · have := p.isLt; omega
    · rfl
  | ⟨1, _⟩ =>
    show g.val = if G = 1 then 0 else g.val
    split
    · have := g.isLt; omega
    · rfl
  | ⟨2, _⟩ => rfl

end Layout

/-- The largest entry of each group of an [R, G, 128] array of magnitudes, from −∞: at (p, g), the fold of max over the
    group's 128 lanes. -/
theorem group_max_apply {R G : ℕ} (m : FVec Ideal ⟨3, ![R, G, 128]⟩ .f32)
    (h : (⟨3, ![R, G, 128]⟩ : Shape).Reduces [2] ⟨2, ![R, G]⟩) (p : Fin R) (g : Fin G) :
    multiReduction (F := Ideal) .maximumf [2] ⟨2, ![R, G]⟩ m 0xFF800000#32 h (.inl rfl) rfl (ix2 p g)
      = (Finset.univ : Finset (Fin 128)).fold max negInf (fun l => m (ix3 p g l)) := by
  refine (Ideal.multiReduction_maximumf_single m _ h (.inl rfl) rfl (ix2 p g)).trans ?_
  have e : (m ∘ h.lift (ix2 p g)) = fun l : Fin 128 => m (ix3 p g l) :=
    funext fun l => congrArg m (funext fun a => Fin.ext (by
      match a with
      | ⟨0, _⟩ => rfl
      | ⟨1, _⟩ => rfl
      | ⟨2, _⟩ => rfl))
  rw [e]
  rfl

/-! ## The treatment of a block cut into groups -/

/-- The scale of every group, [R, G, 1], from the array of magnitudes: the larger of (the group's largest magnitude) / 127
    and ε. -/
def scales {R G : ℕ} (m : FVec Ideal ⟨3, ![R, G, 128]⟩ .f32)
    (hred : (⟨3, ![R, G, 128]⟩ : Shape).Reduces [2] ⟨2, ![R, G]⟩)
    (hk : (⟨2, ![R, G]⟩ : Shape).ShapeCasts ⟨3, ![R, G, 1]⟩) : FVec Ideal ⟨3, ![R, G, 1]⟩ .f32 :=
  maximumf
    (divf (shapeCast ⟨3, ![R, G, 1]⟩ (multiReduction .maximumf [2] ⟨2, ![R, G]⟩ m 0xFF800000#32 hred (.inl rfl) rfl) hk)
      (broadcast ⟨3, ![R, G, 1]⟩ (Scalar.ofBits (F := Ideal) .f32 0x42FE0000#32)))
    (broadcast ⟨3, ![R, G, 1]⟩ (Scalar.ofBits (F := Ideal) .f32 0x322BCC77#32))

/-- The treated block [R, G, 128], from the block \`v\` and the array \`m\` of its magnitudes: each entry divided by its
    group's scale, rounded, clamped to ±127, times the scale. -/
def treated {R G : ℕ} (v m : FVec Ideal ⟨3, ![R, G, 128]⟩ .f32)
    (hred : (⟨3, ![R, G, 128]⟩ : Shape).Reduces [2] ⟨2, ![R, G]⟩)
    (hk : (⟨2, ![R, G]⟩ : Shape).ShapeCasts ⟨3, ![R, G, 1]⟩)
    (hb : (⟨3, ![R, G, 1]⟩ : Shape).Broadcasts ⟨3, ![R, G, 128]⟩) : FVec Ideal ⟨3, ![R, G, 128]⟩ .f32 :=
  mulf
    (minimumf (broadcast ⟨3, ![R, G, 128]⟩ (Scalar.ofBits (F := Ideal) .f32 0x42FE0000#32))
      (maximumf (broadcast ⟨3, ![R, G, 128]⟩ (Scalar.ofBits (F := Ideal) .f32 0xC2FE0000#32))
        (roundeven (divf v (broadcastTo ⟨3, ![R, G, 128]⟩ (scales m hred hk) hb)))))
    (broadcastTo ⟨3, ![R, G, 128]⟩ (scales m hred hk) hb)

/-- A group's scale read at (p, g, 0). -/
theorem scales_apply {R G : ℕ} (m : FVec Ideal ⟨3, ![R, G, 128]⟩ .f32)
    (hred : (⟨3, ![R, G, 128]⟩ : Shape).Reduces [2] ⟨2, ![R, G]⟩)
    (hk : (⟨2, ![R, G]⟩ : Shape).ShapeCasts ⟨3, ![R, G, 1]⟩) (p : Fin R) (g : Fin G) (u : Fin 1) :
    scales m hred hk (ix3 p g u)
      = max (Ideal.div ((Finset.univ : Finset (Fin 128)).fold max negInf (fun l => m (ix3 p g l))) c127) eps := by
  unfold scales
  show max (Ideal.div (shapeCast ⟨3, ![R, G, 1]⟩
      (multiReduction (F := Ideal) .maximumf [2] ⟨2, ![R, G]⟩ m 0xFF800000#32 hred (.inl rfl) rfl) hk (ix3 p g u)) c127) eps = _
  rw [unit_lane_apply, group_max_apply]

/-- A treated entry read at (p, g, l). -/
theorem treated_apply {R G : ℕ} (v m : FVec Ideal ⟨3, ![R, G, 128]⟩ .f32)
    (hred : (⟨3, ![R, G, 128]⟩ : Shape).Reduces [2] ⟨2, ![R, G]⟩)
    (hk : (⟨2, ![R, G]⟩ : Shape).ShapeCasts ⟨3, ![R, G, 1]⟩)
    (hb : (⟨3, ![R, G, 1]⟩ : Shape).Broadcasts ⟨3, ![R, G, 128]⟩) (p : Fin R) (g : Fin G) (l : Fin 128) :
    treated v m hred hk hb (ix3 p g l)
      = qd (max (Ideal.div ((Finset.univ : Finset (Fin 128)).fold max negInf (fun l' => m (ix3 p g l'))) c127) eps)
          (v (ix3 p g l)) := by
  unfold treated qd
  show min c127 (max cm127 (Ideal.liftRound Ideal.roundHalfEven
      (Ideal.div (v (ix3 p g l)) (broadcastTo ⟨3, ![R, G, 128]⟩ (scales m hred hk) hb (ix3 p g l)))))
      * broadcastTo ⟨3, ![R, G, 128]⟩ (scales m hred hk) hb (ix3 p g l) = _
  rw [spread_lanes_apply, scales_apply]

/-- A block [R, C] of whole groups, cut into groups, treated from its own magnitudes and put back: entry (p, j) is
    the group-wise treatment of row p at j. -/
theorem treated_row_apply {R G C : ℕ} (hC : C = G * 128) (hn : C % 128 = 0) (x : FVec Ideal ⟨2, ![R, C]⟩ .f32)
    (h1 : (⟨2, ![R, C]⟩ : Shape).ShapeCasts ⟨3, ![R, G, 128]⟩)
    (hred : (⟨3, ![R, G, 128]⟩ : Shape).Reduces [2] ⟨2, ![R, G]⟩)
    (hk : (⟨2, ![R, G]⟩ : Shape).ShapeCasts ⟨3, ![R, G, 1]⟩)
    (hb : (⟨3, ![R, G, 1]⟩ : Shape).Broadcasts ⟨3, ![R, G, 128]⟩)
    (h2 : (⟨3, ![R, G, 128]⟩ : Shape).ShapeCasts ⟨2, ![R, C]⟩) (p : Fin R) (j : Fin C) :
    shapeCast ⟨2, ![R, C]⟩
        (treated (shapeCast ⟨3, ![R, G, 128]⟩ x h1) (absf (shapeCast ⟨3, ![R, G, 128]⟩ x h1)) hred hk hb) h2 (ix2 p j)
      = fq hn (rows2 x p) j := by
  rw [join_groups_apply hC, treated_apply]
  have hg : j.val / 128 < G := by have := j.isLt; omega
  have em : (fun l' : Fin 128 => absf (shapeCast ⟨3, ![R, G, 128]⟩ x h1) (ix3 p (⟨j.val / 128, hg⟩ : Fin G) l'))
      = fun l' : Fin 128 => max (grpOf hn (rows2 x p) j l') (-(grpOf hn (rows2 x p) j l')) := funext fun l' => by
    show max (shapeCast ⟨3, ![R, G, 128]⟩ x h1 (ix3 p (⟨j.val / 128, hg⟩ : Fin G) l'))
        (-(shapeCast ⟨3, ![R, G, 128]⟩ x h1 (ix3 p (⟨j.val / 128, hg⟩ : Fin G) l'))) = _
    rw [cut_groups_apply hC]
    rfl
  have ev : shapeCast ⟨3, ![R, G, 128]⟩ x h1 (ix3 p (⟨j.val / 128, hg⟩ : Fin G) (⟨j.val % 128, Nat.mod_lt _ (by decide)⟩ : Fin 128))
      = rows2 x p j := by
    rw [cut_groups_apply hC]
    unfold rows2
    exact congrArg (fun k => x (ix2 p k)) (Fin.ext (Nat.div_add_mod' j.val 128))
  rw [em, ev]
  rfl

/-! ## The three input blocks' treatments -/

/-- The treated x-block at (p, h): the group-wise treatment of row p of the block. -/
theorem xq_apply (x0 : Vec Ideal S256x4096 .f32) (p : Fin 256) (h : Fin 4096) :
    k0_pay1 (F := Ideal) x0 (ix2 p h) = fq h4096 (rows2 (a := 256) (b := 4096) x0 p) h := by
  have e : k0_pay1 (F := Ideal) x0
      = shapeCast S256x4096
          (treated
            (shapeCast S256x32x128 (shapeCast S256x4096 x0 shapeCasts_S256x4096_S256x4096) shapeCasts_S256x4096_S256x32x128)
            (absf (shapeCast S256x32x128 (shapeCast S256x4096 x0 shapeCasts_S256x4096_S256x4096) shapeCasts_S256x4096_S256x32x128))
            reduces_S256x32x128_S256x32 shapeCasts_S256x32_S256x32x1 broadcasts_S256x32x1_S256x32x128)
          shapeCasts_S256x32x128_S256x4096 := rfl
  rw [e, treated_row_apply (R := 256) (G := 32) (C := 4096) rfl h4096, shapeCast_self]

/-- The treated gate-weight block at (n, h): the group-wise treatment of row n of the block. -/
theorem wgq_apply (x1 : Vec Ideal S128x4096 .f32) (n : Fin 128) (h : Fin 4096) :
    k0_pay2 (F := Ideal) x1 (ix2 n h) = fq h4096 (rows2 (a := 128) (b := 4096) x1 n) h := by
  have e : k0_pay2 (F := Ideal) x1
      = shapeCast S128x4096
          (treated (shapeCast S128x32x128 x1 shapeCasts_S128x4096_S128x32x128)
            (absf (shapeCast S128x32x128 x1 shapeCasts_S128x4096_S128x32x128))
            reduces_S128x32x128_S128x32 shapeCasts_S128x32_S128x32x1 broadcasts_S128x32x1_S128x32x128)
          shapeCasts_S128x32x128_S128x4096 := rfl
  rw [e, treated_row_apply (R := 128) (G := 32) (C := 4096) rfl h4096]

/-- The up-weight block, whose treatment is finished where it is used: from the block cut into groups and its
    magnitudes, the treated block at (n, h) is the group-wise treatment of row n of the block. -/
theorem wuq_apply (x2 : Vec Ideal S128x4096 .f32) (n : Fin 128) (h : Fin 4096) :
    shapeCast S128x4096
        (treated (k0_pay3 (F := Ideal) x2) (k0_pay4 (F := Ideal) x2)
          reduces_S128x32x128_S128x32 shapeCasts_S128x32_S128x32x1 broadcasts_S128x32x1_S128x32x128)
        shapeCasts_S128x32x128_S128x4096 (ix2 n h)
      = fq h4096 (rows2 (a := 128) (b := 4096) x2 n) h := by
  have e3 : k0_pay3 (F := Ideal) x2 = shapeCast S128x32x128 x2 shapeCasts_S128x4096_S128x32x128 := rfl
  have e4 : k0_pay4 (F := Ideal) x2 = absf (shapeCast S128x32x128 x2 shapeCasts_S128x4096_S128x32x128) := rfl
  rw [e4, e3, treated_row_apply (R := 128) (G := 32) (C := 4096) rfl h4096]

/-! ## The two projections and the hidden block -/

/-- The product's dimension numbers: the left operand's row is the output's row, -/
theorem dims_lhs_row (i : S256x128.Idx) (q : dot_S256x4096_S128x4096_S256x128_1_1_0_0_n_n.contr.Idx) :
    (dot_S256x4096_S128x4096_S256x128_1_1_0_0_n_n.lhsIdx i q 0).val = (i 0).val := by
  unfold DotDims.lhsIdx
  rw [dif_neg (show ¬(0 : Fin S256x4096.rank) ∈ dot_S256x4096_S128x4096_S256x128_1_1_0_0_n_n.lhsBatch by decide),
    dif_pos (show (0 : Fin S256x4096.rank) ∈ dot_S256x4096_S128x4096_S256x128_1_1_0_0_n_n.lhsNonContracting by decide)]
  rfl
/-- its column the contracted index; -/
theorem dims_lhs_col (i : S256x128.Idx) (q : dot_S256x4096_S128x4096_S256x128_1_1_0_0_n_n.contr.Idx) :
    (dot_S256x4096_S128x4096_S256x128_1_1_0_0_n_n.lhsIdx i q 1).val = (q ⟨0, by decide⟩).val :=
  dot_S256x4096_S128x4096_S256x128_1_1_0_0_n_n.lhsIdx_val_of_single rfl i q
/-- the right operand's row is the output's column, -/
theorem dims_rhs_row (i : S256x128.Idx) (q : dot_S256x4096_S128x4096_S256x128_1_1_0_0_n_n.contr.Idx) :
    (dot_S256x4096_S128x4096_S256x128_1_1_0_0_n_n.rhsIdx i q 0).val = (i 1).val := by
  unfold DotDims.rhsIdx
  rw [dif_neg (show ¬(0 : Fin S128x4096.rank) ∈ dot_S256x4096_S128x4096_S256x128_1_1_0_0_n_n.rhsBatch by decide),
    dif_pos (show (0 : Fin S128x4096.rank) ∈ dot_S256x4096_S128x4096_S256x128_1_1_0_0_n_n.rhsNonContracting by decide)]
  rfl
/-- and its column the contracted index. -/
theorem dims_rhs_col (i : S256x128.Idx) (q : dot_S256x4096_S128x4096_S256x128_1_1_0_0_n_n.contr.Idx) :
    (dot_S256x4096_S128x4096_S256x128_1_1_0_0_n_n.rhsIdx i q 1).val = (q ⟨0, by decide⟩).val :=
  dot_S256x4096_S128x4096_S256x128_1_1_0_0_n_n.rhsIdx_val_of_single rfl i q

/-- One projection of the block: the rows of \`a\` against the rows of \`b\`, summed over the 4096 columns. -/
theorem product_apply (a : FVec Ideal S256x4096 .bf16) (b : FVec Ideal S128x4096 .bf16) (p : Fin 256) (n : Fin 128) :
    matmul dot_S256x4096_S128x4096_S256x128_1_1_0_0_n_n none a b (constant (F := Ideal) S256x128 .f32 0x00000000#32) (ix2 p n)
      = ∑ k : Fin 4096, a (ix2 p k) * b (ix2 n k) :=
  Cert.Lib.DotNT.matmul_zero_ix2 (M := 256) (K := 4096) (N := 128) dot_S256x4096_S128x4096_S256x128_1_1_0_0_n_n none rfl rfl
    dims_lhs_row dims_lhs_col dims_rhs_row dims_rhs_col a b p n

/-- The hidden block [256, 128] from the treated x-block and the two treated weight blocks:
    (gate · logistic(gate)) · up of the two projections. -/
def hiddenBlk (a : FVec Ideal S256x4096 .f32) (b c : FVec Ideal S128x4096 .f32) : FVec Ideal S256x128 .f32 :=
  mulf
    (mulf
      (matmul dot_S256x4096_S128x4096_S256x128_1_1_0_0_n_n none (truncf .bf16 a bitsLt_bf16_f32) (truncf .bf16 b bitsLt_bf16_f32)
        (constant S256x128 .f32 0x00000000#32))
      (logistic
        (matmul dot_S256x4096_S128x4096_S256x128_1_1_0_0_n_n none (truncf .bf16 a bitsLt_bf16_f32) (truncf .bf16 b bitsLt_bf16_f32)
          (constant S256x128 .f32 0x00000000#32))))
    (matmul dot_S256x4096_S128x4096_S256x128_1_1_0_0_n_n none (truncf .bf16 a bitsLt_bf16_f32) (truncf .bf16 c bitsLt_bf16_f32)
      (constant S256x128 .f32 0x00000000#32))

/-- The hidden block at (p, n). -/
theorem hiddenBlk_apply (a : FVec Ideal S256x4096 .f32) (b c : FVec Ideal S128x4096 .f32) (p : Fin 256) (n : Fin 128) :
    hiddenBlk a b c (ix2 p n)
      = (∑ k : Fin 4096, a (ix2 p k) * b (ix2 n k)) * Ideal.logistic (∑ k : Fin 4096, a (ix2 p k) * b (ix2 n k))
          * (∑ k : Fin 4096, a (ix2 p k) * c (ix2 n k)) := by
  unfold hiddenBlk
  show matmul dot_S256x4096_S128x4096_S256x128_1_1_0_0_n_n none (truncf .bf16 a bitsLt_bf16_f32) (truncf .bf16 b bitsLt_bf16_f32)
        (constant (F := Ideal) S256x128 .f32 0x00000000#32) (ix2 p n)
      * Ideal.logistic (matmul dot_S256x4096_S128x4096_S256x128_1_1_0_0_n_n none (truncf .bf16 a bitsLt_bf16_f32)
        (truncf .bf16 b bitsLt_bf16_f32) (constant (F := Ideal) S256x128 .f32 0x00000000#32) (ix2 p n))
      * matmul dot_S256x4096_S128x4096_S256x128_1_1_0_0_n_n none (truncf .bf16 a bitsLt_bf16_f32) (truncf .bf16 c bitsLt_bf16_f32)
        (constant (F := Ideal) S256x128 .f32 0x00000000#32) (ix2 p n) = _
  rw [product_apply, product_apply]
  rfl

/-- The stored block is the hidden block cut into its one group of 128 columns, treated from its own magnitudes and
    put back. -/
theorem stored_eq (v21 : FVec Ideal S256x4096 .f32) (v39 : FVec Ideal S128x4096 .f32) (v40 v41 : FVec Ideal S128x32x128 .f32) :
    k0_pay5 (F := Ideal) v21 v39 v40 v41
      = truncf .bf16
          (shapeCast S256x128
            (treated
              (shapeCast S256x1x128
                (hiddenBlk v21 v39
                  (shapeCast S128x4096
                    (treated v40 v41 reduces_S128x32x128_S128x32 shapeCasts_S128x32_S128x32x1 broadcasts_S128x32x1_S128x32x128)
                    shapeCasts_S128x32x128_S128x4096))
                shapeCasts_S256x128_S256x1x128)
              (absf (shapeCast S256x1x128
                (hiddenBlk v21 v39
                  (shapeCast S128x4096
                    (treated v40 v41 reduces_S128x32x128_S128x32 shapeCasts_S128x32_S128x32x1 broadcasts_S128x32x1_S128x32x128)
                    shapeCasts_S128x32x128_S128x4096))
                shapeCasts_S256x128_S256x1x128))
              reduces_S256x1x128_S256x1 shapeCasts_S256x1_S256x1x1 broadcasts_S256x1x1_S256x1x128)
            shapeCasts_S256x1x128_S256x128)
          bitsLt_bf16_f32 := rfl

/-- Row p of the hidden block is row p of the hidden activation of the three blocks' rows. -/
theorem hidden_row (x0 : Vec Ideal S256x4096 .f32) (x1 x2 : Vec Ideal S128x4096 .f32) (p : Fin 256) :
    rows2 (a := 256) (b := 128)
        (hiddenBlk (k0_pay1 (F := Ideal) x0) (k0_pay2 (F := Ideal) x1)
          (shapeCast S128x4096
            (treated (k0_pay3 (F := Ideal) x2) (k0_pay4 (F := Ideal) x2)
              reduces_S128x32x128_S128x32 shapeCasts_S128x32_S128x32x1 broadcasts_S128x32x1_S128x32x128)
            shapeCasts_S128x32x128_S128x4096)) p
      = hiddenG (rows2 (a := 256) (b := 4096) x0) (rows2 (a := 128) (b := 4096) x1) (rows2 (a := 128) (b := 4096) x2) p := by
  funext n
  unfold rows2 hiddenG projG
  rw [hiddenBlk_apply]
  simp only [xq_apply, wgq_apply, wuq_apply]
  rfl

/-- The stored block at (p, q). -/
theorem out0_3_apply (x0 : Vec Ideal S256x4096 .f32) (x1 x2 : Vec Ideal S128x4096 .f32) (p : Fin 256) (q : Fin 128) :
    out0_3 (F := Ideal) x0 x1 x2 (ix2 p q)
      = fq h128 (hiddenG (rows2 (a := 256) (b := 4096) x0) (rows2 (a := 128) (b := 4096) x1) (rows2 (a := 128) (b := 4096) x2) p) q := by
  unfold out0_3
  rw [stored_eq]
  rw [truncf_apply]
  rw [treated_row_apply (R := 256) (G := 1) (C := 128) rfl h128, hidden_row]

end Cert.KernelIdeal.Val

end
-- ==== Proof.KI.Val0.lean ====
/- Region 0's result array over the extended reals: after all 16 × 86 grid points, entry (r, n) of the [4096, 11008]
   array holds the specification's treated hidden activation of row r at column n, as a function of the region's
   three input arrays (the activations as 4096 rows, the gate and up weights). Point (mt, nt) writes the block of
   rows 256·mt … and columns 128·nt …, whose 128 columns are exactly one group of the hidden row. -/
import proofs.«143195_j55250459295887_1_alg».proof.Proof.KI.Val0Pay
import proofs.«143195_j55250459295887_1_alg».proof.Proof.KI.Def0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The grid: point t is (t / 86, t % 86) -/

/-- The four windows' block indices at every grid point: the activations and the output move with t / 86 along
    rows, the two weights with t % 86 along rows, the output with t % 86 along columns. -/
theorem grid_index0 : ∀ t : Fin cfg0.N,
    win0_0.index t (0 : Fin 2) = t.val / 86 ∧ win0_0.index t (1 : Fin 2) = 0
    ∧ win0_1.index t (0 : Fin 2) = t.val % 86 ∧ win0_1.index t (1 : Fin 2) = 0
    ∧ win0_2.index t (0 : Fin 2) = t.val % 86 ∧ win0_2.index t (1 : Fin 2) = 0
    ∧ win0_3.index t (0 : Fin 2) = t.val / 86 ∧ win0_3.index t (1 : Fin 2) = t.val % 86 :=
  (by decide +kernel : ∀ t : Fin grid0.N, _)

/-! ## The input blocks as rows of their arrays -/

/-- Row p of the activations' block at point t is row 256·(t / 86) + p of the activations. -/
theorem xblk_row0 (c : Dev nD) (t : Fin cfg0.N) (p : Fin 256) :
    rows2 (a := 256) (b := 4096) (iblk0 (F := Ideal) V c 0 t) p
      = rows2 (a := 4096) (b := 4096) (V c main_v0)
          ⟨256 * (t.val / 86) + p.val, by have := t.isLt; have hN : cfg0.N = 1376 := N_0; have := p.isLt; omega⟩ := by
  obtain ⟨e0, e1, -⟩ := grid_index0 t
  funext h
  unfold rows2 iblk0
  rw [View.read_apply]
  show V c main_v0 _ = V c main_v0 _
  congr 1
  funext a
  apply Fin.ext
  match a with
  | ⟨0, _⟩ => show win0_0.index t (0 : Fin 2) * 256 + 1 * p.val = 256 * (t.val / 86) + p.val; omega
  | ⟨1, _⟩ => show win0_0.index t (1 : Fin 2) * 4096 + 1 * h.val = h.val; omega

/-- Row q of the gate weight's block at point t is row 128·(t % 86) + q of the gate weight. -/
theorem gblk_row0 (c : Dev nD) (t : Fin cfg0.N) (q : Fin 128) :
    rows2 (a := 128) (b := 4096) (iblk0 (F := Ideal) V c 1 t) q
      = rows2 (a := 11008) (b := 4096) (V c main_arg1)
          ⟨128 * (t.val % 86) + q.val, by have := q.isLt; omega⟩ := by
  obtain ⟨-, -, e2, e3, -⟩ := grid_index0 t
  funext h
  unfold rows2 iblk0
  rw [View.read_apply]
  show V c main_arg1 _ = V c main_arg1 _
  congr 1
  funext a
  apply Fin.ext
  match a with
  | ⟨0, _⟩ => show win0_1.index t (0 : Fin 2) * 128 + 1 * q.val = 128 * (t.val % 86) + q.val; omega
  | ⟨1, _⟩ => show win0_1.index t (1 : Fin 2) * 4096 + 1 * h.val = h.val; omega

/-- Row q of the up weight's block at point t is row 128·(t % 86) + q of the up weight. -/
theorem ublk_row0 (c : Dev nD) (t : Fin cfg0.N) (q : Fin 128) :
    rows2 (a := 128) (b := 4096) (iblk0 (F := Ideal) V c 2 t) q
      = rows2 (a := 11008) (b := 4096) (V c main_arg2)
          ⟨128 * (t.val % 86) + q.val, by have := q.isLt; omega⟩ := by
  obtain ⟨-, -, -, -, e4, e5, -⟩ := grid_index0 t
  funext h
  unfold rows2 iblk0
  rw [View.read_apply]
  show V c main_arg2 _ = V c main_arg2 _
  congr 1
  funext a
  apply Fin.ext
  match a with
  | ⟨0, _⟩ => show win0_2.index t (0 : Fin 2) * 128 + 1 * q.val = 128 * (t.val % 86) + q.val; omega
  | ⟨1, _⟩ => show win0_2.index t (1 : Fin 2) * 4096 + 1 * h.val = h.val; omega

/-! ## A block's treated hidden activation is the array's -/

/-- With the x-block's rows the array's rows 256·mt + p and the weight blocks' rows the arrays' rows 128·nt + q,
    the block's hidden row p is the window 128·nt … of the array's hidden row 256·mt + p, a window of one whole
    group; so its treatment at q is the row's treatment at column 128·nt + q. -/
theorem block_hq0 (X : Fin 4096 → Fin 4096 → EReal) (Wg Wu : Fin 11008 → Fin 4096 → EReal)
    (xb : Fin 256 → Fin 4096 → EReal) (gb ub : Fin 128 → Fin 4096 → EReal) (mt nt : ℕ) (hmt : mt < 16) (hnt : nt < 86)
    (hx : ∀ p : Fin 256, xb p = X ⟨256 * mt + p.val, by have := p.isLt; omega⟩)
    (hg : ∀ q : Fin 128, gb q = Wg ⟨128 * nt + q.val, by have := q.isLt; omega⟩)
    (hu : ∀ q : Fin 128, ub q = Wu ⟨128 * nt + q.val, by have := q.isLt; omega⟩)
    (p : Fin 256) (q : Fin 128) (r : Fin 4096) (n : Fin 11008) (hr : r.val = 256 * mt + p.val) (hn : n.val = 128 * nt + q.val) :
    fq h128 (hiddenG xb gb ub p) q = hq X Wg Wu r n := by
  have er : r = ⟨256 * mt + p.val, by have := p.isLt; omega⟩ := Fin.ext hr
  have en : n = ⟨128 * nt + q.val, by have := q.isLt; omega⟩ := Fin.ext hn
  rw [er, en]
  have hrow : hiddenG xb gb ub p
      = fun k' : Fin 128 => hidden X Wg Wu ⟨256 * mt + p.val, by have := p.isLt; omega⟩ ⟨128 * nt + k'.val, by have := k'.isLt; omega⟩ := by
    funext k'
    rw [hidden_eq_hiddenG]
    unfold hiddenG projG
    rw [hx p, hg k', hu k']
  rw [hrow]
  unfold hq
  exact fq_window h11008 h128 (hidden X Wg Wu ⟨256 * mt + p.val, by have := p.isLt; omega⟩) (128 * nt) (by omega) (by omega) q

/-! ## From the blocks to the array -/

/-- The result array as one function of the three input arrays: the treated hidden activation at (row, column). -/
def hqArr0 (c : Dev nD) : (⟨2, ![4096, 11008]⟩ : Shape).Idx → EReal := fun i =>
  hq (rows2 (a := 4096) (b := 4096) (V c main_v0)) (rows2 (a := 11008) (b := 4096) (V c main_arg1))
    (rows2 (a := 11008) (b := 4096) (V c main_arg2)) ⟨(i 0).val, (i 0).isLt⟩ ⟨(i 1).val, (i 1).isLt⟩

/-- What point t writes back is block t of that function. -/
theorem flushed_hq0 (c : Dev nD) (t : Fin cfg0.N) :
    (dat0 (F := Ideal) V c).flushed 3 t = ((cfg0.win 3).blk t).view.read (Elt Ideal) (hqArr0 V c) := by
  show (cfg0.win 3).cut (grid0.coords t) ((dat0 (F := Ideal) V c).after 3 t) = _
  rw [after0_3]
  obtain ⟨-, -, -, -, -, -, e6, e7⟩ := grid_index0 t
  have ht := t.isLt
  have hN : cfg0.N = 1376 := N_0
  funext j
  obtain ⟨p, q, rfl⟩ : ∃ (p : Fin 256) (q : Fin 128), j = ix2 p q := ⟨j 0, j 1, eq_ix2 j⟩
  show out0_3 (F := Ideal) (iblk0 V c 0 t) (iblk0 V c 1 t) (iblk0 V c 2 t) (ix2 p q)
    = hqArr0 V c (((cfg0.win 3).blk t).view.emb (ix2 p q))
  refine (out0_3_apply (iblk0 V c 0 t) (iblk0 V c 1 t) (iblk0 V c 2 t) p q).trans ?_
  unfold hqArr0
  refine block_hq0 _ _ _ _ _ _ (t.val / 86) (t.val % 86) (by omega) (by omega)
    (fun p' => xblk_row0 V c t p') (fun q' => gblk_row0 V c t q') (fun q' => ublk_row0 V c t q') p q _ _ ?_ ?_
  · show win0_3.index t (0 : Fin 2) * 256 + 1 * p.val = 256 * (t.val / 86) + p.val; omega
  · show win0_3.index t (1 : Fin 2) * 128 + 1 * q.val = 128 * (t.val % 86) + q.val; omega

/-- An index of the result array is in point t's block iff each coordinate is in the block's range on its axis. -/
theorem mem_out_blk0 (t : Fin cfg0.N) (i : S4096x11008.Idx) :
    i ∈ ((cfg0.win 3).blk t).view.set ↔ ∀ a : Fin 2, win0_3.index t a * S256x128.size a ≤ (i a).val
      ∧ (i a).val < win0_3.index t a * S256x128.size a + S256x128.size a := by
  show i ∈ ((View.whole main_v1).slice (win0_3.rect t)).set ↔ _
  rw [View.set_slice_whole, Rect.mem_set_unit]
  exact Iff.rfl

/-- Entry (r, n) lies in the block of point 86·(r / 256) + n / 128. -/
theorem out_cover0 (i : S4096x11008.Idx) :
    ∃ t : Fin cfg0.N, (cfg0.win 3).flush t = true ∧ i ∈ ((cfg0.win 3).blk t).view.set := by
  have hi0 : (i 0).val < 4096 := (i 0).isLt
  have hi1 : (i 1).val < 11008 := (i 1).isLt
  have hN : cfg0.N = 1376 := N_0
  refine ⟨⟨86 * ((i 0).val / 256) + (i 1).val / 128, by omega⟩, flush0_3 _, ?_⟩
  rw [mem_out_blk0]
  obtain ⟨-, -, -, -, -, -, e6, e7⟩ := grid_index0 ⟨86 * ((i 0).val / 256) + (i 1).val / 128, by omega⟩
  intro a
  match a with
  | ⟨0, _⟩ =>
    show win0_3.index ⟨86 * ((i 0).val / 256) + (i 1).val / 128, _⟩ (0 : Fin 2) * 256 ≤ (i 0).val
      ∧ (i 0).val < win0_3.index ⟨86 * ((i 0).val / 256) + (i 1).val / 128, _⟩ (0 : Fin 2) * 256 + 256
    rw [e6]
    show (86 * ((i 0).val / 256) + (i 1).val / 128) / 86 * 256 ≤ (i 0).val
      ∧ (i 0).val < (86 * ((i 0).val / 256) + (i 1).val / 128) / 86 * 256 + 256
    omega
  | ⟨1, _⟩ =>
    show win0_3.index ⟨86 * ((i 0).val / 256) + (i 1).val / 128, _⟩ (1 : Fin 2) * 128 ≤ (i 1).val
      ∧ (i 1).val < win0_3.index ⟨86 * ((i 0).val / 256) + (i 1).val / 128, _⟩ (1 : Fin 2) * 128 + 128
    rw [e7]
    show (86 * ((i 0).val / 256) + (i 1).val / 128) % 86 * 128 ≤ (i 1).val
      ∧ (i 1).val < (86 * ((i 0).val / 256) + (i 1).val / 128) % 86 * 128 + 128
    omega

/-- After region 0, its output array at (r, n) is the treated hidden activation. -/
theorem hq_array (c : Dev nD) (r : Fin 4096) (n : Fin 11008) :
    (dat0 (F := Ideal) V c).arrAt 3 cfg0.N (ix2 r n)
      = hq (rows2 (a := 4096) (b := 4096) (V c main_v0)) (rows2 (a := 11008) (b := 4096) (V c main_arg1))
          (rows2 (a := 11008) (b := 4096) (V c main_arg2)) r n := by
  rw [(dat0 (F := Ideal) V c).arrAt_eq_of_cover 3 (hqArr0 V c) (fun t _ => flushed_hq0 V c t) out_cover0]
  rfl

end Cert.KernelIdeal.Val

end
-- ==== Proof.KI.Val1Pay.lean ====
/- What one grid point of region 1 adds to its accumulator, over the extended reals, entry by entry: the zero block
   is zero, and from the hidden block (256 × 256), the down-weight block (4096 × 256) and the accumulator's contents,
   entry (p, h) of the new contents is the old entry plus the sum over the block's 256 columns of the hidden entry
   times the down weight's entry treated group-wise along those 256 columns. -/
import proofs.«143195_j55250459295887_1_alg».proof.Proof.SpecBlk
import proofs.«143195_j55250459295887_1_alg».proof.Proof.LibDotNT
import proofs.«143195_j55250459295887_1_alg».proof.Proof.KI.Def1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat)

/-! ## Layout operations of the weight's treatment, read at indices built from coordinates -/

section Layout
variable {α : Type}

/-- A row of 256 cut into two groups of 128: entry (r, g, l) is the row's entry 128 g + l. -/
theorem cast_groups_apply (x : S4096x256.Idx → α) (hc : S4096x256.ShapeCasts S4096x2x128) (r : Fin 4096) (g : Fin 2) (l : Fin 128) :
    shapeCast S4096x2x128 x hc (ix3 r g l)
      = x (ix2 r (⟨g.val * 128 + l.val, by have := g.isLt; have := l.isLt; omega⟩ : Fin 256)) :=
  shapeCast_apply x hc _ _ (by
    rw [Shape.rowMajor_val_two, Shape.rowMajor_val_three]
    show r.val * 256 + (g.val * 128 + l.val) = (r.val * 2 + g.val) * 128 + l.val
    omega)

/-- The groups laid back into a row of 256: entry (r, k) is entry (r, k / 128, k % 128). -/
theorem cast_ungroups_apply (y : S4096x2x128.Idx → α) (hc : S4096x2x128.ShapeCasts S4096x256) (r : Fin 4096) (k : Fin 256) :
    shapeCast S4096x256 y hc (ix2 r k)
      = y (ix3 r (⟨k.val / 128, by have := k.isLt; omega⟩ : Fin 2) (⟨k.val % 128, by omega⟩ : Fin 128)) :=
  shapeCast_apply y hc _ _ (by
    rw [Shape.rowMajor_val_three, Shape.rowMajor_val_two]
    show (r.val * 2 + k.val / 128) * 128 + k.val % 128 = r.val * 256 + k.val
    omega)

/-- A trailing unit axis added: entry (r, g, 0) is entry (r, g). -/
theorem cast_keep_apply (z : S4096x2.Idx → α) (hc : S4096x2.ShapeCasts S4096x2x1) (r : Fin 4096) (g : Fin 2) (u : Fin 1) :
    shapeCast S4096x2x1 z hc (ix3 r g u) = z (ix2 r g) :=
  shapeCast_apply z hc _ _ (by
    have hu : u.val = 0 := by omega
    rw [Shape.rowMajor_val_two, Shape.rowMajor_val_three]
    show r.val * 2 + g.val = (r.val * 2 + g.val) * 1 + u.val
    omega)

/-- A group's one value spread over its 128 lanes. -/
theorem bcast_lanes_apply (y : S4096x2x1.Idx → α) (hb : S4096x2x1.Broadcasts S4096x2x128) (r : Fin 4096) (g : Fin 2) (l : Fin 128) :
    broadcastTo S4096x2x128 y hb (ix3 r g l) = y (ix3 r g (0 : Fin 1)) := by
  refine broadcastTo_apply y hb (ix3 r g l) (ix3 r g (0 : Fin 1)) fun ax => ?_
  match ax with
  | ⟨0, _⟩ => rfl
  | ⟨1, _⟩ => rfl
  | ⟨2, _⟩ => rfl

end Layout

theorem absf_apply {s : Shape} {φ : FTy} (a : FVec Ideal s φ) (i : s.Idx) : absf a i = max (a i) (-(a i)) := rfl
theorem roundeven_apply {s : Shape} {φ : FTy} (a : FVec Ideal s φ) (i : s.Idx) :
    roundeven a i = Ideal.liftRound Ideal.roundHalfEven (a i) := rfl

/-- The largest value along a group's 128 lanes, from −∞. -/
theorem lane_max_apply (src : FVec Ideal S4096x2x128 .f32) (hred : S4096x2x128.Reduces [2] S4096x2) (hφ : FKind.Formats .f32)
    (hacc : (0xFF800000#32 : BitVec 32) = 0xFF800000#32) (r : Fin 4096) (g : Fin 2) :
    multiReduction (F := Ideal) .maximumf [2] S4096x2 src 0xFF800000#32 hred hφ hacc (ix2 r g)
      = (Finset.univ : Finset (Fin 128)).fold max negInf (fun l => src (ix3 r g l)) := by
  refine (Ideal.multiReduction_maximumf_single src _ hred hφ hacc (ix2 r g)).trans ?_
  have e : (src ∘ hred.lift (ix2 r g)) = fun l : Fin 128 => src (ix3 r g l) := by
    funext l
    show src (hred.lift (ix2 r g) l) = src (ix3 r g l)
    refine congrArg src (funext fun a => Fin.ext ?_)
    match a with
    | ⟨0, _⟩ => rfl
    | ⟨1, _⟩ => rfl
    | ⟨2, _⟩ => rfl
  rw [e]; rfl

/-! ## The weight block's treatment -/

/-- The weight block with each row cut into its two groups of 128 columns. -/
def wgrp (w : Vec Ideal S4096x256 .f32) : FVec Ideal S4096x2x128 .f32 :=
  shapeCast S4096x2x128 w shapeCasts_S4096x256_S4096x2x128

/-- Each group's scale. -/
def wscale (w : Vec Ideal S4096x256 .f32) : FVec Ideal S4096x2x1 .f32 :=
  maximumf
    (divf (shapeCast S4096x2x1 (multiReduction .maximumf [2] S4096x2 (absf (wgrp w)) 0xFF800000#32 reduces_S4096x2x128_S4096x2 (.inl rfl) rfl) shapeCasts_S4096x2_S4096x2x1)
      (broadcast S4096x2x1 (Scalar.ofBits .f32 0x42FE0000#32)))
    (broadcast S4096x2x1 (Scalar.ofBits .f32 0x322BCC77#32))

/-- The treated weight block. -/
def wtreat (w : Vec Ideal S4096x256 .f32) : FVec Ideal S4096x256 .f32 :=
  shapeCast S4096x256
    (mulf
      (minimumf (broadcast S4096x2x128 (Scalar.ofBits .f32 0x42FE0000#32))
        (maximumf (broadcast S4096x2x128 (Scalar.ofBits .f32 0xC2FE0000#32))
          (roundeven (divf (wgrp w) (broadcastTo S4096x2x128 (wscale w) broadcasts_S4096x2x1_S4096x2x128)))))
      (broadcastTo S4096x2x128 (wscale w) broadcasts_S4096x2x1_S4096x2x128))
    shapeCasts_S4096x2x128_S4096x256

/-- An entry of the grouped block is the row's entry. -/
theorem wgrp_apply (w : Vec Ideal S4096x256 .f32) (r : Fin 4096) (g : Fin 2) (l : Fin 128) :
    wgrp w (ix3 r g l) = w (ix2 r (⟨g.val * 128 + l.val, by have := g.isLt; have := l.isLt; omega⟩ : Fin 256)) := by
  unfold wgrp; exact cast_groups_apply w _ r g l

/-- A group's scale is the specification's, of the group's 128 entries. -/
theorem wscale_apply (w : Vec Ideal S4096x256 .f32) (r : Fin 4096) (g : Fin 2) (u : Fin 1) :
    wscale w (ix3 r g u)
      = gscale (fun l : Fin 128 => w (ix2 r (⟨g.val * 128 + l.val, by have := g.isLt; have := l.isLt; omega⟩ : Fin 256))) := by
  unfold wscale
  rw [maximumf_apply, divf_apply, broadcast_apply, broadcast_apply, cast_keep_apply]
  refine (congrArg (fun t : EReal => max (Ideal.div t (FloatOps.ofBits (F := Ideal) .f32 0x42FE0000#32)) (FloatOps.ofBits (F := Ideal) .f32 0x322BCC77#32))
    (lane_max_apply (absf (wgrp w)) _ _ _ r g)).trans ?_
  have e : (fun l : Fin 128 => absf (wgrp w) (ix3 r g l))
      = fun l : Fin 128 => max (w (ix2 r (⟨g.val * 128 + l.val, by have := g.isLt; have := l.isLt; omega⟩ : Fin 256)))
          (-(w (ix2 r (⟨g.val * 128 + l.val, by have := g.isLt; have := l.isLt; omega⟩ : Fin 256)))) := by
    funext l; rw [absf_apply, wgrp_apply]
  rw [e]; rfl

/-- An entry of the treated block is the treated row's entry. -/
theorem wtreat_apply (w : Vec Ideal S4096x256 .f32) (h : Fin 4096) (k : Fin 256) :
    wtreat w (ix2 h k) = fq h256 (rows2 (a := 4096) (b := 256) w h) k := by
  unfold wtreat
  rw [cast_ungroups_apply, mulf_apply, minimumf_apply, maximumf_apply, broadcast_apply, broadcast_apply, roundeven_apply,
    divf_apply, bcast_lanes_apply, wscale_apply, wgrp_apply]
  have ek : w (ix2 h (⟨(⟨k.val / 128, by have := k.isLt; omega⟩ : Fin 2).val * 128 + (⟨k.val % 128, by omega⟩ : Fin 128).val,
      by have := k.isLt; show k.val / 128 * 128 + k.val % 128 < 256; omega⟩ : Fin 256)) = rows2 (a := 4096) (b := 256) w h k := by
    unfold rows2
    exact congrArg (fun q => w (ix2 h q)) (Fin.ext (by show k.val / 128 * 128 + k.val % 128 = k.val; omega))
  rw [ek]
  rfl

/-! ## The product -/

theorem lhs_dot_0 (i : S256x4096.Idx) (q : dot_S256x256_S4096x256_S256x4096_1_1_0_0_n_n.contr.Idx) :
    (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl
theorem lhs_dot_1 (i : S256x4096.Idx) (q : dot_S256x256_S4096x256_S256x4096_1_1_0_0_n_n.contr.Idx) :
    (dot_S256x256_S4096x256_S256x4096_1_1_0_0_n_n.lhsIdx i q 1).val = (q ⟨0, by decide⟩).val :=
  dot_S256x256_S4096x256_S256x4096_1_1_0_0_n_n.lhsIdx_val_of_single rfl i q
theorem rhs_dot_0 (i : S256x4096.Idx) (q : dot_S256x256_S4096x256_S256x4096_1_1_0_0_n_n.contr.Idx) :
    (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl
theorem rhs_dot_1 (i : S256x4096.Idx) (q : dot_S256x256_S4096x256_S256x4096_1_1_0_0_n_n.contr.Idx) :
    (dot_S256x256_S4096x256_S256x4096_1_1_0_0_n_n.rhsIdx i q 1).val = (q ⟨0, by decide⟩).val :=
  dot_S256x256_S4096x256_S256x4096_1_1_0_0_n_n.rhsIdx_val_of_single rfl i q

/-- The product of a 256 × 256 block against a 4096 × 256 block along the second axis of each, into zero. -/
theorem down_matmul_apply (l : FVec Ideal S256x256 .bf16) (r : FVec Ideal S4096x256 .bf16) (p : Fin 256) (j : Fin 4096) :
    matmul dot_S256x256_S4096x256_S256x4096_1_1_0_0_n_n none l r (constant (F := Ideal) S256x4096 .f32 0x00000000#32) (ix2 p j)
      = ∑ a : Fin 256, l (ix2 p a) * r (ix2 j a) :=
  Cert.Lib.DotNT.matmul_zero_ix2 dot_S256x256_S4096x256_S256x4096_1_1_0_0_n_n none rfl rfl lhs_dot_0 lhs_dot_1 rhs_dot_0 rhs_dot_1 l r p j

/-- The accumulator's new contents as the operations that make it, the weight's treatment named. -/
theorem k1_pay2_eq (a : Vec Ideal S256x256 .bf16) (w : Vec Ideal S4096x256 .f32) (s : Vec Ideal S256x4096 .f32) :
    k1_pay2 (F := Ideal) a w s
      = shapeCast S256x4096
          (addf s (matmul (φ₁ := .bf16) (φ₂ := .bf16) dot_S256x256_S4096x256_S256x4096_1_1_0_0_n_n none
            (shapeCast S256x256 (a : FVec Ideal S256x256 .bf16) shapeCasts_S256x256_S256x256)
            (truncf .bf16 (wtreat w) bitsLt_bf16_f32) (constant (F := Ideal) S256x4096 .f32 0x00000000#32)))
          shapeCasts_S256x4096_S256x4096 := rfl

/-- The block the accumulator is reset to is zero. -/
theorem k1_pay1_apply (i : S256x4096.Idx) : k1_pay1 (F := Ideal) i = 0 := by
  unfold k1_pay1
  rw [shapeCast_self, broadcast_apply]
  exact Ideal.ofBits_zero_f32

/-- The accumulator's new contents at (p, h). -/
theorem k1_pay2_apply (a : Vec Ideal S256x256 .bf16) (w : Vec Ideal S4096x256 .f32) (s : Vec Ideal S256x4096 .f32)
    (p : Fin 256) (h : Fin 4096) :
    k1_pay2 (F := Ideal) a w s (ix2 p h)
      = s (ix2 p h) + ∑ k : Fin 256, a (ix2 p k) * fq h256 (rows2 (a := 4096) (b := 256) w h) k := by
  rw [k1_pay2_eq, shapeCast_self, addf_apply, down_matmul_apply]
  refine congrArg (s (ix2 p h) + ·) (Finset.sum_congr rfl fun k _ => ?_)
  rw [shapeCast_self, truncf_apply, wtreat_apply]

end Cert.KernelIdeal.Val

end
-- ==== Proof.KI.Val1.lean ====
/- Region 1's result array over the extended reals: after all 16 × 43 grid points, entry (r, h) of the [4096, 4096]
   array holds Σ over all 11008 columns i of (the hidden array at (r, i)) · (the treated down weight at (h, i)): the 43
   partial products of 256 columns each, added one after the other onto zero, are that one sum regrouped. -/
import proofs.«143195_j55250459295887_1_alg».proof.Proof.KI.Val1Pay
import proofs.«143195_j55250459295887_1_alg».proof.Proof.KI.Def1
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

set_option maxRecDepth 16384

noncomputable section

open scoped BigOperators

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A sum over the 11008 columns is the sum over the 43 windows of the sums over a window's 256 columns. -/
theorem sum_windows43 (f : Fin 11008 → EReal) :
    ∑ i : Fin 11008, f i
      = ∑ j : Fin 43, ∑ k : Fin 256, f ⟨256 * j.val + k.val, by have := j.isLt; have := k.isLt; omega⟩ := by
  rw [← Equiv.sum_comp ((finProdFinEquiv (m := 43) (n := 256)).trans (finCongr (by norm_num : 43 * 256 = 11008))) f,
    Fintype.sum_prod_type]
  refine Finset.sum_congr rfl fun j _ => Finset.sum_congr rfl fun k _ => congrArg f (Fin.ext ?_)
  show k.val + 256 * j.val = 256 * j.val + k.val
  omega

/-- The block indices of the three windows at point t = 43·mt + it: the hidden block is (mt, it), the down-weight
    block (0, it), the output block (mt, 0). -/
theorem blk_idx1 : ∀ t : Fin cfg1.N,
    win1_0.index t (0 : Fin 2) = t.val / 43 ∧ win1_0.index t (1 : Fin 2) = t.val % 43
    ∧ win1_1.index t (0 : Fin 2) = 0 ∧ win1_1.index t (1 : Fin 2) = t.val % 43
    ∧ win1_2.index t (0 : Fin 2) = t.val / 43 ∧ win1_2.index t (1 : Fin 2) = 0 :=
  (by decide +kernel : ∀ t : Fin grid1.N, _)

/-- The hidden block at point t, entry (p, k), is the hidden array at row 256·(t / 43) + p, column 256·(t % 43) + k. -/
theorem hid_blk1 (c : Dev nD) (t : Fin cfg1.N) (p k : Fin 256) (r : Fin 4096) (i : Fin 11008)
    (hr : r.val = 256 * (t.val / 43) + p.val) (hi : i.val = 256 * (t.val % 43) + k.val) :
    (iblk1 (F := Ideal) V c 0 t : Vec Ideal S256x256 .bf16) (ix2 p k)
      = rows2 (a := 4096) (b := 11008) (V c main_v1) r i := by
  obtain ⟨e0, e1, -⟩ := blk_idx1 t
  unfold iblk1 rows2
  rw [View.read_apply]
  show V c main_v1 _ = V c main_v1 _
  congr 1
  funext a
  apply Fin.ext
  match a with
  | ⟨0, _⟩ => show win1_0.index t (0 : Fin 2) * 256 + 1 * p.val = r.val; omega
  | ⟨1, _⟩ => show win1_0.index t (1 : Fin 2) * 256 + 1 * k.val = i.val; omega

/-- The down-weight block at point t, entry (h, k), is the down weight at row h, column 256·(t % 43) + k. -/
theorem wd_blk1 (c : Dev nD) (t : Fin cfg1.N) (h : Fin 4096) (k : Fin 256) (i : Fin 11008)
    (hi : i.val = 256 * (t.val % 43) + k.val) :
    (iblk1 (F := Ideal) V c 1 t : Vec Ideal S4096x256 .f32) (ix2 h k)
      = rows2 (a := 4096) (b := 11008) (V c main_arg3) h i := by
  obtain ⟨-, -, e2, e3, -⟩ := blk_idx1 t
  unfold iblk1 rows2
  rw [View.read_apply]
  show V c main_arg3 _ = V c main_arg3 _
  congr 1
  funext a
  apply Fin.ext
  match a with
  | ⟨0, _⟩ => show win1_1.index t (0 : Fin 2) * 4096 + 1 * h.val = h.val; omega
  | ⟨1, _⟩ => show win1_1.index t (1 : Fin 2) * 256 + 1 * k.val = i.val; omega

/-- Window j's share of the contraction at (r, h): the sum over its 256 columns; zero past the last window. -/
def part1 (hid wd : Fin 4096 → Fin 11008 → EReal) (r h : Fin 4096) (j : ℕ) : EReal :=
  if hj : j < 43 then
    ∑ k : Fin 256, hid r ⟨256 * j + k.val, by have := k.isLt; omega⟩
      * fq h11008 (wd h) ⟨256 * j + k.val, by have := k.isLt; omega⟩
  else 0

/-- One grid point adds its window's share onto the accumulator's entry. -/
theorem point_step1 (c : Dev nD) (t : Fin cfg1.N) (s : Vec Ideal S256x4096 .f32) (p : Fin 256) (h r : Fin 4096)
    (hr : r.val = 256 * (t.val / 43) + p.val) :
    k1_pay2 (F := Ideal) (iblk1 V c 0 t) (iblk1 V c 1 t) s (ix2 p h)
      = s (ix2 p h) + part1 (rows2 (a := 4096) (b := 11008) (V c main_v1)) (rows2 (a := 4096) (b := 11008) (V c main_arg3)) r h (t.val % 43) := by
  have hlt : t.val % 43 < 43 := Nat.mod_lt _ (by norm_num)
  refine (k1_pay2_apply _ _ s p h).trans ?_
  unfold part1
  rw [dif_pos hlt]
  refine congrArg (s (ix2 p h) + ·) (Finset.sum_congr rfl fun k _ => ?_)
  have e1 := hid_blk1 V c t p k r ⟨256 * (t.val % 43) + k.val, by have := k.isLt; omega⟩ hr rfl
  have e2 : fq h256 (rows2 (a := 4096) (b := 256) (iblk1 (F := Ideal) V c 1 t) h) k
      = fq h11008 (rows2 (a := 4096) (b := 11008) (V c main_arg3) h) ⟨256 * (t.val % 43) + k.val, by have := k.isLt; omega⟩ := by
    have hw : rows2 (a := 4096) (b := 256) (iblk1 (F := Ideal) V c 1 t) h
        = fun k' : Fin 256 => rows2 (a := 4096) (b := 11008) (V c main_arg3) h ⟨256 * (t.val % 43) + k'.val, by have := k'.isLt; omega⟩ :=
      funext fun k' => wd_blk1 V c t h k' _ rfl
    rw [hw]
    exact fq_window h11008 h256 (rows2 (a := 4096) (b := 11008) (V c main_arg3) h) (256 * (t.val % 43)) (by omega) (by omega) k
  rw [e1, e2]

/-- After point n = 43·mt + it, the accumulator's entry (p, h) is zero plus the shares of windows 0 … it of row
    256·mt + p. -/
theorem acc1_eq (c : Dev nD) (p : Fin 256) (h : Fin 4096) :
    ∀ (n : ℕ) (hn : n < cfg1.N) (r : Fin 4096), r.val = 256 * (n / 43) + p.val →
      acc1 (F := Ideal) V c n hn (ix2 p h)
        = 0 + ∑ j ∈ Finset.range (n % 43 + 1),
            part1 (rows2 (a := 4096) (b := 11008) (V c main_v1)) (rows2 (a := 4096) (b := 11008) (V c main_arg3)) r h j := by
  have first : ∀ (n : ℕ) (hn : n < cfg1.N) (r : Fin 4096), r.val = 256 * (n / 43) + p.val → n % 43 = 0 →
      acc1 (F := Ideal) V c n hn (ix2 p h)
        = 0 + ∑ j ∈ Finset.range (n % 43 + 1),
            part1 (rows2 (a := 4096) (b := 11008) (V c main_v1)) (rows2 (a := 4096) (b := 11008) (V c main_arg3)) r h j := by
    intro n hn r hr h0
    refine (congrFun (acc1_first V c ⟨n, hn⟩ h0) (ix2 p h)).trans ?_
    refine (point_step1 V c ⟨n, hn⟩ _ p h r hr).trans ?_
    rw [k1_pay1_apply, h0, Finset.sum_range_one]
  intro n
  induction n with
  | zero => intro hn r hr; exact first 0 hn r hr rfl
  | succ n ih =>
    intro hn r hr
    by_cases h0 : (n + 1) % 43 = 0
    · exact first (n + 1) hn r hr h0
    · refine (congrFun (acc1_later V c ⟨n + 1, hn⟩ h0) (ix2 p h)).trans ?_
      refine (point_step1 V c ⟨n + 1, hn⟩ _ p h r hr).trans ?_
      have hq : n / 43 = (n + 1) / 43 := by omega
      have hm : (n + 1) % 43 = n % 43 + 1 := by omega
      show acc1 (F := Ideal) V c n _ (ix2 p h) + _ = _
      rw [ih (Nat.lt_of_succ_lt hn) r (by rw [hq]; exact hr), hm, Finset.sum_range_succ _ (n % 43 + 1), add_assoc]

/-- The whole contraction at (r, h) is zero plus the 43 windows' shares. -/
theorem parts_total1 (hid wd : Fin 4096 → Fin 11008 → EReal) (r h : Fin 4096) :
    0 + ∑ j ∈ Finset.range 43, part1 hid wd r h j = ∑ i : Fin 11008, hid r i * fq h11008 (wd h) i := by
  rw [zero_add, Finset.sum_range, sum_windows43]
  refine Finset.sum_congr rfl fun j _ => ?_
  unfold part1
  rw [dif_pos j.isLt]

/-- What the output array ends holding: at every index the contraction of the hidden row with the treated down-weight row. -/
def outG1 (c : Dev nD) : S4096x4096.Idx → EReal := fun i =>
  ∑ i' : Fin 11008, rows2 (a := 4096) (b := 11008) (V c main_v1) ⟨(i 0).val, (i 0).isLt⟩ i'
    * fq h11008 (rows2 (a := 4096) (b := 11008) (V c main_arg3) ⟨(i 1).val, (i 1).isLt⟩) i'

theorem outG1_at (c : Dev nD) (i : S4096x4096.Idx) (r h : Fin 4096) (h0 : (i 0).val = r.val) (h1 : (i 1).val = h.val) :
    outG1 V c i = ∑ i' : Fin 11008, rows2 (a := 4096) (b := 11008) (V c main_v1) r i'
      * fq h11008 (rows2 (a := 4096) (b := 11008) (V c main_arg3) h) i' := by
  have e0 : (⟨(i 0).val, (i 0).isLt⟩ : Fin 4096) = r := Fin.ext h0
  have e1 : (⟨(i 1).val, (i 1).isLt⟩ : Fin 4096) = h := Fin.ext h1
  unfold outG1
  rw [e0, e1]

/-- The output block at a point is written back only at a row-tile's last point, and holds there that row-tile's
    block of the contraction. -/
theorem flushed1_eq (c : Dev nD) (t : Fin cfg1.N) (hf : (cfg1.win 2).flush t = true) :
    (dat1 (F := Ideal) V c).flushed 2 t = ((cfg1.win 2).blk t).view.read (Elt Ideal) (outG1 V c) := by
  have hN : cfg1.N = 688 := N_1
  have h42 : t.val % 43 = 42 := (flush1_2 t).mp hf
  obtain ⟨-, -, -, -, e4, e5⟩ := blk_idx1 t
  show (cfg1.win 2).cut (grid1.coords t) ((dat1 (F := Ideal) V c).after 2 t) = _
  rw [after1_2]
  funext y
  obtain ⟨p, h, rfl⟩ : ∃ (p : Fin 256) (h : Fin 4096), y = ix2 p h := ⟨y 0, y 1, eq_ix2 y⟩
  rw [View.read_apply]
  show acc1 (F := Ideal) V c t.val t.isLt (ix2 p h) = outG1 V c (((cfg1.win 2).blk t).view.emb (ix2 p h))
  have ht : t.val < 688 := hN ▸ t.isLt
  rw [acc1_eq V c p h t.val t.isLt ⟨256 * (t.val / 43) + p.val, by have := p.isLt; omega⟩ rfl, h42, parts_total1]
  refine (outG1_at V c _ _ h ?_ ?_).symm
  · show win1_2.index t (0 : Fin 2) * 256 + 1 * p.val = 256 * (t.val / 43) + p.val; omega
  · show win1_2.index t (1 : Fin 2) * 4096 + 1 * h.val = h.val; omega

/-- An index of the output array is in point t's block iff each coordinate is in the block's range on its axis. -/
theorem mem_blk1 (t : Fin cfg1.N) (i : S4096x4096.Idx) :
    i ∈ ((cfg1.win 2).blk t).view.set ↔ ∀ a : Fin 2, win1_2.index t a * S256x4096.size a ≤ (i a).val ∧ (i a).val < win1_2.index t a * S256x4096.size a + S256x4096.size a := by
  show i ∈ ((View.whole main_v2).slice (win1_2.rect t)).set ↔ _
  rw [View.set_slice_whole, Rect.mem_set_unit]
  exact Iff.rfl

/-- Row r of the output array lies in the block written back at the last point of row-tile r / 256. -/
theorem covered1 (i : S4096x4096.Idx) :
    ∃ t : Fin cfg1.N, (cfg1.win 2).flush t = true ∧ i ∈ ((cfg1.win 2).blk t).view.set := by
  have hN : cfg1.N = 688 := N_1
  have hi0 : (i 0).val < 4096 := (i 0).isLt
  have hi1 : (i 1).val < 4096 := (i 1).isLt
  let t : Fin cfg1.N := ⟨43 * ((i 0).val / 256) + 42, by rw [hN]; omega⟩
  have hv : t.val = 43 * ((i 0).val / 256) + 42 := rfl
  obtain ⟨-, -, -, -, e4, e5⟩ := blk_idx1 t
  refine ⟨t, (flush1_2 t).mpr (by rw [hv]; omega), ?_⟩
  rw [mem_blk1]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 4096 ≤ (i 1).val ∧ (i 1).val < win1_2.index t (1 : Fin 2) * 4096 + 4096; omega

/-- After region 1, its output array is the contraction at every index. -/
theorem out_final1 (c : Dev nD) : (dat1 (F := Ideal) V c).arrAt 2 cfg1.N = outG1 V c :=
  (dat1 (F := Ideal) V c).arrAt_eq_of_cover 2 (outG1 V c) (fun t hf => flushed1_eq V c t hf) covered1

/-- After region 1, its output array at (r, h) is the whole contraction over the 11008 hidden columns. -/
theorem out_array (c : Dev nD) (r h : Fin 4096) :
    (dat1 (F := Ideal) V c).arrAt 2 cfg1.N (ix2 r h)
      = ∑ i : Fin 11008, rows2 (a := 4096) (b := 11008) (V c main_v1) r i
          * fq h11008 (rows2 (a := 4096) (b := 11008) (V c main_arg3) h) i := by
  rw [out_final1]
  exact outG1_at V c _ r h rfl rfl

end Cert.KernelIdeal.Val

end
-- ==== Proof.KI.Value.lean ====
/- The result of the whole idealized program over the extended reals: the buffer the last reshape writes holds,
   at (b, s, h), the specification's result. The first reshape lays the activations out as 4096 rows (row
   b·2048 + s), region 0 leaves the treated hidden activation, region 1 its contraction with the treated down weight,
   and the last reshape reads row b·2048 + s back at (b, s). No item changes an argument array on the way. -/
import proofs.«143195_j55250459295887_1_alg».proof.Proof.KI.Run
import proofs.«143195_j55250459295887_1_alg».proof.Proof.KI.Val0
import proofs.«143195_j55250459295887_1_alg».proof.Proof.KI.Val1
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The two reshapes read at an index -/

/-- The last reshape: the result's buffer at (b, s, h) is region 1's output array at (b·2048 + s, h). -/
theorem W4_v3_apply (c : Dev nD) (b : Fin 2) (s : Fin 2048) (h : Fin 4096) :
    (W4 (F := Ideal) m ρ c (Proc.devRef .tc main_v3) : S2x2048x4096.Idx → EReal) (ix3 b s h)
      = (W3 (F := Ideal) m ρ c (Proc.devRef .tc main_v2) : S4096x4096.Idx → EReal) (ix2 (rowOf b s) h) := by
  have e : (W4 (F := Ideal) m ρ c (Proc.devRef .tc main_v3) : S2x2048x4096.Idx → EReal)
      = shapeCast S2x2048x4096 (W3 (F := Ideal) m ρ c (Proc.devRef .tc main_v2) : S4096x4096.Idx → EReal)
          shapeCasts_S4096x4096_S2x2048x4096 := by
    show StableHlo.after hostOps2 (W3 (F := Ideal) m ρ c) (Proc.devRef .tc main_v3) = _
    after_results
    rfl
  rw [e]
  refine shapeCast_apply (s := S4096x4096) (t := S2x2048x4096) _ _ (ix3 b s h) (ix2 (rowOf b s) h) ?_
  rw [Shape.rowMajor_val_two, Shape.rowMajor_val_three]
  show (b.val * 2048 + s.val) * 4096 + h.val = (b.val * 2048 + s.val) * 4096 + h.val
  rfl

/-- The first reshape: region 0's activation rows are the activations' rows. -/
theorem V1_v0_rows (c : Dev nD) :
    rows2 (a := 4096) (b := 4096) (V1 (F := Ideal) m ρ c main_v0) = rowsX (m ((c.tc : Thread nD τ).loc main_arg0)) := by
  have e : (V1 (F := Ideal) m ρ c main_v0 : S4096x4096.Idx → EReal)
      = shapeCast S4096x4096 (m ((c.tc : Thread nD τ).loc main_arg0) : S2x2048x4096.Idx → EReal)
          shapeCasts_S2x2048x4096_S4096x4096 := by
    show StableHlo.after hostOps0 (W0 (F := Ideal) m ρ c) (Proc.devRef .tc main_v0) = _
    after_results
    rfl
  funext r h
  unfold rows2 rowsX
  rw [e]
  have hr := r.isLt
  refine shapeCast_apply (s := S2x2048x4096) (t := S4096x4096) _ _ (ix2 r h)
    (ix3 (⟨r.val / 2048, by omega⟩ : Fin 2) (⟨r.val % 2048, by omega⟩ : Fin 2048) h) ?_
  rw [Shape.rowMajor_val_three, Shape.rowMajor_val_two]
  show (r.val / 2048 * 2048 + r.val % 2048) * 4096 + h.val = r.val * 4096 + h.val
  omega

/-! ## The arrays at the boundaries -/

/-- The gate weight enters region 0 as launched. -/
theorem V1_arg1 (c : Dev nD) : V1 (F := Ideal) m ρ c main_arg1 = m ((c.tc : Thread nD τ).loc main_arg1) :=
  W1_of m ρ c main_arg1 (by decide)

/-- The up weight enters region 0 as launched. -/
theorem V1_arg2 (c : Dev nD) : V1 (F := Ideal) m ρ c main_arg2 = m ((c.tc : Thread nD τ).loc main_arg2) :=
  W1_of m ρ c main_arg2 (by decide)

/-- The down weight enters region 1 as launched. -/
theorem V2_arg3 (c : Dev nD) : V2 (F := Ideal) m ρ c main_arg3 = m ((c.tc : Thread nD τ).loc main_arg3) :=
  (W2_of_ne m ρ c main_arg3 (by decide)).trans (W1_of m ρ c main_arg3 (by decide))

/-- Region 1 enters with the treated hidden activation of the launched arrays in its first operand. -/
theorem V2_v1_apply (c : Dev nD) (r : Fin 4096) (i : Fin 11008) :
    rows2 (a := 4096) (b := 11008) (V2 (F := Ideal) m ρ c main_v1) r i
      = hq (rowsX (m ((c.tc : Thread nD τ).loc main_arg0))) (rows2 (m ((c.tc : Thread nD τ).loc main_arg1)))
          (rows2 (m ((c.tc : Thread nD τ).loc main_arg2))) r i := by
  have e : V2 (F := Ideal) m ρ c main_v1 = (dat0 (F := Ideal) (V1 m ρ) c).arrAt 3 cfg0.N := W2_arr m ρ c 3
  unfold rows2
  rw [e, hq_array (V := V1 m ρ) c r i, V1_v0_rows, V1_arg1, V1_arg2]
  rfl

/-- The result's buffer at the end of the run is the specification's result of the four argument arrays. -/
theorem result_value (c : Dev nD) :
    W4 (F := Ideal) m ρ c (Proc.devRef .tc main_v3)
      = Cert.Spec.result (m ((c.tc : Thread nD τ).loc main_arg0)) (m ((c.tc : Thread nD τ).loc main_arg1))
          (m ((c.tc : Thread nD τ).loc main_arg2)) (m ((c.tc : Thread nD τ).loc main_arg3)) := by
  funext i
  obtain ⟨b, s, h, rfl⟩ : ∃ (b : Fin 2) (s : Fin 2048) (h : Fin 4096), i = ix3 b s h := ⟨i 0, i 1, i 2, eq_ix3 i⟩
  rw [Cert.Spec.result_ix3]
  unfold Cert.Spec.down
  refine (W4_v3_apply m ρ c b s h).trans ?_
  have e : W3 (F := Ideal) m ρ c (Proc.devRef .tc main_v2) = (dat1 (F := Ideal) (V2 m ρ) c).arrAt 2 cfg1.N := W3_arr m ρ c 2
  rw [e, out_array (V := V2 m ρ) c (rowOf b s) h]
  show @Eq EReal _ _
  refine Finset.sum_congr rfl fun i _ => ?_
  rw [V2_v1_apply, V2_arg3]

end Cert.KernelIdeal.Val

end
-- ==== Proof.Ref1.lean ====
/- The reference program's stages up to the hidden activation, read at an index: each of the three group-wise
   treatments (of the activations and of the gate and up weights) is the specification's `fq` of the row, each
   projection the specification's sum, and SiLU(gate) · up the specification's `hidden`. -/
import proofs.«143195_j55250459295887_1_alg».proof.Proof.Spec
import proofs.«143195_j55250459295887_1_alg».proof.Proof.Gen.ReferenceIdeal.Read
import Idealize.ShloMosaic.PureOps.Ideal.Laws
import Idealize.ShloMosaic.Lib.Pipeline.Value
import Idealize.ShloMosaic.Lib.ValueIdx

noncomputable section

open scoped BigOperators

namespace Cert.ReferenceIdeal.RefSpec

open Cert.ReferenceIdeal Cert.ReferenceIdeal.Gen Cert.ReferenceIdeal.Read Cert.Spec
open Idealize.ShloMosaic Idealize.ShloMosaic.ValueIdx Idealize.ShloMosaic.StableHlo

/-! ## The activations: stages %0 – %14 -/

/-- Row b·2048 + s of the activations is the slice (b, s, ·). -/
theorem rowsX_rowOf (x0 : (⟨S2x2048x4096, .f32⟩ : BufTy).Contents (Elt Ideal)) (b : Fin 2) (s : Fin 2048) (h : Fin 4096) :
    rowsX x0 (rowOf b s) h = x0 (ix3 b s h) := by
  have hb : (rowOf b s).val / 2048 = b.val := by
    show (b.val * 2048 + s.val) / 2048 = b.val
    have := s.isLt; omega
  have hs : (rowOf b s).val % 2048 = s.val := by
    show (b.val * 2048 + s.val) % 2048 = s.val
    have := s.isLt; omega
  unfold rowsX
  congr 1
  funext a
  match a with
  | ⟨0, _⟩ => exact Fin.ext hb
  | ⟨1, _⟩ => exact Fin.ext hs
  | ⟨2, _⟩ => rfl

/-- The 128 entries of group g of the slice (b, s, ·). -/
def grpX (x0 : (⟨S2x2048x4096, .f32⟩ : BufTy).Contents (Elt Ideal)) (b : Fin 2) (s : Fin 2048) (g : Fin 32) : Fin 128 → EReal :=
  fun l => x0 (ix3 b s (⟨g.val * 128 + l.val, by have := g.isLt; have := l.isLt; omega⟩ : Fin 4096))

/-- %2 at (b, s, g): the largest magnitude of that group. -/
theorem ref_v2 (x0 : (⟨S2x2048x4096, .f32⟩ : BufTy).Contents (Elt Ideal)) (b : Fin 2) (s : Fin 2048) (g : Fin 32) :
    val_main_v2 (F := Ideal) x0 (ix3 b s g) = gmax (grpX x0 b s g) := by
  unfold val_main_v2
  rw [Host.reduce_eq_fold_single FloatOps.maximumf _ _ _ (by decide : Shape.Reduces S2x2048x32x128 [3] S2x2048x32)]
  unfold gmax
  show (Finset.univ : Finset (Fin 128)).fold max negInf _ = _
  congr 1
  funext l
  rw [Function.comp_apply, val_main_v1_apply, val_main_v0_apply]
  have hb := b.isLt; have hs := s.isLt; have hg := g.isLt
  have hl : l.val < 128 := l.isLt
  have e : idx_main_v0 ((by decide : Shape.Reduces S2x2048x32x128 [3] S2x2048x32).lift (ix3 b s g) l)
      = ix3 b s (⟨g.val * 128 + l.val, by omega⟩ : Fin 4096) := by
    funext a
    match a with
    | ⟨0, _⟩ => exact Fin.ext (by
        show (((b.val * 2048 + s.val) * 32 + g.val) * 128 + l.val) / 8388608 = b.val; omega)
    | ⟨1, _⟩ => exact Fin.ext (by
        show (((b.val * 2048 + s.val) * 32 + g.val) * 128 + l.val) / 4096 % 2048 = s.val; omega)
    | ⟨2, _⟩ => exact Fin.ext (by
        show (((b.val * 2048 + s.val) * 32 + g.val) * 128 + l.val) % 4096 = g.val * 128 + l.val; omega)
  rw [e]
  rfl

/-- %7 at (b, s, g, 0): the group's scale. -/
theorem ref_v7 (x0 : (⟨S2x2048x4096, .f32⟩ : BufTy).Contents (Elt Ideal)) (b : Fin 2) (s : Fin 2048) (g : Fin 32) (z : Fin 1) :
    val_main_v7 (F := Ideal) x0 (ix4 b s g z) = gscale (grpX x0 b s g) := by
  rw [val_main_v7_apply, val_main_v5_apply, val_main_v3_apply, val_main_v4_apply, val_main_v6_apply,
    val_main_cst_0_apply, val_main_cst_1_apply]
  have e : idx_main_v3 (ix4 b s g z) = ix3 b s g := by
    funext a
    match a with
    | ⟨0, _⟩ => rfl
    | ⟨1, _⟩ => rfl
    | ⟨2, _⟩ => rfl
  rw [e, ref_v2]
  rfl

/-- %13 at (b, s, g, l): the entry under its group's scale. -/
theorem ref_v13 (x0 : (⟨S2x2048x4096, .f32⟩ : BufTy).Contents (Elt Ideal)) (b : Fin 2) (s : Fin 2048) (g : Fin 32) (l : Fin 128) :
    val_main_v13 (F := Ideal) x0 (ix4 b s g l) = qd (gscale (grpX x0 b s g)) (grpX x0 b s g l) := by
  have e8 : idx_main_v8 (ix4 b s g l) = ix4 b s g (0 : Fin 1) := by
    funext a
    match a with
    | ⟨0, _⟩ => rfl
    | ⟨1, _⟩ => rfl
    | ⟨2, _⟩ => rfl
    | ⟨3, _⟩ => rfl
  have e12 : idx_main_v12 (ix4 b s g l) = ix4 b s g (0 : Fin 1) := e8
  have e0 : idx_main_v0 (ix4 b s g l) = ix3 b s (⟨g.val * 128 + l.val, by have := g.isLt; have := l.isLt; omega⟩ : Fin 4096) := by
    funext a
    have hb := b.isLt; have hs := s.isLt; have hg := g.isLt; have hl := l.isLt
    match a with
    | ⟨0, _⟩ => exact Fin.ext (by
        show (((b.val * 2048 + s.val) * 32 + g.val) * 128 + l.val) / 8388608 = b.val; omega)
    | ⟨1, _⟩ => exact Fin.ext (by
        show (((b.val * 2048 + s.val) * 32 + g.val) * 128 + l.val) / 4096 % 2048 = s.val; omega)
    | ⟨2, _⟩ => exact Fin.ext (by
        show (((b.val * 2048 + s.val) * 32 + g.val) * 128 + l.val) % 4096 = g.val * 128 + l.val; omega)
  rw [val_main_v13_apply, val_main_v11_apply, val_main_call1_v4_apply, val_main_call1_v3_apply, val_main_cst_3_apply,
    val_main_call1_v2_apply, val_main_call1_v1_apply, val_main_call1_v0_apply, val_main_cst_2_apply,
    val_main_v10_apply, val_main_v9_apply, val_main_v0_apply, val_main_v8_apply, val_main_v12_apply,
    e8, e12, e0, ref_v7]
  rfl

/-- The treated activations at (b, s, h): the treatment of row b·2048 + s at column h. -/
theorem ref_xq (x0 : (⟨S2x2048x4096, .f32⟩ : BufTy).Contents (Elt Ideal)) (b : Fin 2) (s : Fin 2048) (h : Fin 4096) :
    val_main_v14 (F := Ideal) x0 (ix3 b s h) = fq h4096 (rowsX x0 (rowOf b s)) h := by
  have hh := h.isLt
  have e14 : idx_main_v14 (ix3 b s h)
      = ix4 b s (⟨h.val / 128, by omega⟩ : Fin 32) (⟨h.val % 128, by omega⟩ : Fin 128) := by
    funext a
    have hb := b.isLt; have hs := s.isLt
    match a with
    | ⟨0, _⟩ => exact Fin.ext (by
        show ((b.val * 2048 + s.val) * 4096 + h.val) / 8388608 = b.val; omega)
    | ⟨1, _⟩ => exact Fin.ext (by
        show ((b.val * 2048 + s.val) * 4096 + h.val) / 4096 % 2048 = s.val; omega)
    | ⟨2, _⟩ => exact Fin.ext (by
        show ((b.val * 2048 + s.val) * 4096 + h.val) / 128 % 32 = h.val / 128; omega)
    | ⟨3, _⟩ => exact Fin.ext (by
        show ((b.val * 2048 + s.val) * 4096 + h.val) % 128 = h.val % 128; omega)
  have eg : grpOf h4096 (rowsX x0 (rowOf b s)) h = grpX x0 b s (⟨h.val / 128, by omega⟩ : Fin 32) := by
    funext l
    unfold grpOf grpX
    rw [rowsX_rowOf]
  have ee : rowsX x0 (rowOf b s) h = grpX x0 b s (⟨h.val / 128, by omega⟩ : Fin 32) (⟨h.val % 128, by omega⟩ : Fin 128) := by
    rw [rowsX_rowOf]
    unfold grpX
    congr 2
    exact Fin.ext (by show h.val = h.val / 128 * 128 + h.val % 128; omega)
  rw [val_main_v14_apply, e14, ref_v13]
  unfold fq
  rw [eg, ee]

/-! ## The gate and up weights: stages %15 – %29 and %31 – %45 -/

/-- The 128 entries of group g of row n of a weight. -/
def grpW (w : (⟨S11008x4096, .f32⟩ : BufTy).Contents (Elt Ideal)) (n : Fin 11008) (g : Fin 32) : Fin 128 → EReal :=
  fun l => w (ix2 n (⟨g.val * 128 + l.val, by have := g.isLt; have := l.isLt; omega⟩ : Fin 4096))

/-- The reshaped weight at (n, g, l) is the weight at (n, g·128 + l). -/
theorem idx_v15_ix3 (n : Fin 11008) (g : Fin 32) (l : Fin 128) :
    idx_main_v15 (ix3 n g l) = ix2 n (⟨g.val * 128 + l.val, by have := g.isLt; have := l.isLt; omega⟩ : Fin 4096) := by
  funext a
  have hn := n.isLt; have hg := g.isLt; have hl := l.isLt
  match a with
  | ⟨0, _⟩ => exact Fin.ext (by
      show ((n.val * 32 + g.val) * 128 + l.val) / 4096 = n.val; omega)
  | ⟨1, _⟩ => exact Fin.ext (by
      show ((n.val * 32 + g.val) * 128 + l.val) % 4096 = g.val * 128 + l.val; omega)

/-- %17 at (n, g): the largest magnitude of that group. -/
theorem ref_v17 (w : (⟨S11008x4096, .f32⟩ : BufTy).Contents (Elt Ideal)) (n : Fin 11008) (g : Fin 32) :
    val_main_v17 (F := Ideal) w (ix2 n g) = gmax (grpW w n g) := by
  unfold val_main_v17
  rw [Host.reduce_eq_fold_single FloatOps.maximumf _ _ _ (by decide : Shape.Reduces S11008x32x128 [2] S11008x32)]
  unfold gmax
  show (Finset.univ : Finset (Fin 128)).fold max negInf _ = _
  congr 1
  funext l
  rw [Function.comp_apply, val_main_v16_apply, val_main_v15_apply]
  have hn := n.isLt; have hg := g.isLt
  have hl : l.val < 128 := l.isLt
  have e : idx_main_v15 ((by decide : Shape.Reduces S11008x32x128 [2] S11008x32).lift (ix2 n g) l)
      = ix2 n (⟨g.val * 128 + l.val, by omega⟩ : Fin 4096) := by
    funext a
    match a with
    | ⟨0, _⟩ => exact Fin.ext (by
        show ((n.val * 32 + g.val) * 128 + l.val) / 4096 = n.val; omega)
    | ⟨1, _⟩ => exact Fin.ext (by
        show ((n.val * 32 + g.val) * 128 + l.val) % 4096 = g.val * 128 + l.val; omega)
  rw [e]
  rfl

/-- %22 at (n, g, 0): the group's scale. -/
theorem ref_v22 (w : (⟨S11008x4096, .f32⟩ : BufTy).Contents (Elt Ideal)) (n : Fin 11008) (g : Fin 32) (z : Fin 1) :
    val_main_v22 (F := Ideal) w (ix3 n g z) = gscale (grpW w n g) := by
  rw [val_main_v22_apply, val_main_v20_apply, val_main_v18_apply, val_main_v19_apply, val_main_v21_apply,
    val_main_cst_5_apply, val_main_cst_6_apply]
  have e : idx_main_v18 (ix3 n g z) = ix2 n g := by
    funext a
    match a with
    | ⟨0, _⟩ => rfl
    | ⟨1, _⟩ => rfl
  rw [e, ref_v17]
  rfl

/-- %28 at (n, g, l): the entry under its group's scale. -/
theorem ref_v28 (w : (⟨S11008x4096, .f32⟩ : BufTy).Contents (Elt Ideal)) (n : Fin 11008) (g : Fin 32) (l : Fin 128) :
    val_main_v28 (F := Ideal) w (ix3 n g l) = qd (gscale (grpW w n g)) (grpW w n g l) := by
  have e23 : idx_main_v23 (ix3 n g l) = ix3 n g (0 : Fin 1) := by
    funext a
    match a with
    | ⟨0, _⟩ => rfl
    | ⟨1, _⟩ => rfl
    | ⟨2, _⟩ => rfl
  have e27 : idx_main_v27 (ix3 n g l) = ix3 n g (0 : Fin 1) := e23
  rw [val_main_v28_apply, val_main_v26_apply, val_main_call3_v4_apply, val_main_call3_v3_apply, val_main_cst_8_apply,
    val_main_call3_v2_apply, val_main_call3_v1_apply, val_main_call3_v0_apply, val_main_cst_7_apply,
    val_main_v25_apply, val_main_v24_apply, val_main_v15_apply, val_main_v23_apply, val_main_v27_apply,
    e23, e27, idx_v15_ix3, ref_v22]
  rfl

/-- The treated gate weight at (n, h). -/
theorem ref_wgq (x1 : (⟨S11008x4096, .f32⟩ : BufTy).Contents (Elt Ideal)) (n : Fin 11008) (h : Fin 4096) :
    val_main_v29 (F := Ideal) x1 (ix2 n h) = fq h4096 (rows2 x1 n) h := by
  have hh := h.isLt
  have e29 : idx_main_v29 (ix2 n h)
      = ix3 n (⟨h.val / 128, by omega⟩ : Fin 32) (⟨h.val % 128, by omega⟩ : Fin 128) := by
    funext a
    have hn := n.isLt
    match a with
    | ⟨0, _⟩ => exact Fin.ext (by
        show (n.val * 4096 + h.val) / 4096 = n.val; omega)
    | ⟨1, _⟩ => exact Fin.ext (by
        show (n.val * 4096 + h.val) / 128 % 32 = h.val / 128; omega)
    | ⟨2, _⟩ => exact Fin.ext (by
        show (n.val * 4096 + h.val) % 128 = h.val % 128; omega)
  have eg : grpOf h4096 (rows2 x1 n) h = grpW x1 n (⟨h.val / 128, by omega⟩ : Fin 32) := rfl
  have ee : rows2 x1 n h = grpW x1 n (⟨h.val / 128, by omega⟩ : Fin 32) (⟨h.val % 128, by omega⟩ : Fin 128) := by
    unfold grpW rows2
    congr 2
    exact Fin.ext (by show h.val = h.val / 128 * 128 + h.val % 128; omega)
  rw [val_main_v29_apply, e29, ref_v28]
  unfold fq
  rw [eg, ee]

/-- The up weight goes through the same stages as the gate weight. -/
theorem val_main_v45_eq (x2 : (⟨S11008x4096, .f32⟩ : BufTy).Contents (Elt Ideal)) :
    val_main_v45 (F := Ideal) x2 = val_main_v29 (F := Ideal) x2 := rfl

/-- The treated up weight at (n, h). -/
theorem ref_wuq (x2 : (⟨S11008x4096, .f32⟩ : BufTy).Contents (Elt Ideal)) (n : Fin 11008) (h : Fin 4096) :
    val_main_v45 (F := Ideal) x2 (ix2 n h) = fq h4096 (rows2 x2 n) h := by
  rw [val_main_v45_eq]
  exact ref_wgq x2 n h

/-! ## The projections, SiLU and the hidden activation: stages %30, %46, %47, %48 -/

/-- The word 0x3F800000 is the number 1. -/
theorem ofBits_one_f32 : Ideal.ofBits .f32 0x3F800000#32 = 1 := by
  simp [Ideal.ofBits, Ideal.ieee]
  rw [← EReal.coe_mul, ← EReal.coe_one]
  congr 1
  norm_num

/-- %30 at (b, s, n): the gate projection. -/
theorem ref_gate (x0 : (⟨S2x2048x4096, .f32⟩ : BufTy).Contents (Elt Ideal)) (x1 : (⟨S11008x4096, .f32⟩ : BufTy).Contents (Elt Ideal))
    (b : Fin 2) (s : Fin 2048) (n : Fin 11008) :
    val_main_v30 (F := Ideal) x0 x1 (ix3 b s n) = proj (rowsX x0) (rows2 x1) (rowOf b s) n := by
  rw [val_main_v30_apply]
  unfold proj
  refine Finset.sum_congr rfl fun k _ => ?_
  have el : lidx_main_v30 (ix3 b s n) k = ix3 b s k := by
    funext a
    match a with
    | ⟨0, _⟩ => rfl
    | ⟨1, _⟩ => rfl
    | ⟨2, _⟩ => rfl
  have er : ridx_main_v30 (ix3 b s n) k = ix2 n k := by
    funext a
    match a with
    | ⟨0, _⟩ => rfl
    | ⟨1, _⟩ => rfl
  rw [el, er, ref_xq, ref_wgq]

/-- %46 at (b, s, n): the up projection. -/
theorem ref_up (x0 : (⟨S2x2048x4096, .f32⟩ : BufTy).Contents (Elt Ideal)) (x2 : (⟨S11008x4096, .f32⟩ : BufTy).Contents (Elt Ideal))
    (b : Fin 2) (s : Fin 2048) (n : Fin 11008) :
    val_main_v46 (F := Ideal) x0 x2 (ix3 b s n) = proj (rowsX x0) (rows2 x2) (rowOf b s) n := by
  rw [val_main_v46_apply]
  unfold proj
  refine Finset.sum_congr rfl fun k _ => ?_
  have el : lidx_main_v46 (ix3 b s n) k = ix3 b s k := by
    funext a
    match a with
    | ⟨0, _⟩ => rfl
    | ⟨1, _⟩ => rfl
    | ⟨2, _⟩ => rfl
  have er : ridx_main_v46 (ix3 b s n) k = ix2 n k := by
    funext a
    match a with
    | ⟨0, _⟩ => rfl
    | ⟨1, _⟩ => rfl
  rw [el, er, ref_xq, ref_wuq]

/-- SiLU(gate) · up at (b, s, n) is the specification's hidden activation of row b·2048 + s at column n. -/
theorem ref_hidden (x0 : (⟨S2x2048x4096, .f32⟩ : BufTy).Contents (Elt Ideal)) (x1 x2 : (⟨S11008x4096, .f32⟩ : BufTy).Contents (Elt Ideal))
    (b : Fin 2) (s : Fin 2048) (n : Fin 11008) :
    val_main_v48 (F := Ideal) x0 x1 x2 (ix3 b s n) = hidden (rowsX x0) (rows2 x1) (rows2 x2) (rowOf b s) n := by
  rw [val_main_v48_apply, val_main_v47_apply, val_main_call6_v5_apply, val_main_call6_v4_apply,
    val_main_call6_cst_0_apply, val_main_call6_v3_apply, val_main_call6_v2_apply, val_main_call6_cst_apply,
    val_main_call6_v1_apply, val_main_call6_v0_apply, ref_gate, ref_up]
  unfold Cert.Spec.hidden Ideal.logistic
  show proj (rowsX x0) (rows2 x1) (rowOf b s) n
      * Ideal.div (Ideal.ofBits .f32 0x3F800000#32)
          (Ideal.ofBits .f32 0x3F800000#32 + Ideal.exp (-(proj (rowsX x0) (rows2 x1) (rowOf b s) n)))
      * proj (rowsX x0) (rows2 x2) (rowOf b s) n = _
  rw [ofBits_one_f32]

end Cert.ReferenceIdeal.RefSpec

end
-- ==== Proof.Ref2.lean ====
/- The reference program's last stages read at an index: the hidden activation's own group-wise treatment, the down
   weight's, and the final contraction; so the reference's result is the specification's. -/
import proofs.«143195_j55250459295887_1_alg».proof.Proof.Ref1
import Idealize.ShloMosaic.PureOps.Reduce
import Idealize.ShloMosaic.PureOps.Ideal.Laws
import Idealize.ShloMosaic.Lib.ValueIdx

noncomputable section

open scoped BigOperators

namespace Cert.ReferenceIdeal.RefSpec

open Cert.ReferenceIdeal Cert.ReferenceIdeal.Gen Cert.ReferenceIdeal.Read Cert.Spec
open Idealize.ShloMosaic Idealize.ShloMosaic.ValueIdx Idealize.ShloMosaic.StableHlo

/-! ## The hidden activation's treatment, rank 4: [2, 2048, 86, 128] -/

/-- The lane axis of [2, 2048, 86, 128] reduces to [2, 2048, 86]. -/
theorem red_v51 : S2x2048x86x128.Reduces [3] S2x2048x86 := by decide

/-- A group's largest-magnitude fold: the reduction at (b, s, g) runs over the 128 lanes of group g of row (b, s). -/
theorem v51_read (x0 : (⟨S2x2048x4096, .f32⟩ : BufTy).Contents (Elt Ideal)) (x1 x2 : (⟨S11008x4096, .f32⟩ : BufTy).Contents (Elt Ideal))
    (b : Fin 2) (s : Fin 2048) (g : Fin 86) :
    val_main_v51 (F := Ideal) x0 x1 x2 (ix3 b s g)
      = (Finset.univ : Finset (Fin 128)).fold max negInf
          (fun l => val_main_v50 (F := Ideal) x0 x1 x2 (ix4 b s g l)) := by
  unfold val_main_v51
  rw [Host.reduce_eq_fold_single (FloatOps.maximumf (F := Ideal) (φ := .f32)) _ _ _ red_v51]
  have e : (val_main_v50 (F := Ideal) x0 x1 x2 ∘ red_v51.lift (ix3 b s g))
      = (fun l => val_main_v50 (F := Ideal) x0 x1 x2 (ix4 b s g l)) := by
    funext l
    show val_main_v50 (F := Ideal) x0 x1 x2 (red_v51.lift (ix3 b s g) l) = _
    congr 1
    funext a
    match a with
    | ⟨0, _⟩ => rfl
    | ⟨1, _⟩ => rfl
    | ⟨2, _⟩ => rfl
    | ⟨3, _⟩ => rfl
  rw [e]
  rfl

/-- Entry (b, s, g, l) of the grouped view is entry g·128 + l of row (b, s). -/
theorem idx_v49_at (b : Fin 2) (s : Fin 2048) (g : Fin 86) (l : Fin 128) :
    idx_main_v49 (ix4 b s g l)
      = ix3 b s (⟨g.val * 128 + l.val, by have := g.isLt; have := l.isLt; omega⟩ : Fin 11008) := by
  have := b.isLt; have := s.isLt; have := g.isLt; have := l.isLt
  funext a
  match a with
  | ⟨0, _⟩ => exact Fin.ext (by show ((((b.val * 2048 + s.val) * 86 + g.val) * 128 + l.val)) / 22544384 = b.val; omega)
  | ⟨1, _⟩ => exact Fin.ext (by show ((((b.val * 2048 + s.val) * 86 + g.val) * 128 + l.val)) / 11008 % 2048 = s.val; omega)
  | ⟨2, _⟩ => exact Fin.ext (by show ((((b.val * 2048 + s.val) * 86 + g.val) * 128 + l.val)) % 11008 = g.val * 128 + l.val; omega)

/-- Entry n of row (b, s) lies in group n / 128 at lane n % 128. -/
theorem idx_v63_at (b : Fin 2) (s : Fin 2048) (n : Fin 11008) :
    idx_main_v63 (ix3 b s n)
      = ix4 b s (⟨n.val / 128, by have := n.isLt; omega⟩ : Fin 86) (⟨n.val % 128, by omega⟩ : Fin 128) := by
  have := b.isLt; have := s.isLt; have := n.isLt
  funext a
  match a with
  | ⟨0, _⟩ => exact Fin.ext (by show (((b.val * 2048 + s.val) * 11008 + n.val)) / 22544384 = b.val; omega)
  | ⟨1, _⟩ => exact Fin.ext (by show (((b.val * 2048 + s.val) * 11008 + n.val)) / 11008 % 2048 = s.val; omega)
  | ⟨2, _⟩ => exact Fin.ext (by show (((b.val * 2048 + s.val) * 11008 + n.val)) / 128 % 86 = n.val / 128; omega)
  | ⟨3, _⟩ => exact Fin.ext (by show (((b.val * 2048 + s.val) * 11008 + n.val)) % 128 = n.val % 128; omega)

/-- The scale of group g of row (b, s) of the hidden activation. -/
theorem v56_read (x0 : (⟨S2x2048x4096, .f32⟩ : BufTy).Contents (Elt Ideal)) (x1 x2 : (⟨S11008x4096, .f32⟩ : BufTy).Contents (Elt Ideal))
    (b : Fin 2) (s : Fin 2048) (g : Fin 86) :
    val_main_v56 (F := Ideal) x0 x1 x2 (ix4 b s g (0 : Fin 1))
      = gscale (fun l => val_main_v48 (F := Ideal) x0 x1 x2
          (ix3 b s (⟨g.val * 128 + l.val, by have := g.isLt; have := l.isLt; omega⟩ : Fin 11008))) := by
  rw [val_main_v56_apply, val_main_v54_apply, val_main_v52_apply, val_main_v53_apply, val_main_v55_apply,
    val_main_cst_15_apply, val_main_cst_16_apply]
  have e : idx_main_v52 (ix4 b s g (0 : Fin 1)) = ix3 b s g := by
    funext a
    match a with
    | ⟨0, _⟩ => rfl
    | ⟨1, _⟩ => rfl
    | ⟨2, _⟩ => rfl
  rw [e, v51_read]
  have f : (fun l : Fin 128 => val_main_v50 (F := Ideal) x0 x1 x2 (ix4 b s g l))
      = fun l => max (val_main_v48 (F := Ideal) x0 x1 x2
            (ix3 b s (⟨g.val * 128 + l.val, by have := g.isLt; have := l.isLt; omega⟩ : Fin 11008)))
          (-(val_main_v48 (F := Ideal) x0 x1 x2
            (ix3 b s (⟨g.val * 128 + l.val, by have := g.isLt; have := l.isLt; omega⟩ : Fin 11008)))) := by
    funext l
    rw [val_main_v50_apply, val_main_v49_apply, idx_v49_at]
    rfl
  rw [f]
  rfl

/-- Stages %49–%63 at (b, s, n): the group-wise treatment of row (b, s) of the hidden activation, at entry n. -/
theorem v63_read (x0 : (⟨S2x2048x4096, .f32⟩ : BufTy).Contents (Elt Ideal)) (x1 x2 : (⟨S11008x4096, .f32⟩ : BufTy).Contents (Elt Ideal))
    (b : Fin 2) (s : Fin 2048) (n : Fin 11008) :
    val_main_v63 (F := Ideal) x0 x1 x2 (ix3 b s n)
      = fq h11008 (fun n' => val_main_v48 (F := Ideal) x0 x1 x2 (ix3 b s n')) n := by
  have hn := n.isLt
  rw [val_main_v63_apply, idx_v63_at, val_main_v62_apply, val_main_v60_apply, val_main_v61_apply, val_main_call8_v4_apply,
    val_main_call8_v3_apply, val_main_cst_18_apply, val_main_call8_v2_apply, val_main_call8_v1_apply,
    val_main_call8_v0_apply, val_main_cst_17_apply, val_main_v59_apply, val_main_v58_apply, val_main_v57_apply,
    val_main_v49_apply, idx_v49_at]
  have e : idx_main_v57 (ix4 b s (⟨n.val / 128, by omega⟩ : Fin 86) (⟨n.val % 128, by omega⟩ : Fin 128))
      = ix4 b s (⟨n.val / 128, by omega⟩ : Fin 86) (0 : Fin 1) := by
    funext a
    match a with
    | ⟨0, _⟩ => rfl
    | ⟨1, _⟩ => rfl
    | ⟨2, _⟩ => rfl
    | ⟨3, _⟩ => rfl
  have e' : idx_main_v61 (ix4 b s (⟨n.val / 128, by omega⟩ : Fin 86) (⟨n.val % 128, by omega⟩ : Fin 128))
      = ix4 b s (⟨n.val / 128, by omega⟩ : Fin 86) (0 : Fin 1) := e
  rw [e, e', v56_read]
  have k : (⟨n.val / 128 * 128 + n.val % 128, by omega⟩ : Fin 11008) = n :=
    Fin.ext (by show n.val / 128 * 128 + n.val % 128 = n.val; omega)
  rw [k]
  rfl

/-- The treated hidden activation at (b, s, n). -/
theorem ref_hq (x0 : (⟨S2x2048x4096, .f32⟩ : BufTy).Contents (Elt Ideal)) (x1 x2 : (⟨S11008x4096, .f32⟩ : BufTy).Contents (Elt Ideal))
    (b : Fin 2) (s : Fin 2048) (n : Fin 11008) :
    val_main_v63 (F := Ideal) x0 x1 x2 (ix3 b s n) = hq (rowsX x0) (rows2 x1) (rows2 x2) (rowOf b s) n := by
  rw [v63_read]
  have e : (fun n' => val_main_v48 (F := Ideal) x0 x1 x2 (ix3 b s n'))
      = hidden (rowsX x0) (rows2 x1) (rows2 x2) (rowOf b s) := funext fun n' => ref_hidden x0 x1 x2 b s n'
  rw [e]
  rfl

/-! ## The down weight's treatment, rank 3: [4096, 86, 128] -/

/-- The lane axis of [4096, 86, 128] reduces to [4096, 86]. -/
theorem red_v66 : S4096x86x128.Reduces [2] S4096x86 := by decide

/-- A group's largest-magnitude fold: the reduction at (h, g) runs over the 128 lanes of group g of row h. -/
theorem v66_read (x3 : (⟨S4096x11008, .f32⟩ : BufTy).Contents (Elt Ideal)) (h : Fin 4096) (g : Fin 86) :
    val_main_v66 (F := Ideal) x3 (ix2 h g)
      = (Finset.univ : Finset (Fin 128)).fold max negInf
          (fun l => val_main_v65 (F := Ideal) x3 (ix3 h g l)) := by
  unfold val_main_v66
  rw [Host.reduce_eq_fold_single (FloatOps.maximumf (F := Ideal) (φ := .f32)) _ _ _ red_v66]
  have e : (val_main_v65 (F := Ideal) x3 ∘ red_v66.lift (ix2 h g)) = (fun l => val_main_v65 (F := Ideal) x3 (ix3 h g l)) := by
    funext l
    show val_main_v65 (F := Ideal) x3 (red_v66.lift (ix2 h g) l) = _
    congr 1
    funext a
    match a with
    | ⟨0, _⟩ => rfl
    | ⟨1, _⟩ => rfl
    | ⟨2, _⟩ => rfl
  rw [e]
  rfl

/-- Entry (h, g, l) of the grouped view is entry g·128 + l of row h. -/
theorem idx_v64_at (h : Fin 4096) (g : Fin 86) (l : Fin 128) :
    idx_main_v64 (ix3 h g l) = ix2 h (⟨g.val * 128 + l.val, by have := g.isLt; have := l.isLt; omega⟩ : Fin 11008) := by
  have := h.isLt; have := g.isLt; have := l.isLt
  funext a
  match a with
  | ⟨0, _⟩ => exact Fin.ext (by show ((h.val * 86 + g.val) * 128 + l.val) / 11008 = h.val; omega)
  | ⟨1, _⟩ => exact Fin.ext (by show ((h.val * 86 + g.val) * 128 + l.val) % 11008 = g.val * 128 + l.val; omega)

/-- Entry i of row h lies in group i / 128 at lane i % 128. -/
theorem idx_v78_at (h : Fin 4096) (i : Fin 11008) :
    idx_main_v78 (ix2 h i)
      = ix3 h (⟨i.val / 128, by have := i.isLt; omega⟩ : Fin 86) (⟨i.val % 128, by omega⟩ : Fin 128) := by
  have := h.isLt; have := i.isLt
  funext a
  match a with
  | ⟨0, _⟩ => exact Fin.ext (by show (h.val * 11008 + i.val) / 11008 = h.val; omega)
  | ⟨1, _⟩ => exact Fin.ext (by show (h.val * 11008 + i.val) / 128 % 86 = i.val / 128; omega)
  | ⟨2, _⟩ => exact Fin.ext (by show (h.val * 11008 + i.val) % 128 = i.val % 128; omega)

/-- The scale of group g of row h. -/
theorem v71_read (x3 : (⟨S4096x11008, .f32⟩ : BufTy).Contents (Elt Ideal)) (h : Fin 4096) (g : Fin 86) :
    val_main_v71 (F := Ideal) x3 (ix3 h g (0 : Fin 1))
      = gscale (fun l => x3 (ix2 h (⟨g.val * 128 + l.val, by have := g.isLt; have := l.isLt; omega⟩ : Fin 11008))) := by
  rw [val_main_v71_apply, val_main_v69_apply, val_main_v67_apply, val_main_v68_apply, val_main_v70_apply,
    val_main_cst_20_apply, val_main_cst_21_apply]
  have e : idx_main_v67 (ix3 h g (0 : Fin 1)) = ix2 h g := by
    funext a
    match a with
    | ⟨0, _⟩ => rfl
    | ⟨1, _⟩ => rfl
  rw [e, v66_read]
  have f : (fun l : Fin 128 => val_main_v65 (F := Ideal) x3 (ix3 h g l))
      = fun l => max (x3 (ix2 h (⟨g.val * 128 + l.val, by have := g.isLt; have := l.isLt; omega⟩ : Fin 11008)))
          (-(x3 (ix2 h (⟨g.val * 128 + l.val, by have := g.isLt; have := l.isLt; omega⟩ : Fin 11008)))) := by
    funext l
    rw [val_main_v65_apply, val_main_v64_apply, idx_v64_at]
    rfl
  rw [f]
  rfl

/-- The treated down weight at (h, i). -/
theorem ref_wdq (x3 : (⟨S4096x11008, .f32⟩ : BufTy).Contents (Elt Ideal)) (h : Fin 4096) (i : Fin 11008) :
    val_main_v78 (F := Ideal) x3 (ix2 h i) = fq h11008 (rows2 x3 h) i := by
  have hi := i.isLt
  rw [val_main_v78_apply, idx_v78_at, val_main_v77_apply, val_main_v75_apply, val_main_v76_apply, val_main_call10_v4_apply,
    val_main_call10_v3_apply, val_main_cst_23_apply, val_main_call10_v2_apply, val_main_call10_v1_apply,
    val_main_call10_v0_apply, val_main_cst_22_apply, val_main_v74_apply, val_main_v73_apply, val_main_v72_apply,
    val_main_v64_apply, idx_v64_at]
  have e : idx_main_v72 (ix3 h (⟨i.val / 128, by omega⟩ : Fin 86) (⟨i.val % 128, by omega⟩ : Fin 128))
      = ix3 h (⟨i.val / 128, by omega⟩ : Fin 86) (0 : Fin 1) := by
    funext a
    match a with
    | ⟨0, _⟩ => rfl
    | ⟨1, _⟩ => rfl
    | ⟨2, _⟩ => rfl
  have e' : idx_main_v76 (ix3 h (⟨i.val / 128, by omega⟩ : Fin 86) (⟨i.val % 128, by omega⟩ : Fin 128))
      = ix3 h (⟨i.val / 128, by omega⟩ : Fin 86) (0 : Fin 1) := e
  rw [e, e', v71_read]
  have k : (⟨i.val / 128 * 128 + i.val % 128, by omega⟩ : Fin 11008) = i := Fin.ext (by show i.val / 128 * 128 + i.val % 128 = i.val; omega)
  rw [k]
  rfl

/-- The reference's result is the specification's, index by index. -/
theorem ref_is_spec (x0 : (⟨S2x2048x4096, .f32⟩ : BufTy).Contents (Elt Ideal)) (x1 x2 : (⟨S11008x4096, .f32⟩ : BufTy).Contents (Elt Ideal))
    (x3 : (⟨S4096x11008, .f32⟩ : BufTy).Contents (Elt Ideal)) :
    val_main_v79 (F := Ideal) x0 x1 x2 x3 = Cert.Spec.result x0 x1 x2 x3 := by
  funext i
  obtain ⟨b, s, h, rfl⟩ : ∃ (b : Fin 2) (s : Fin 2048) (h : Fin 4096), i = ix3 b s h := ⟨i 0, i 1, i 2, eq_ix3 i⟩
  rw [val_main_v79_apply, result_ix3]
  unfold down
  refine Finset.sum_congr rfl fun k _ => ?_
  have el : lidx_main_v79 (ix3 b s h) k = ix3 b s k := by
    funext a
    match a with
    | ⟨0, _⟩ => rfl
    | ⟨1, _⟩ => rfl
    | ⟨2, _⟩ => rfl
  have er : ridx_main_v79 (ix3 b s h) k = ix2 h k := by
    funext a
    match a with
    | ⟨0, _⟩ => rfl
    | ⟨1, _⟩ => rfl
  rw [el, er, ref_hq, ref_wdq]

end Cert.ReferenceIdeal.RefSpec

end
-- ==== Proof.lean ====
/- The certificate of the grouped-quantized SwiGLU MLP kernel against its reference, over the extended reals.

   Both programs compute  out[r, h] = Σ_i hq[r, i] · wdq[h, i],  where every array is first treated group-wise along
   its last axis (groups of 128: scale = max(max|g| / 127, ε), entry ↦ clamp(round(entry / scale), ±127) · scale) and
   hq is the same treatment of (gate · logistic(gate)) · up, gate and up being the products of the treated activations
   with the treated gate and up weights (Proof/Spec.lean). The kernel does it in two pipelined regions: region 0
   computes hq block by block (each 256 × 128 block's columns are exactly one group), region 1 adds the 43 partial
   products of 256 hidden columns each into an accumulator reset at the first and written out at the last; at the
   ideal instance the partial sums regroup into the reference's single sum (addition of extended reals is commutative
   and associative), a change of float format is the identity, and the kernel's one logistic operation is the
   reference's 1 / (1 + exp(−x)). The frames: both kernel programs run their four items (reshape, region 0, region 1,
   reshape) to the end with the argument arrays untouched; the reference's frame is its run with the result dropped.
   The ideal pass rewrote no operation, so nothing is owed for `preserves`. -/
import proofs.«143195_j55250459295887_1_alg».proof.Defs
import proofs.«143195_j55250459295887_1_alg».proof.Proof.Gen.Kernel
import proofs.«143195_j55250459295887_1_alg».proof.Proof.Gen.KernelIdeal
import proofs.«143195_j55250459295887_1_alg».proof.Proof.Gen.ReferenceIdeal
import proofs.«143195_j55250459295887_1_alg».proof.Proof.Gen.ReferenceIdeal.Run
import proofs.«143195_j55250459295887_1_alg».proof.Proof.Gen.ReferenceIdeal.Read
import proofs.«143195_j55250459295887_1_alg».proof.Proof.Gen.Pre_finite_inputs
import proofs.«143195_j55250459295887_1_alg».proof.Proof.K.Run
import proofs.«143195_j55250459295887_1_alg».proof.Proof.KI.Run
import proofs.«143195_j55250459295887_1_alg».proof.Proof.KI.Value
import proofs.«143195_j55250459295887_1_alg».proof.Proof.Ref2
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Fr.frame m ρ

/-- So does the idealized one. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's result of the (agreeing) argument arrays. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Val.result_value m ρ c), (h c).2⟩)
      (Cert.KernelIdeal.Fr.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v79_eq, Cert.ReferenceIdeal.RefSpec.ref_is_spec,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
